-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x8 : Shape := ⟨3, ![32, 64, 8]⟩
abbrev S32x2x64x49x256 : Shape := ⟨5, ![32, 2, 64, 49, 256]⟩
abbrev S_ : Shape := ⟨0, ![]⟩

class Facts : Prop where
  bcast_S_S32x64x8 : S_.BroadcastsInDim S32x64x8 (![] : Fin 0 → Fin S32x64x8.rank)
  reducesTo_S32x64x8_S_d0_1_2 : S32x64x8.ReducesTo [0, 1, 2] S_
  h_S_ : 0 < S_.numel
  bcast_S_S32x2x64x49x256 : S_.BroadcastsInDim S32x2x64x49x256 (![] : Fin 0 → Fin S32x2x64x49x256.rank)
  reducesTo_S32x2x64x49x256_S_d0_1_2_3_4 : S32x2x64x49x256.ReducesTo [0, 1, 2, 3, 4] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S32x64x8 32) (main_arg1 : FVec F S32x64x8 .f32) (main_arg2 : FVec F S32x2x64x49x256 .f32) : IVec S_ 1 :=
  let main_v0 : FVec F S32x64x8 .f32 := Host.absf main_arg1
  let main_cst : FVec F S_ .f32 := constant S_ .f32 0x7F800000#32
  let main_v1 : FVec F S32x64x8 .f32 := broadcastInDim S32x64x8 ![] bcast_S_S32x64x8 main_cst
  let main_v2 : IVec S32x64x8 1 := cmpf .olt main_v0 main_v1
  let main_c : IVec S_ 1 := constantI S_ 1 1#1
  let main_v3 : IVec S_ 1 := (fun x v => Host.reduce IntOp.andi x v reducesTo_S32x64x8_S_d0_1_2 h_S_) main_v2 main_c
  let main_v4 : FVec F S32x2x64x49x256 .f32 := Host.absf main_arg2
  let main_cst_0 : FVec F S_ .f32 := constant S_ .f32 0x7F800000#32
  let main_v5 : FVec F S32x2x64x49x256 .f32 := broadcastInDim S32x2x64x49x256 ![] bcast_S_S32x2x64x49x256 main_cst_0
  let main_v6 : IVec S32x2x64x49x256 1 := cmpf .olt main_v4 main_v5
  let main_c_1 : IVec S_ 1 := constantI S_ 1 1#1
  let main_v7 : IVec S_ 1 := (fun x v => Host.reduce IntOp.andi x v reducesTo_S32x2x64x49x256_S_d0_1_2_3_4 h_S_) main_v6 main_c_1
  let main_v8 : IVec S_ 1 := andi main_v3 main_v7
  let main_c_2 : IVec S_ 32 := constantI S_ 32 0#32
  let main_v9 : IVec S32x64x8 32 := broadcastInDim S32x64x8 ![] bcast_S_S32x64x8 main_c_2
  let main_v10 : IVec S32x64x8 1 := cmpi .sge main_arg0 main_v9
  let main_c_3 : IVec S_ 1 := constantI S_ 1 1#1
  let main_v11 : IVec S_ 1 := (fun x v => Host.reduce IntOp.andi x v reducesTo_S32x64x8_S_d0_1_2 h_S_) main_v10 main_c_3
  let main_v12 : IVec S_ 1 := andi main_v8 main_v11
  let main_c_4 : IVec S_ 32 := constantI S_ 32 128#32
  let main_v13 : IVec S32x64x8 32 := broadcastInDim S32x64x8 ![] bcast_S_S32x64x8 main_c_4
  let main_v14 : IVec S32x64x8 1 := cmpi .slt main_arg0 main_v13
  let main_c_5 : IVec S_ 1 := constantI S_ 1 1#1
  let main_v15 : IVec S_ 1 := (fun x v => Host.reduce IntOp.andi x v reducesTo_S32x64x8_S_d0_1_2 h_S_) main_v14 main_c_5
  fn_part1 (F := F) main_v12 main_v15
-- ==== Kernel.lean ====
abbrev S32x64x8 : Shape := ⟨3, ![32, 64, 8]⟩
abbrev S32x2x64x49x256 : Shape := ⟨5, ![32, 2, 64, 49, 256]⟩
abbrev S32x128x49x256 : Shape := ⟨4, ![32, 128, 49, 256]⟩
abbrev S_ : Shape := ⟨0, ![]⟩
abbrev S32x128x56x256 : Shape := ⟨4, ![32, 128, 56, 256]⟩
abbrev S16384 : Shape := ⟨1, ![16384]⟩
abbrev S32x64x8x56x256 : Shape := ⟨5, ![32, 64, 8, 56, 256]⟩
abbrev S1x32x8x56x256 : Shape := ⟨5, ![1, 32, 8, 56, 256]⟩
abbrev S8 : Shape := ⟨1, ![8]⟩
abbrev S1 : Shape := ⟨1, ![1]⟩
abbrev S1x1x1x56x256 : Shape := ⟨5, ![1, 1, 1, 56, 256]⟩
abbrev S56x256 : Shape := ⟨2, ![56, 256]⟩
abbrev S1x1x56x256 : Shape := ⟨4, ![1, 1, 56, 256]⟩
abbrev S32x64x8x49x256 : Shape := ⟨5, ![32, 64, 8, 49, 256]⟩

abbrev nBuf : Space → Nat
  | .hbm => 9
  | .vmem => 2
  | .smem => 1
  | _ => 0

abbrev bufTy : (tb : Table) → Fin (tcTables nBuf tb) → BufTy
  | .hbm, ⟨0, _⟩ => ⟨S32x64x8, .i32⟩
  | .hbm, ⟨1, _⟩ => ⟨S32x64x8, .f32⟩
  | .hbm, ⟨2, _⟩ => ⟨S32x2x64x49x256, .f32⟩
  | .hbm, ⟨3, _⟩ => ⟨S32x128x49x256, .f32⟩
  | .hbm, ⟨4, _⟩ => ⟨S_, .i32⟩
  | .hbm, ⟨5, _⟩ => ⟨S_, .f32⟩
  | .hbm, ⟨6, _⟩ => ⟨S32x128x56x256, .f32⟩
  | .hbm, ⟨7, _⟩ => ⟨S32x64x8x56x256, .f32⟩
  | .hbm, ⟨8, _⟩ => ⟨S32x64x8x49x256, .f32⟩
  | .local _ .vmem, ⟨0, _⟩ => ⟨S1x32x8x56x256, .f32⟩
  | .local _ .vmem, ⟨1, _⟩ => ⟨S1x32x8x56x256, .f32⟩
  | .local _ .smem, ⟨0, _⟩ => ⟨S16384, .i32⟩
  | _, _ => ⟨S32x64x8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v3 : Ref sig .tc := ⟨.hbm, 7, rfl⟩
abbrev main_v4 : Ref sig .tc := ⟨.hbm, 8, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c0_i32_1 : BitVec 32 := 0#32
  let v6 : BitVec 32 := Scalar.addi v5 c0_i32_1
  let v7 : Index := Scalar.indexCast v6
  ![v7.toNat]
def k0_off2 (k0_t1 : Fin k0_t1_loop.trips) : Fin 5 → Nat :=
  let c0_i32_2 : BitVec 32 := 0#32
  let c0_i32 : BitVec 32 := 0#32
  let c1_i32 : BitVec 32 := 1#32
  let arg6 : BitVec 32 := Scf.iv c0_i32 c1_i32 k0_t1
  let c0_i32_3 : BitVec 32 := 0#32
  let c0_i32_5 : BitVec 32 := 0#32
  let c0_i32_6 : BitVec 32 := 0#32
  ![0, arg6.toNat, 0, 0, 0]
def k0_off3 (i : grid0.Coords) (v8 : BitVec 32) : Fin 4 → Nat :=
  let arg0 : BitVec 32 := BitVec.ofNat 32 (i 0).val
  let c0_i32_7 : BitVec 32 := 0#32
  let c0_i32_8 : BitVec 32 := 0#32
  ![arg0.toNat, v8.toNat, 0, 0]

def k0_chk1 (i : grid0.Coords) (v8 : BitVec 32) : Prop :=
  (∀ a, (k0_off3 i v8) a + S1x1x56x256.size a ≤ S32x128x56x256.size a)
instance k0_chk1.dec : ∀ (i : grid0.Coords) (v8 : BitVec 32), Decidable (k0_chk1 i v8) := fun i v8 => decidable_of_iff' _ (Iff.of_eq (k0_chk1.eq_1 i v8))
theorem k0_off3_inb : ∀ (i : grid0.Coords) (v8 : BitVec 32) (k0_hw1 : k0_chk1 i v8), ∀ a, (k0_off3 i v8) a + S1x1x56x256.size a ≤ S32x128x56x256.size a := fun i v8 k0_hw1 => k0_hw1

def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c1_i32_9 : BitVec 32 := 1#32
  let v15 : BitVec 32 := Scalar.addi v5 c1_i32_9
  let v16 : Index := Scalar.indexCast v15
  ![v16.toNat]
def k0_off5 (k0_t1 : Fin k0_t1_loop.trips) : Fin 5 → Nat :=
  let c0_i32_10 : BitVec 32 := 0#32
  let c0_i32 : BitVec 32 := 0#32
  let c1_i32 : BitVec 32 := 1#32
  let arg6 : BitVec 32 := Scf.iv c0_i32 c1_i32 k0_t1
  let c1_i32_11 : BitVec 32 := 1#32
  let c0_i32_13 : BitVec 32 := 0#32
  let c0_i32_14 : BitVec 32 := 0#32
  ![0, arg6.toNat, 1, 0, 0]
def k0_off6 (i : grid0.Coords) (v17 : BitVec 32) : Fin 4 → Nat :=
  let arg0 : BitVec 32 := BitVec.ofNat 32 (i 0).val
  let c0_i32_15 : BitVec 32 := 0#32
  let c0_i32_16 : BitVec 32 := 0#32
  ![arg0.toNat, v17.toNat, 0, 0]

def k0_chk2 (i : grid0.Coords) (v17 : BitVec 32) : Prop :=
  (∀ a, (k0_off6 i v17) a + S1x1x56x256.size a ≤ S32x128x56x256.size a)
instance k0_chk2.dec : ∀ (i : grid0.Coords) (v17 : BitVec 32), Decidable (k0_chk2 i v17) := fun i v17 => decidable_of_iff' _ (Iff.of_eq (k0_chk2.eq_1 i v17))
theorem k0_off6_inb : ∀ (i : grid0.Coords) (v17 : BitVec 32) (k0_hw2 : k0_chk2 i v17), ∀ a, (k0_off6 i v17) a + S1x1x56x256.size a ≤ S32x128x56x256.size a := fun i v17 k0_hw2 => k0_hw2

def k0_off7 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c2_i32 : BitVec 32 := 2#32
  let v24 : BitVec 32 := Scalar.addi v5 c2_i32
  let v25 : Index := Scalar.indexCast v24
  ![v25.toNat]
def k0_off8 (k0_t1 : Fin k0_t1_loop.trips) : Fin 5 → Nat :=
  let c0_i32_17 : BitVec 32 := 0#32
  let c0_i32 : BitVec 32 := 0#32
  let c1_i32 : BitVec 32 := 1#32
  let arg6 : BitVec 32 := Scf.iv c0_i32 c1_i32 k0_t1
  let c2_i32_18 : BitVec 32 := 2#32
  let c0_i32_20 : BitVec 32 := 0#32
  let c0_i32_21 : BitVec 32 := 0#32
  ![0, arg6.toNat, 2, 0, 0]
def k0_off9 (i : grid0.Coords) (v26 : BitVec 32) : Fin 4 → Nat :=
  let arg0 : BitVec 32 := BitVec.ofNat 32 (i 0).val
  let c0_i32_22 : BitVec 32 := 0#32
  let c0_i32_23 : BitVec 32 := 0#32
  ![arg0.toNat, v26.toNat, 0, 0]

def k0_chk3 (i : grid0.Coords) (v26 : BitVec 32) : Prop :=
  (∀ a, (k0_off9 i v26) a + S1x1x56x256.size a ≤ S32x128x56x256.size a)
instance k0_chk3.dec : ∀ (i : grid0.Coords) (v26 : BitVec 32), Decidable (k0_chk3 i v26) := fun i v26 => decidable_of_iff' _ (Iff.of_eq (k0_chk3.eq_1 i v26))
theorem k0_off9_inb : ∀ (i : grid0.Coords) (v26 : BitVec 32) (k0_hw3 : k0_chk3 i v26), ∀ a, (k0_off9 i v26) a + S1x1x56x256.size a ≤ S32x128x56x256.size a := fun i v26 k0_hw3 => k0_hw3

def k0_off10 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c3_i32 : BitVec 32 := 3#32
  let v33 : BitVec 32 := Scalar.addi v5 c3_i32
  let v34 : Index := Scalar.indexCast v33
  ![v34.toNat]
def k0_off11 (k0_t1 : Fin k0_t1_loop.trips) : Fin 5 → Nat :=
  let c0_i32_24 : BitVec 32 := 0#32
  let c0_i32 : BitVec 32 := 0#32
  let c1_i32 : BitVec 32 := 1#32
  let arg6 : BitVec 32 := Scf.iv c0_i32 c1_i32 k0_t1
  let c3_i32_25 : BitVec 32 := 3#32
  let c0_i32_27 : BitVec 32 := 0#32
  let c0_i32_28 : BitVec 32 := 0#32
  ![0, arg6.toNat, 3, 0, 0]
def k0_off12 (i : grid0.Coords) (v35 : BitVec 32) : Fin 4 → Nat :=
  let arg0 : BitVec 32 := BitVec.ofNat 32 (i 0).val
  let c0_i32_29 : BitVec 32 := 0#32
  let c0_i32_30 : BitVec 32 := 0#32
  ![arg0.toNat, v35.toNat, 0, 0]

def k0_chk4 (i : grid0.Coords) (v35 : BitVec 32) : Prop :=
  (∀ a, (k0_off12 i v35) a + S1x1x56x256.size a ≤ S32x128x56x256.size a)
instance k0_chk4.dec : ∀ (i : grid0.Coords) (v35 : BitVec 32), Decidable (k0_chk4 i v35) := fun i v35 => decidable_of_iff' _ (Iff.of_eq (k0_chk4.eq_1 i v35))
theorem k0_off12_inb : ∀ (i : grid0.Coords) (v35 : BitVec 32) (k0_hw4 : k0_chk4 i v35), ∀ a, (k0_off12 i v35) a + S1x1x56x256.size a ≤ S32x128x56x256.size a := fun i v35 k0_hw4 => k0_hw4

def k0_off13 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c4_i32 : BitVec 32 := 4#32
  let v42 : BitVec 32 := Scalar.addi v5 c4_i32
  let v43 : Index := Scalar.indexCast v42
  ![v43.toNat]
def k0_off14 (k0_t1 : Fin k0_t1_loop.trips) : Fin 5 → Nat :=
  let c0_i32_31 : BitVec 32 := 0#32
  let c0_i32 : BitVec 32 := 0#32
  let c1_i32 : BitVec 32 := 1#32
  let arg6 : BitVec 32 := Scf.iv c0_i32 c1_i32 k0_t1
  let c4_i32_32 : BitVec 32 := 4#32
  let c0_i32_34 : BitVec 32 := 0#32
  let c0_i32_35 : BitVec 32 := 0#32
  ![0, arg6.toNat, 4, 0, 0]
def k0_off15 (i : grid0.Coords) (v44 : BitVec 32) : Fin 4 → Nat :=
  let arg0 : BitVec 32 := BitVec.ofNat 32 (i 0).val
  let c0_i32_36 : BitVec 32 := 0#32
  let c0_i32_37 : BitVec 32 := 0#32
  ![arg0.toNat, v44.toNat, 0, 0]

def k0_chk5 (i : grid0.Coords) (v44 : BitVec 32) : Prop :=
  (∀ a, (k0_off15 i v44) a + S1x1x56x256.size a ≤ S32x128x56x256.size a)
instance k0_chk5.dec : ∀ (i : grid0.Coords) (v44 : BitVec 32), Decidable (k0_chk5 i v44) := fun i v44 => decidable_of_iff' _ (Iff.of_eq (k0_chk5.eq_1 i v44))
theorem k0_off15_inb : ∀ (i : grid0.Coords) (v44 : BitVec 32) (k0_hw5 : k0_chk5 i v44), ∀ a, (k0_off15 i v44) a + S1x1x56x256.size a ≤ S32x128x56x256.size a := fun i v44 k0_hw5 => k0_hw5

def k0_off16 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c5_i32 : BitVec 32 := 5#32
  let v51 : BitVec 32 := Scalar.addi v5 c5_i32
  let v52 : Index := Scalar.indexCast v51
  ![v52.toNat]
def k0_off17 (k0_t1 : Fin k0_t1_loop.trips) : Fin 5 → Nat :=
  let c0_i32_38 : BitVec 32 := 0#32
  let c0_i32 : BitVec 32 := 0#32
  let c1_i32 : BitVec 32 := 1#32
  let arg6 : BitVec 32 := Scf.iv c0_i32 c1_i32 k0_t1
  let c5_i32_39 : BitVec 32 := 5#32
  let c0_i32_41 : BitVec 32 := 0#32
  let c0_i32_42 : BitVec 32 := 0#32
  ![0, arg6.toNat, 5, 0, 0]
def k0_off18 (i : grid0.Coords) (v53 : BitVec 32) : Fin 4 → Nat :=
  let arg0 : BitVec 32 := BitVec.ofNat 32 (i 0).val
  let c0_i32_43 : BitVec 32 := 0#32
  let c0_i32_44 : BitVec 32 := 0#32
  ![arg0.toNat, v53.toNat, 0, 0]

def k0_chk6 (i : grid0.Coords) (v53 : BitVec 32) : Prop :=
  (∀ a, (k0_off18 i v53) a + S1x1x56x256.size a ≤ S32x128x56x256.size a)
instance k0_chk6.dec : ∀ (i : grid0.Coords) (v53 : BitVec 32), Decidable (k0_chk6 i v53) := fun i v53 => decidable_of_iff' _ (Iff.of_eq (k0_chk6.eq_1 i v53))
theorem k0_off18_inb : ∀ (i : grid0.Coords) (v53 : BitVec 32) (k0_hw6 : k0_chk6 i v53), ∀ a, (k0_off18 i v53) a + S1x1x56x256.size a ≤ S32x128x56x256.size a := fun i v53 k0_hw6 => k0_hw6

def k0_off19 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c6_i32 : BitVec 32 := 6#32
  let v60 : BitVec 32 := Scalar.addi v5 c6_i32
  let v61 : Index := Scalar.indexCast v60
  ![v61.toNat]
def k0_off20 (k0_t1 : Fin k0_t1_loop.trips) : Fin 5 → Nat :=
  let c0_i32_45 : BitVec 32 := 0#32
  let c0_i32 : BitVec 32 := 0#32
  let c1_i32 : BitVec 32 := 1#32
  let arg6 : BitVec 32 := Scf.iv c0_i32 c1_i32 k0_t1
  let c6_i32_46 : BitVec 32 := 6#32
  let c0_i32_48 : BitVec 32 := 0#32
  let c0_i32_49 : BitVec 32 := 0#32
  ![0, arg6.toNat, 6, 0, 0]
def k0_off21 (i : grid0.Coords) (v62 : BitVec 32) : Fin 4 → Nat :=
  let arg0 : BitVec 32 := BitVec.ofNat 32 (i 0).val
  let c0_i32_50 : BitVec 32 := 0#32
  let c0_i32_51 : BitVec 32 := 0#32
  ![arg0.toNat, v62.toNat, 0, 0]

def k0_chk7 (i : grid0.Coords) (v62 : BitVec 32) : Prop :=
  (∀ a, (k0_off21 i v62) a + S1x1x56x256.size a ≤ S32x128x56x256.size a)
instance k0_chk7.dec : ∀ (i : grid0.Coords) (v62 : BitVec 32), Decidable (k0_chk7 i v62) := fun i v62 => decidable_of_iff' _ (Iff.of_eq (k0_chk7.eq_1 i v62))
theorem k0_off21_inb : ∀ (i : grid0.Coords) (v62 : BitVec 32) (k0_hw7 : k0_chk7 i v62), ∀ a, (k0_off21 i v62) a + S1x1x56x256.size a ≤ S32x128x56x256.size a := fun i v62 k0_hw7 => k0_hw7

def k0_off22 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c7_i32 : BitVec 32 := 7#32
  let v69 : BitVec 32 := Scalar.addi v5 c7_i32
  let v70 : Index := Scalar.indexCast v69
  ![v70.toNat]
def k0_off23 (k0_t1 : Fin k0_t1_loop.trips) : Fin 5 → Nat :=
  let c0_i32_52 : BitVec 32 := 0#32
  let c0_i32 : BitVec 32 := 0#32
  let c1_i32 : BitVec 32 := 1#32
  let arg6 : BitVec 32 := Scf.iv c0_i32 c1_i32 k0_t1
  let c7_i32_53 : BitVec 32 := 7#32
  let c0_i32_55 : BitVec 32 := 0#32
  let c0_i32_56 : BitVec 32 := 0#32
  ![0, arg6.toNat, 7, 0, 0]
def k0_off24 (i : grid0.Coords) (v71 : BitVec 32) : Fin 4 → Nat :=
  let arg0 : BitVec 32 := BitVec.ofNat 32 (i 0).val
  let c0_i32_57 : BitVec 32 := 0#32
  let c0_i32_58 : BitVec 32 := 0#32
  ![arg0.toNat, v71.toNat, 0, 0]

def k0_chk8 (i : grid0.Coords) (v71 : BitVec 32) : Prop :=
  (∀ a, (k0_off24 i v71) a + S1x1x56x256.size a ≤ S32x128x56x256.size a)
instance k0_chk8.dec : ∀ (i : grid0.Coords) (v71 : BitVec 32), Decidable (k0_chk8 i v71) := fun i v71 => decidable_of_iff' _ (Iff.of_eq (k0_chk8.eq_1 i v71))
theorem k0_off24_inb : ∀ (i : grid0.Coords) (v71 : BitVec 32) (k0_hw8 : k0_chk8 i v71), ∀ a, (k0_off24 i v71) a + S1x1x56x256.size a ≤ S32x128x56x256.size a := fun i v71 k0_hw8 => k0_hw8

def k0_off25 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c0_i32_59 : BitVec 32 := 0#32
  let v78 : BitVec 32 := Scalar.addi v5 c0_i32_59
  let v79 : Index := Scalar.indexCast v78
  ![v79.toNat]
def k0_off26 (k0_t1 : Fin k0_t1_loop.trips) : Fin 5 → Nat :=
  let c0_i32_60 : BitVec 32 := 0#32
  let c0_i32 : BitVec 32 := 0#32
  let c1_i32 : BitVec 32 := 1#32
  let arg6 : BitVec 32 := Scf.iv c0_i32 c1_i32 k0_t1
  let c0_i32_61 : BitVec 32 := 0#32
  let c0_i32_63 : BitVec 32 := 0#32
  let c0_i32_64 : BitVec 32 := 0#32
  ![0, arg6.toNat, 0, 0, 0]
def k0_off27 (i : grid0.Coords) (v80 : BitVec 32) : Fin 4 → Nat :=
  let arg0 : BitVec 32 := BitVec.ofNat 32 (i 0).val
  let c0_i32_65 : BitVec 32 := 0#32
  let c0_i32_66 : BitVec 32 := 0#32
  ![arg0.toNat, v80.toNat, 0, 0]

def k0_chk9 (i : grid0.Coords) (v80 : BitVec 32) : Prop :=
  (∀ a, (k0_off27 i v80) a + S1x1x56x256.size a ≤ S32x128x56x256.size a)
instance k0_chk9.dec : ∀ (i : grid0.Coords) (v80 : BitVec 32), Decidable (k0_chk9 i v80) := fun i v80 => decidable_of_iff' _ (Iff.of_eq (k0_chk9.eq_1 i v80))
theorem k0_off27_inb : ∀ (i : grid0.Coords) (v80 : BitVec 32) (k0_hw9 : k0_chk9 i v80), ∀ a, (k0_off27 i v80) a + S1x1x56x256.size a ≤ S32x128x56x256.size a := fun i v80 k0_hw9 => k0_hw9

def k0_off28 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c1_i32_67 : BitVec 32 := 1#32
  let v87 : BitVec 32 := Scalar.addi v5 c1_i32_67
  let v88 : Index := Scalar.indexCast v87
  ![v88.toNat]
def k0_off29 (k0_t1 : Fin k0_t1_loop.trips) : Fin 5 → Nat :=
  let c0_i32_68 : BitVec 32 := 0#32
  let c0_i32 : BitVec 32 := 0#32
  let c1_i32 : BitVec 32 := 1#32
  let arg6 : BitVec 32 := Scf.iv c0_i32 c1_i32 k0_t1
  let c1_i32_69 : BitVec 32 := 1#32
  let c0_i32_71 : BitVec 32 := 0#32
  let c0_i32_72 : BitVec 32 := 0#32
  ![0, arg6.toNat, 1, 0, 0]
def k0_off30 (i : grid0.Coords) (v89 : BitVec 32) : Fin 4 → Nat :=
  let arg0 : BitVec 32 := BitVec.ofNat 32 (i 0).val
  let c0_i32_73 : BitVec 32 := 0#32
  let c0_i32_74 : BitVec 32 := 0#32
  ![arg0.toNat, v89.toNat, 0, 0]

def k0_chk10 (i : grid0.Coords) (v89 : BitVec 32) : Prop :=
  (∀ a, (k0_off30 i v89) a + S1x1x56x256.size a ≤ S32x128x56x256.size a)
instance k0_chk10.dec : ∀ (i : grid0.Coords) (v89 : BitVec 32), Decidable (k0_chk10 i v89) := fun i v89 => decidable_of_iff' _ (Iff.of_eq (k0_chk10.eq_1 i v89))
theorem k0_off30_inb : ∀ (i : grid0.Coords) (v89 : BitVec 32) (k0_hw10 : k0_chk10 i v89), ∀ a, (k0_off30 i v89) a + S1x1x56x256.size a ≤ S32x128x56x256.size a := fun i v89 k0_hw10 => k0_hw10

def k0_off31 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c2_i32_75 : BitVec 32 := 2#32
  let v96 : BitVec 32 := Scalar.addi v5 c2_i32_75
  let v97 : Index := Scalar.indexCast v96
  ![v97.toNat]
def k0_off32 (k0_t1 : Fin k0_t1_loop.trips) : Fin 5 → Nat :=
  let c0_i32_76 : BitVec 32 := 0#32
  let c0_i32 : BitVec 32 := 0#32
  let c1_i32 : BitVec 32 := 1#32
  let arg6 : BitVec 32 := Scf.iv c0_i32 c1_i32 k0_t1
  let c2_i32_77 : BitVec 32 := 2#32
  let c0_i32_79 : BitVec 32 := 0#32
  let c0_i32_80 : BitVec 32 := 0#32
  ![0, arg6.toNat, 2, 0, 0]
def k0_off33 (i : grid0.Coords) (v98 : BitVec 32) : Fin 4 → Nat :=
  let arg0 : BitVec 32 := BitVec.ofNat 32 (i 0).val
  let c0_i32_81 : BitVec 32 := 0#32
  let c0_i32_82 : BitVec 32 := 0#32
  ![arg0.toNat, v98.toNat, 0, 0]

def k0_chk11 (i : grid0.Coords) (v98 : BitVec 32) : Prop :=
  (∀ a, (k0_off33 i v98) a + S1x1x56x256.size a ≤ S32x128x56x256.size a)
instance k0_chk11.dec : ∀ (i : grid0.Coords) (v98 : BitVec 32), Decidable (k0_chk11 i v98) := fun i v98 => decidable_of_iff' _ (Iff.of_eq (k0_chk11.eq_1 i v98))
theorem k0_off33_inb : ∀ (i : grid0.Coords) (v98 : BitVec 32) (k0_hw11 : k0_chk11 i v98), ∀ a, (k0_off33 i v98) a + S1x1x56x256.size a ≤ S32x128x56x256.size a := fun i v98 k0_hw11 => k0_hw11

def k0_off34 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c3_i32_83 : BitVec 32 := 3#32
  let v105 : BitVec 32 := Scalar.addi v5 c3_i32_83
  let v106 : Index := Scalar.indexCast v105
  ![v106.toNat]
def k0_off35 (k0_t1 : Fin k0_t1_loop.trips) : Fin 5 → Nat :=
  let c0_i32_84 : BitVec 32 := 0#32
  let c0_i32 : BitVec 32 := 0#32
  let c1_i32 : BitVec 32 := 1#32
  let arg6 : BitVec 32 := Scf.iv c0_i32 c1_i32 k0_t1
  let c3_i32_85 : BitVec 32 := 3#32
  let c0_i32_87 : BitVec 32 := 0#32
  let c0_i32_88 : BitVec 32 := 0#32
  ![0, arg6.toNat, 3, 0, 0]
def k0_off36 (i : grid0.Coords) (v107 : BitVec 32) : Fin 4 → Nat :=
  let arg0 : BitVec 32 := BitVec.ofNat 32 (i 0).val
  let c0_i32_89 : BitVec 32 := 0#32
  let c0_i32_90 : BitVec 32 := 0#32
  ![arg0.toNat, v107.toNat, 0, 0]

def k0_chk12 (i : grid0.Coords) (v107 : BitVec 32) : Prop :=
  (∀ a, (k0_off36 i v107) a + S1x1x56x256.size a ≤ S32x128x56x256.size a)
instance k0_chk12.dec : ∀ (i : grid0.Coords) (v107 : BitVec 32), Decidable (k0_chk12 i v107) := fun i v107 => decidable_of_iff' _ (Iff.of_eq (k0_chk12.eq_1 i v107))
theorem k0_off36_inb : ∀ (i : grid0.Coords) (v107 : BitVec 32) (k0_hw12 : k0_chk12 i v107), ∀ a, (k0_off36 i v107) a + S1x1x56x256.size a ≤ S32x128x56x256.size a := fun i v107 k0_hw12 => k0_hw12

def k0_off37 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c4_i32_91 : BitVec 32 := 4#32
  let v114 : BitVec 32 := Scalar.addi v5 c4_i32_91
  let v115 : Index := Scalar.indexCast v114
  ![v115.toNat]
def k0_off38 (k0_t1 : Fin k0_t1_loop.trips) : Fin 5 → Nat :=
  let c0_i32_92 : BitVec 32 := 0#32
  let c0_i32 : BitVec 32 := 0#32
  let c1_i32 : BitVec 32 := 1#32
  let arg6 : BitVec 32 := Scf.iv c0_i32 c1_i32 k0_t1
  let c4_i32_93 : BitVec 32 := 4#32
  let c0_i32_95 : BitVec 32 := 0#32
  let c0_i32_96 : BitVec 32 := 0#32
  ![0, arg6.toNat, 4, 0, 0]
def k0_off39 (i : grid0.Coords) (v116 : BitVec 32) : Fin 4 → Nat :=
  let arg0 : BitVec 32 := BitVec.ofNat 32 (i 0).val
  let c0_i32_97 : BitVec 32 := 0#32
  let c0_i32_98 : BitVec 32 := 0#32
  ![arg0.toNat, v116.toNat, 0, 0]

def k0_chk13 (i : grid0.Coords) (v116 : BitVec 32) : Prop :=
  (∀ a, (k0_off39 i v116) a + S1x1x56x256.size a ≤ S32x128x56x256.size a)
instance k0_chk13.dec : ∀ (i : grid0.Coords) (v116 : BitVec 32), Decidable (k0_chk13 i v116) := fun i v116 => decidable_of_iff' _ (Iff.of_eq (k0_chk13.eq_1 i v116))
theorem k0_off39_inb : ∀ (i : grid0.Coords) (v116 : BitVec 32) (k0_hw13 : k0_chk13 i v116), ∀ a, (k0_off39 i v116) a + S1x1x56x256.size a ≤ S32x128x56x256.size a := fun i v116 k0_hw13 => k0_hw13

def k0_off40 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c5_i32_99 : BitVec 32 := 5#32
  let v123 : BitVec 32 := Scalar.addi v5 c5_i32_99
  let v124 : Index := Scalar.indexCast v123
  ![v124.toNat]
def k0_off41 (k0_t1 : Fin k0_t1_loop.trips) : Fin 5 → Nat :=
  let c0_i32_100 : BitVec 32 := 0#32
  let c0_i32 : BitVec 32 := 0#32
  let c1_i32 : BitVec 32 := 1#32
  let arg6 : BitVec 32 := Scf.iv c0_i32 c1_i32 k0_t1
  let c5_i32_101 : BitVec 32 := 5#32
  let c0_i32_103 : BitVec 32 := 0#32
  let c0_i32_104 : BitVec 32 := 0#32
  ![0, arg6.toNat, 5, 0, 0]
def k0_off42 (i : grid0.Coords) (v125 : BitVec 32) : Fin 4 → Nat :=
  let arg0 : BitVec 32 := BitVec.ofNat 32 (i 0).val
  let c0_i32_105 : BitVec 32 := 0#32
  let c0_i32_106 : BitVec 32 := 0#32
  ![arg0.toNat, v125.toNat, 0, 0]

def k0_chk14 (i : grid0.Coords) (v125 : BitVec 32) : Prop :=
  (∀ a, (k0_off42 i v125) a + S1x1x56x256.size a ≤ S32x128x56x256.size a)
instance k0_chk14.dec : ∀ (i : grid0.Coords) (v125 : BitVec 32), Decidable (k0_chk14 i v125) := fun i v125 => decidable_of_iff' _ (Iff.of_eq (k0_chk14.eq_1 i v125))
theorem k0_off42_inb : ∀ (i : grid0.Coords) (v125 : BitVec 32) (k0_hw14 : k0_chk14 i v125), ∀ a, (k0_off42 i v125) a + S1x1x56x256.size a ≤ S32x128x56x256.size a := fun i v125 k0_hw14 => k0_hw14

def k0_off43 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c6_i32_107 : BitVec 32 := 6#32
  let v132 : BitVec 32 := Scalar.addi v5 c6_i32_107
  let v133 : Index := Scalar.indexCast v132
  ![v133.toNat]
def k0_off44 (k0_t1 : Fin k0_t1_loop.trips) : Fin 5 → Nat :=
  let c0_i32_108 : BitVec 32 := 0#32
  let c0_i32 : BitVec 32 := 0#32
  let c1_i32 : BitVec 32 := 1#32
  let arg6 : BitVec 32 := Scf.iv c0_i32 c1_i32 k0_t1
  let c6_i32_109 : BitVec 32 := 6#32
  let c0_i32_111 : BitVec 32 := 0#32
  let c0_i32_112 : BitVec 32 := 0#32
  ![0, arg6.toNat, 6, 0, 0]
def k0_off45 (i : grid0.Coords) (v134 : BitVec 32) : Fin 4 → Nat :=
  let arg0 : BitVec 32 := BitVec.ofNat 32 (i 0).val
  let c0_i32_113 : BitVec 32 := 0#32
  let c0_i32_114 : BitVec 32 := 0#32
  ![arg0.toNat, v134.toNat, 0, 0]

def k0_chk15 (i : grid0.Coords) (v134 : BitVec 32) : Prop :=
  (∀ a, (k0_off45 i v134) a + S1x1x56x256.size a ≤ S32x128x56x256.size a)
instance k0_chk15.dec : ∀ (i : grid0.Coords) (v134 : BitVec 32), Decidable (k0_chk15 i v134) := fun i v134 => decidable_of_iff' _ (Iff.of_eq (k0_chk15.eq_1 i v134))
theorem k0_off45_inb : ∀ (i : grid0.Coords) (v134 : BitVec 32) (k0_hw15 : k0_chk15 i v134), ∀ a, (k0_off45 i v134) a + S1x1x56x256.size a ≤ S32x128x56x256.size a := fun i v134 k0_hw15 => k0_hw15

def k0_off46 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let arg1 : BitVec 32 := BitVec.ofNat 32 (i 1).val
  let c256_i32 : BitVec 32 := 256#32
  let v1 : BitVec 32 := Scalar.muli arg1 c256_i32
  let v2 : BitVec 32 := Scalar.addi v0 v1
  let c0_i32 : BitVec 32 := 0#32
  let c1_i32 : BitVec 32 := 1#32
  let arg6 : BitVec 32 := Scf.iv c0_i32 c1_i32 k0_t1
  let c8_i32 : BitVec 32 := 8#32
  let v4 : BitVec 32 := Scalar.muli arg6 c8_i32
  let v5 : BitVec 32 := Scalar.addi v2 v4
  let c7_i32_115 : BitVec 32 := 7#32
  let v141 : BitVec 32 := Scalar.addi v5 c7_i32_115
  let v142 : Index := Scalar.indexCast v141
  ![v142.toNat]
def k0_off47 (k0_t1 : Fin k0_t1_loop.trips) : Fin 5 → Nat :=
  let c0_i32_116 : BitVec 32 := 0#32
  let c0_i32 : BitVec 32 := 0#32
  let c1_i32 : BitVec 32 := 1#32
  let arg6 : BitVec 32 := Scf.iv c0_i32 c1_i32 k0_t1
  let c7_i32_117 : BitVec 32 := 7#32
  let c0_i32_119 : BitVec 32 := 0#32
  let c0_i32_120 : BitVec 32 := 0#32
  ![0, arg6.toNat, 7, 0, 0]
def k0_off48 (i : grid0.Coords) (v143 : BitVec 32) : Fin 4 → Nat :=
  let arg0 : BitVec 32 := BitVec.ofNat 32 (i 0).val
  let c0_i32_121 : BitVec 32 := 0#32
  let c0_i32_122 : BitVec 32 := 0#32
  ![arg0.toNat, v143.toNat, 0, 0]

def k0_chk16 (i : grid0.Coords) (v143 : BitVec 32) : Prop :=
  (∀ a, (k0_off48 i v143) a + S1x1x56x256.size a ≤ S32x128x56x256.size a)
instance k0_chk16.dec : ∀ (i : grid0.Coords) (v143 : BitVec 32), Decidable (k0_chk16 i v143) := fun i v143 => decidable_of_iff' _ (Iff.of_eq (k0_chk16.eq_1 i v143))
theorem k0_off48_inb : ∀ (i : grid0.Coords) (v143 : BitVec 32) (k0_hw16 : k0_chk16 i v143), ∀ a, (k0_off48 i v143) a + S1x1x56x256.size a ≤ S32x128x56x256.size a := fun i v143 k0_hw16 => k0_hw16

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x8x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  shapeCasts_S32x2x64x49x256_S32x128x49x256 : S32x2x64x49x256.ShapeCasts S32x128x49x256
  pads_S32x128x49x256_S32x128x56x256_000_000_070_000 : S32x128x49x256.Pads (![0, 0, 0, 0] : Fin 4 → Nat) ![0, 0, 7, 0] ![0, 0, 0, 0] S32x128x56x256
  h_S_ : 0 < S_.numel
  shapeCasts_S32x64x8_S16384 : S32x64x8.ShapeCasts S16384
  numel1_S1 : S1.numel = 1
  inb_S8_S1_0 : ∀ a, (![0] : Fin 1 → Nat) a + S1.size a ≤ S8.size a
  squeezes_S1_S_ : S1.Squeezes S_
  squeezes_S1x1x1x56x256_S56x256 : S1x1x1x56x256.Squeezes S56x256
  squeezes_S1x1x56x256_S56x256 : S1x1x56x256.Squeezes S56x256
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  slices_S32x64x8x56x256_S32x64x8x49x256_0_0_0_0_0 : S32x64x8x56x256.Slices ![0, 0, 0, 0, 0] S32x64x8x49x256
  hcc0_scratch0 : 2 + S8.numel ≤ 10
  hrank0 : 0 < grid0.rank
  k0_t1_ok : k0_t1_loop.OK
  k0_off1_inb : ∀ (i : grid0.Coords) (k0_t1 : Fin k0_t1_loop.trips), ∀ a, (k0_off1 i k0_t1) a + S1.size a ≤ S16384.size a
  k0_off2_inb : ∀ k0_t1 : Fin k0_t1_loop.trips, ∀ a, (k0_off2 k0_t1) a + S1x1x1x56x256.size a ≤ S1x32x8x56x256.size a
  k0_off4_inb : ∀ (i : grid0.Coords) (k0_t1 : Fin k0_t1_loop.trips), ∀ a, (k0_off4 i k0_t1) a + S1.size a ≤ S16384.size a
  k0_off5_inb : ∀ k0_t1 : Fin k0_t1_loop.trips, ∀ a, (k0_off5 k0_t1) a + S1x1x1x56x256.size a ≤ S1x32x8x56x256.size a
  k0_off7_inb : ∀ (i : grid0.Coords) (k0_t1 : Fin k0_t1_loop.trips), ∀ a, (k0_off7 i k0_t1) a + S1.size a ≤ S16384.size a
  k0_off8_inb : ∀ k0_t1 : Fin k0_t1_loop.trips, ∀ a, (k0_off8 k0_t1) a + S1x1x1x56x256.size a ≤ S1x32x8x56x256.size a
  k0_off10_inb : ∀ (i : grid0.Coords) (k0_t1 : Fin k0_t1_loop.trips), ∀ a, (k0_off10 i k0_t1) a + S1.size a ≤ S16384.size a
  k0_off11_inb : ∀ k0_t1 : Fin k0_t1_loop.trips, ∀ a, (k0_off11 k0_t1) a + S1x1x1x56x256.size a ≤ S1x32x8x56x256.size a
  k0_off13_inb : ∀ (i : grid0.Coords) (k0_t1 : Fin k0_t1_loop.trips), ∀ a, (k0_off13 i k0_t1) a + S1.size a ≤ S16384.size a
  k0_off14_inb : ∀ k0_t1 : Fin k0_t1_loop.trips, ∀ a, (k0_off14 k0_t1) a + S1x1x1x56x256.size a ≤ S1x32x8x56x256.size a
  k0_off16_inb : ∀ (i : grid0.Coords) (k0_t1 : Fin k0_t1_loop.trips), ∀ a, (k0_off16 i k0_t1) a + S1.size a ≤ S16384.size a
  k0_off17_inb : ∀ k0_t1 : Fin k0_t1_loop.trips, ∀ a, (k0_off17 k0_t1) a + S1x1x1x56x256.size a ≤ S1x32x8x56x256.size a
  k0_off19_inb : ∀ (i : grid0.Coords) (k0_t1 : Fin k0_t1_loop.trips), ∀ a, (k0_off19 i k0_t1) a + S1.size a ≤ S16384.size a
  k0_off20_inb : ∀ k0_t1 : Fin k0_t1_loop.trips, ∀ a, (k0_off20 k0_t1) a + S1x1x1x56x256.size a ≤ S1x32x8x56x256.size a
  k0_off22_inb : ∀ (i : grid0.Coords) (k0_t1 : Fin k0_t1_loop.trips), ∀ a, (k0_off22 i k0_t1) a + S1.size a ≤ S16384.size a
  k0_off23_inb : ∀ k0_t1 : Fin k0_t1_loop.trips, ∀ a, (k0_off23 k0_t1) a + S1x1x1x56x256.size a ≤ S1x32x8x56x256.size a
  k0_off25_inb : ∀ (i : grid0.Coords) (k0_t1 : Fin k0_t1_loop.trips), ∀ a, (k0_off25 i k0_t1) a + S1.size a ≤ S16384.size a
  k0_off26_inb : ∀ k0_t1 : Fin k0_t1_loop.trips, ∀ a, (k0_off26 k0_t1) a + S1x1x1x56x256.size a ≤ S1x32x8x56x256.size a
  k0_off28_inb : ∀ (i : grid0.Coords) (k0_t1 : Fin k0_t1_loop.trips), ∀ a, (k0_off28 i k0_t1) a + S1.size a ≤ S16384.size a
  k0_off29_inb : ∀ k0_t1 : Fin k0_t1_loop.trips, ∀ a, (k0_off29 k0_t1) a + S1x1x1x56x256.size a ≤ S1x32x8x56x256.size a
  k0_off31_inb : ∀ (i : grid0.Coords) (k0_t1 : Fin k0_t1_loop.trips), ∀ a, (k0_off31 i k0_t1) a + S1.size a ≤ S16384.size a
  k0_off32_inb : ∀ k0_t1 : Fin k0_t1_loop.trips, ∀ a, (k0_off32 k0_t1) a + S1x1x1x56x256.size a ≤ S1x32x8x56x256.size a
  k0_off34_inb : ∀ (i : grid0.Coords) (k0_t1 : Fin k0_t1_loop.trips), ∀ a, (k0_off34 i k0_t1) a + S1.size a ≤ S16384.size a
  k0_off35_inb : ∀ k0_t1 : Fin k0_t1_loop.trips, ∀ a, (k0_off35 k0_t1) a + S1x1x1x56x256.size a ≤ S1x32x8x56x256.size a
  k0_off37_inb : ∀ (i : grid0.Coords) (k0_t1 : Fin k0_t1_loop.trips), ∀ a, (k0_off37 i k0_t1) a + S1.size a ≤ S16384.size a
  k0_off38_inb : ∀ k0_t1 : Fin k0_t1_loop.trips, ∀ a, (k0_off38 k0_t1) a + S1x1x1x56x256.size a ≤ S1x32x8x56x256.size a
  k0_off40_inb : ∀ (i : grid0.Coords) (k0_t1 : Fin k0_t1_loop.trips), ∀ a, (k0_off40 i k0_t1) a + S1.size a ≤ S16384.size a
  k0_off41_inb : ∀ k0_t1 : Fin k0_t1_loop.trips, ∀ a, (k0_off41 k0_t1) a + S1x1x1x56x256.size a ≤ S1x32x8x56x256.size a
  k0_off43_inb : ∀ (i : grid0.Coords) (k0_t1 : Fin k0_t1_loop.trips), ∀ a, (k0_off43 i k0_t1) a + S1.size a ≤ S16384.size a
  k0_off44_inb : ∀ k0_t1 : Fin k0_t1_loop.trips, ∀ a, (k0_off44 k0_t1) a + S1x1x1x56x256.size a ≤ S1x32x8x56x256.size a
  k0_off46_inb : ∀ (i : grid0.Coords) (k0_t1 : Fin k0_t1_loop.trips), ∀ a, (k0_off46 i k0_t1) a + S1.size a ≤ S16384.size a
  k0_off47_inb : ∀ k0_t1 : Fin k0_t1_loop.trips, ∀ a, (k0_off47 k0_t1) a + S1x1x1x56x256.size a ≤ S1x32x8x56x256.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x32x8x56x256.size a ≤ S32x64x8x56x256.size a
  hwx0_0 : ∀ i : grid0.Coords, EltTy.bits .f32 = 32 ∨ (Rect.block (s := S32x64x8x56x256) S1x32x8x56x256.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v3) S1x32x8x56x256.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S32x64x8 : Shape := ⟨3, ![32, 64, 8]⟩
abbrev S32x2x64x49x256 : Shape := ⟨5, ![32, 2, 64, 49, 256]⟩
abbrev S32x128x49x256 : Shape := ⟨4, ![32, 128, 49, 256]⟩
abbrev S_ : Shape := ⟨0, ![]⟩
abbrev S32x64x8x1 : Shape := ⟨4, ![32, 64, 8, 1]⟩
abbrev S32x64x8x49x256 : Shape := ⟨5, ![32, 64, 8, 49, 256]⟩

abbrev nBuf : Space → Nat
  | .hbm => 13
  | .vmem => 0
  | .smem => 0
  | _ => 0

abbrev bufTy : (tb : Table) → Fin (tcTables nBuf tb) → BufTy
  | .hbm, ⟨0, _⟩ => ⟨S32x64x8, .i32⟩
  | .hbm, ⟨1, _⟩ => ⟨S32x64x8, .f32⟩
  | .hbm, ⟨2, _⟩ => ⟨S32x2x64x49x256, .f32⟩
  | .hbm, ⟨3, _⟩ => ⟨S32x128x49x256, .f32⟩
  | .hbm, ⟨4, _⟩ => ⟨S_, .i32⟩
  | .hbm, ⟨5, _⟩ => ⟨S32x64x8, .i32⟩
  | .hbm, ⟨6, _⟩ => ⟨S32x64x8, .i1⟩
  | .hbm, ⟨7, _⟩ => ⟨S_, .i32⟩
  | .hbm, ⟨8, _⟩ => ⟨S32x64x8, .i32⟩
  | .hbm, ⟨9, _⟩ => ⟨S32x64x8, .i32⟩
  | .hbm, ⟨10, _⟩ => ⟨S32x64x8, .i32⟩
  | .hbm, ⟨11, _⟩ => ⟨S32x64x8x1, .i32⟩
  | .hbm, ⟨12, _⟩ => ⟨S32x64x8x49x256, .f32⟩
  | _, _ => ⟨S32x64x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S32x2x64x49x256_S32x128x49x256 : S32x2x64x49x256.ShapeCasts S32x128x49x256
  bcast_S_S32x64x8 : S_.BroadcastsInDim S32x64x8 (![] : Fin 0 → Fin S32x64x8.rank)
  bcast_S32x64x8_S32x64x8x1_0_1_2 : S32x64x8.BroadcastsInDim S32x64x8x1 (![0, 1, 2] : Fin 3 → Fin S32x64x8x1.rank)
  gather_S32x128x49x256_S32x64x8x1_S32x64x8x49x256_34_1_0_0_1_3_1149256_wf : GatherDims.WF S32x128x49x256 S32x64x8x1 S32x64x8x49x256 [3, 4] [1] [0] [1] [0] 3 ![1, 1, 49, 256]

variable [Facts₀]

def gather_S32x128x49x256_S32x64x8x1_S32x64x8x49x256_34_1_0_0_1_3_1149256 : GatherDims S32x128x49x256 S32x64x8x1 S32x64x8x49x256 where
  offsetDims := [3, 4]
  collapsedSliceDims := [1]
  operandBatchingDims := [0]
  startIndicesBatchingDims := [0]
  startIndexMap := [1]
  indexVectorDim := 3
  sliceSizes := ![1, 1, 49, 256]
  wf := gather_S32x128x49x256_S32x64x8x1_S32x64x8x49x256_34_1_0_0_1_3_1149256_wf

class Facts : Prop extends Facts₀ where

variable [Facts]
-- ==== Proof.IdxRange.lean ====
/-
  The index words are in range. The precondition is the conjunction of four "for all elements"
  statements, each printed as a reduction by `and` over every axis, started at 1, of an elementwise
  comparison. If the whole is 1 at the single index of the rank-0 result, each conjunct is 1, and a
  reduction by `and` that is 1 met only 1s. The last two conjuncts compare every index word, read as a
  signed number, against 0 (at least) and against 128 (below). A 32-bit word whose signed value lies in
  [0, 128) has its sign bit clear, so its unsigned value is the same number, hence below 128.
-/
import proofs.«407486_j41695542510269_2_alg».proof.Pre_finite_inputs
import proofs.«407486_j41695542510269_2_alg».proof.Proof.Gen.Pre_finite_inputs
import Idealize.ShloMosaic.Lib.ReduceAll
import Idealize.ShloMosaic.Lib.ValueIdx

namespace Cert.Proof.IdxRange

open Idealize.ShloMosaic

/-- The rank-0 shape has exactly one index: there is no axis to give a coordinate on. -/
instance : Subsingleton Cert.Pre_finite_inputs.S_.Idx := ⟨fun a b => funext fun d => d.elim0⟩

/-- A 32-bit word with signed value in [0, 128) has unsigned value below 128: were its sign bit set, its
    signed value would be its unsigned value minus 2³², which is negative. -/
theorem toNat_lt_of_signed_range (x : BitVec 32) (h0 : (0#32 : BitVec 32).toInt ≤ x.toInt)
    (h1 : x.toInt < (128#32 : BitVec 32).toInt) : x.toNat < 128 := by
  have e0 : (0#32 : BitVec 32).toInt = 0 := by decide
  have e1 : (128#32 : BitVec 32).toInt = 128 := by decide
  rw [e0] at h0
  rw [e1] at h1
  have hc := BitVec.toInt_eq_toNat_cond x
  have hl := x.isLt
  split at hc <;> omega

/-- Under the precondition every index word, read as an unsigned number, is below 128. -/
theorem word_lt {F : FTy → Type} [FloatOps F]
    (idx : IVec Cert.Pre_finite_inputs.S32x64x8 32) (wt : FVec F Cert.Pre_finite_inputs.S32x64x8 .f32)
    (kv : FVec F Cert.Pre_finite_inputs.S32x2x64x49x256 .f32)
    (h : Cert.Pre_finite_inputs.fn (F := F) idx wt kv = fun _ => 1#1) (j : Cert.Pre_finite_inputs.S32x64x8.Idx) :
    (idx j).toNat < 128 := by
  -- the value at the one index of the result, with the function's chain of operations in view
  have h0 := congrFun h ValueIdx.ix0
  dsimp only [Cert.Pre_finite_inputs.fn, Cert.Pre_finite_inputs.fn_part1, andi] at h0
  -- ((finite weights ∧ finite values) ∧ words ≥ 0) ∧ words < 128: keep the last two conjuncts
  obtain ⟨h123, hlt⟩ := IntOp.andi_eq_one.1 h0
  obtain ⟨_, hge⟩ := IntOp.andi_eq_one.1 h123
  -- each is a reduction by `and` over all axes, so it holds at the element `j`
  have ege := Host.reduce_andi_all _ _ _ _ _ hge j
  have elt := Host.reduce_andi_all _ _ _ _ _ hlt j
  -- at `j` the comparison is of the word `idx j` with the broadcast constant
  dsimp only [cmpi, broadcastInDim, constantI] at ege elt
  exact toNat_lt_of_signed_range (idx j) (IntOp.cmpi_sge.1 ege) (IntOp.cmpi_slt.1 elt)

end Cert.Proof.IdxRange
-- ==== Proof.Spec.lean ====
/-
  What the gather computes, as ONE function of the argument arrays, index by index, over the literal shapes.

  kv of shape [32, 2, 64, 49, 256] is read as kvflat of shape [32, 128, 49, 256] (the two middle axes merged, row-major);
  idx of shape [32, 64, 8] holds, for batch b, query position q and slot k, the number of a row of kvflat's axis of
  extent 128. The result, of shape [32, 64, 8, 49, 256], is

      out[b, q, k, w, c] = kvflat[b, idx[b, q, k], w, c].

  A word names a row through `rowOf`, capped at the last row so that it is a `Fin 128` for every word; on the
  admitted inputs (every word in [0, 128)) the cap never binds.
-/
import Idealize.ShloMosaic.PureOps.Ideal
import Idealize.ShloMosaic.Lib.ValueIdx

namespace Cert.Proof.Spec

open Idealize.ShloMosaic

/-- idx's shape. -/
abbrev SIdx : Shape := ⟨3, ![32, 64, 8]⟩
/-- kv with its two middle axes merged. -/
abbrev SFlat : Shape := ⟨4, ![32, 128, 49, 256]⟩
/-- The result's shape. -/
abbrev SOut : Shape := ⟨5, ![32, 64, 8, 49, 256]⟩

/-- The row of the 128 a word names (capped at row 127). -/
def rowOf (w : BitVec 32) : Fin 128 := ⟨min w.toNat 127, by omega⟩

/-- A word below 128 names the row of its own number. -/
theorem rowOf_val (w : BitVec 32) (h : w.toNat < 128) : (rowOf w).val = w.toNat := by
  show min w.toNat 127 = w.toNat
  omega

/-- out[b, q, k, w, c] = kvflat[b, idx[b, q, k], w, c]. -/
def gathered {α : Type} (idx : SIdx.Idx → BitVec 32) (kvflat : SFlat.Idx → α) : SOut.Idx → α :=
  fun y => kvflat (ValueIdx.ix4 (y 0 : Fin 32) (rowOf (idx (ValueIdx.ix3 (y 0 : Fin 32) (y 1 : Fin 64) (y 2 : Fin 8))))
    (y 3 : Fin 49) (y 4 : Fin 256))

end Cert.Proof.Spec
-- ==== Proof.RefGather.lean ====
/-
  The reference's run, read at an index: its result is the gather of the specification.

  The reference gathers rows of kvflat = kv with its two middle axes merged, [32, 128, 49, 256], at start indices
  s = select(idx <s 0, idx + 128, idx) carried with a unit axis appended, [32, 64, 8, 1]. The gather is batched: operand
  axis 0 is paired with start-indices axis 0, operand axis 1 is collapsed and is the one the start index addresses, and
  operand axes 2 and 3 are the result's offset axes 3 and 4, taken whole. So at output index (b, q, k, w, c) it reads

      kvflat[b, clamp s[b, q, k, 0], w, c],      clamp v = min (max v 0) 127, v read signed.

  On the admitted inputs every word of idx is in [0, 128): it is not negative, so the select keeps it, s[b, q, k, 0] is
  idx[b, q, k], and the clamp is vacuous. That is the specification's `gathered idx kvflat`. The generated run states
  what the reference's result buffer holds as the operations' composed term; the equation of that term with the
  specification is proved here, index by index, and carried through the run.
-/
import proofs.«407486_j41695542510269_2_alg».proof.Proof.Spec
import proofs.«407486_j41695542510269_2_alg».proof.Proof.Gen.ReferenceIdeal.Run
import proofs.«407486_j41695542510269_2_alg».proof.Proof.Gen.ReferenceIdeal.Read
import proofs.«407486_j41695542510269_2_alg».proof.Proof.Gen.ReferenceIdeal
import proofs.«407486_j41695542510269_2_alg».proof.Proof.Gen.Pre_finite_inputs
import proofs.«407486_j41695542510269_2_alg».proof.Defs
import Idealize.ShloMosaic.Lib.ValueIdx

noncomputable section

namespace Cert.Proof.RefGather

open Cert.ReferenceIdeal Cert.ReferenceIdeal.Gen Idealize.ShloMosaic Idealize.ShloMosaic.TcCoe Idealize.SL.Sem Idealize.ShloMosaic.StableHlo
open Idealize.ShloMosaic.ValueIdx

/-! ## The batched gather at an output index -/

/-- The row a start index names once the gather has clamped it: its signed value, cut to [0, 127]. -/
def clampRow (v : BitVec 32) : Fin 128 := ⟨min v.toInt.toNat 127, by omega⟩

/-- The start-indices index `[b, q, k, 0]` of output index `(b, q, k, w, c)`. -/
abbrev sidx (y : S32x64x8x49x256.Idx) : S32x64x8x1.Idx :=
  ix4 (y 0 : Fin 32) (y 1 : Fin 64) (y 2 : Fin 8) (0 : Fin 1)

/-- THE GATHER READ AT `(b, q, k, w, c)`: the operand at `(b, clamp s[b, q, k, 0], w, c)`. The operand index is, on each
    operand axis, the clamped start plus the batching coordinate plus the offset coordinate, and on each axis exactly one
    of the three is not zero. -/
theorem gather_apply {α : Type} (x : S32x128x49x256.Idx → α) (iv : IVec S32x64x8x1 32) (y : S32x64x8x49x256.Idx) :
    Host.gather gather_S32x128x49x256_S32x64x8x1_S32x64x8x49x256_34_1_0_0_1_3_1149256 x iv y
      = x (ix4 (y 0 : Fin 32) (clampRow (iv (sidx y))) (y 3 : Fin 49) (y 4 : Fin 256)) := by
  unfold Host.gather
  congr 1
  funext a
  refine Fin.ext ?_
  match a with
  -- axis 0, the batching axis: no start, no offset; the coordinate of the paired start-indices axis, b
  | ⟨0, _⟩ =>
    show gather_S32x128x49x256_S32x64x8x1_S32x64x8x49x256_34_1_0_0_1_3_1149256.start y iv 0
        + gather_S32x128x49x256_S32x64x8x1_S32x64x8x49x256_34_1_0_0_1_3_1149256.batchCoord y 0
        + gather_S32x128x49x256_S32x64x8x1_S32x64x8x49x256_34_1_0_0_1_3_1149256.offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ gather_S32x128x49x256_S32x64x8x1_S32x64x8x49x256_34_1_0_0_1_3_1149256.operandBatchingDims from List.mem_singleton.mpr rfl)]
    rfl
  -- axis 1, collapsed and addressed by the start index: the start read at [b, q, k, 0], clamped to [0, 128 - 1]
  | ⟨1, _⟩ =>
    show gather_S32x128x49x256_S32x64x8x1_S32x64x8x49x256_34_1_0_0_1_3_1149256.start y iv 1
        + gather_S32x128x49x256_S32x64x8x1_S32x64x8x49x256_34_1_0_0_1_3_1149256.batchCoord y 1
        + gather_S32x128x49x256_S32x64x8x1_S32x64x8x49x256_34_1_0_0_1_3_1149256.offCoord y 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S32x128x49x256_S32x64x8x1_S32x64x8x49x256_34_1_0_0_1_3_1149256.startIndexMap from List.mem_singleton.mpr rfl)]
    have hsi : gather_S32x128x49x256_S32x64x8x1_S32x64x8x49x256_34_1_0_0_1_3_1149256.siIdx y
        ⟨List.idxOf (1 : Fin 4) gather_S32x128x49x256_S32x64x8x1_S32x64x8x49x256_34_1_0_0_1_3_1149256.startIndexMap,
          List.idxOf_lt_length_iff.2 (List.mem_singleton.mpr rfl)⟩ = sidx y := by
      funext b; refine Fin.ext ?_
      match b with
      | ⟨0, _⟩ => rfl
      | ⟨1, _⟩ => rfl
      | ⟨2, _⟩ => rfl
      | ⟨3, _⟩ => rfl
    rw [hsi]
    rfl
  -- axis 2, the first kept axis: the result's offset coordinate w
  | ⟨2, _⟩ =>
    show gather_S32x128x49x256_S32x64x8x1_S32x64x8x49x256_34_1_0_0_1_3_1149256.start y iv 2
        + gather_S32x128x49x256_S32x64x8x1_S32x64x8x49x256_34_1_0_0_1_3_1149256.batchCoord y 2
        + gather_S32x128x49x256_S32x64x8x1_S32x64x8x49x256_34_1_0_0_1_3_1149256.offCoord y 2 = (y 3).val
    rw [GatherDims.batchCoord_eq_zero _ _ _ (by decide)]
    unfold GatherDims.start
    rw [dif_neg (show (2 : Fin 4) ∉ gather_S32x128x49x256_S32x64x8x1_S32x64x8x49x256_34_1_0_0_1_3_1149256.startIndexMap by decide)]
    simp only [Nat.zero_add, Nat.add_zero]
    unfold GatherDims.offCoord
    rw [dif_pos (show (2 : Fin 4) ∈ gather_S32x128x49x256_S32x64x8x1_S32x64x8x49x256_34_1_0_0_1_3_1149256.sKept by decide)]
    rfl
  -- axis 3, the second kept axis: the result's offset coordinate c
  | ⟨3, _⟩ =>
    show gather_S32x128x49x256_S32x64x8x1_S32x64x8x49x256_34_1_0_0_1_3_1149256.start y iv 3
        + gather_S32x128x49x256_S32x64x8x1_S32x64x8x49x256_34_1_0_0_1_3_1149256.batchCoord y 3
        + gather_S32x128x49x256_S32x64x8x1_S32x64x8x49x256_34_1_0_0_1_3_1149256.offCoord y 3 = (y 4).val
    rw [GatherDims.batchCoord_eq_zero _ _ _ (by decide)]
    unfold GatherDims.start
    rw [dif_neg (show (3 : Fin 4) ∉ gather_S32x128x49x256_S32x64x8x1_S32x64x8x49x256_34_1_0_0_1_3_1149256.startIndexMap by decide)]
    simp only [Nat.zero_add, Nat.add_zero]
    unfold GatherDims.offCoord
    rw [dif_pos (show (3 : Fin 4) ∈ gather_S32x128x49x256_S32x64x8x1_S32x64x8x49x256_34_1_0_0_1_3_1149256.sKept by decide)]
    rfl

/-! ## The start indices on the admitted inputs -/

/-- A word whose unsigned value is below 128 is not negative: the signed comparison with zero gives the bit 0. -/
theorem slt_zero_of_small (v : BitVec 32) (h : v.toNat < 128) : IntOp.cmpi .slt v 0#32 = 0#1 := by
  have hs : v.slt 0#32 = false := by
    simp only [BitVec.slt, BitVec.toInt_eq_toNat_of_lt (show 2 * v.toNat < 2 ^ 32 by omega)]
    simp
  show BitVec.ofBool (v.slt 0#32) = 0#1
  rw [hs]; rfl

/-- So a select on that comparison keeps the word itself, whatever the other operand. -/
theorem select_small (v a : BitVec 32) (h : v.toNat < 128) : Scalar.select (IntOp.cmpi .slt v 0#32) a v = v := by
  rw [slt_zero_of_small v h]
  exact select_zero _ _

/-- Read signed, such a word is its unsigned value. -/
theorem toInt_toNat_of_small (v : BitVec 32) (h : v.toNat < 128) : v.toInt.toNat = v.toNat := by
  rw [BitVec.toInt_eq_toNat_of_lt (show 2 * v.toNat < 2 ^ 32 by omega)]
  exact Int.toNat_natCast _

/-- On a word below 128 the gather's clamp is vacuous: the clamped row is the row the specification names. -/
theorem clampRow_eq_rowOf (v : BitVec 32) (h : v.toNat < 128) : clampRow v = Cert.Proof.Spec.rowOf v :=
  Fin.ext (by
    show min v.toInt.toNat 127 = min v.toNat 127
    rw [toInt_toNat_of_small v h])

/-- The start indices the gather reads — idx where it is not negative, idx + 128 where it is, with a unit axis appended —
    at `[b, q, k, 0]`: on words below 128 the comparison is false everywhere and the select keeps idx[b, q, k]. -/
theorem starts_apply (idx : (⟨S32x64x8, .i32⟩ : BufTy).Contents (Elt Ideal)) (hidx : ∀ j, (idx j).toNat < 128) (i : S32x64x8x1.Idx) :
    broadcastInDim S32x64x8x1 ![0, 1, 2] bcast_S32x64x8_S32x64x8x1_0_1_2 (select (cmpi .slt idx (broadcastInDim S32x64x8 ![] bcast_S_S32x64x8 (constantI S_ 32 0#32))) (addi idx (broadcastInDim S32x64x8 ![] bcast_S_S32x64x8 (constantI S_ 32 128#32))) idx) i
      = idx (ix3 (i 0 : Fin 32) (i 1 : Fin 64) (i 2 : Fin 8)) := by
  have hi : Cert.ReferenceIdeal.Read.idx_main_v6 i = ix3 (i 0 : Fin 32) (i 1 : Fin 64) (i 2 : Fin 8) := by
    funext a
    match a with
    | ⟨0, _⟩ => rfl
    | ⟨1, _⟩ => rfl
    | ⟨2, _⟩ => rfl
  show Cert.ReferenceIdeal.Read.val_main_v6 (F := Ideal) idx i = _
  rw [Cert.ReferenceIdeal.Read.val_main_v6_apply, Cert.ReferenceIdeal.Read.val_main_v5_apply,
    Cert.ReferenceIdeal.Read.val_main_v2_apply, Cert.ReferenceIdeal.Read.val_main_v1_apply,
    Cert.ReferenceIdeal.Read.val_main_c_apply, hi]
  exact select_small _ _ (hidx _)

/-- The reference's composed term is the specification's gather of idx and the reshaped kv: at output index
    `(b, q, k, w, c)` the gather reads the operand at `(b, clamp v, w, c)` with `v` the start index at `[b, q, k, 0]`;
    that start index is idx[b, q, k] and its clamp is vacuous. -/
theorem result_eq (idx : (⟨S32x64x8, .i32⟩ : BufTy).Contents (Elt Ideal)) (kv : (⟨S32x2x64x49x256, .f32⟩ : BufTy).Contents (Elt Ideal))
    (hidx : ∀ j, (idx j).toNat < 128) :
    Host.gather gather_S32x128x49x256_S32x64x8x1_S32x64x8x49x256_34_1_0_0_1_3_1149256 (shapeCast _ kv shapeCasts_S32x2x64x49x256_S32x128x49x256) (broadcastInDim S32x64x8x1 ![0, 1, 2] bcast_S32x64x8_S32x64x8x1_0_1_2 (select (cmpi .slt idx (broadcastInDim S32x64x8 ![] bcast_S_S32x64x8 (constantI S_ 32 0#32))) (addi idx (broadcastInDim S32x64x8 ![] bcast_S_S32x64x8 (constantI S_ 32 128#32))) idx))
      = Cert.Proof.Spec.gathered idx (shapeCast S32x128x49x256 kv shapeCasts_S32x2x64x49x256_S32x128x49x256) := by
  generalize shapeCast S32x128x49x256 kv shapeCasts_S32x2x64x49x256_S32x128x49x256 = x
  funext y
  have hrow := (congrArg clampRow (starts_apply idx hidx (sidx y))).trans (clampRow_eq_rowOf _ (hidx _))
  exact (gather_apply x _ y).trans
    (congrArg (fun r => x (ix4 (y 0 : Fin 32) r (y 3 : Fin 49) (y 4 : Fin 256))) hrow)

/-! ## The run -/

/-- From any memory whose idx words are all below 128, every weakly fair execution of the reference ends with its result
    buffer at the specification's gather of idx and the reshaped kv, and with the three arguments unchanged. -/
theorem run_gathered (m' : (ℓ : Loc Cert.ReferenceIdeal.nD Cert.ReferenceIdeal.τ Cert.ReferenceIdeal.sig) → Buf (Elt Ideal) ℓ)
    (ρ' : Dev Cert.ReferenceIdeal.nD → PrngReg)
    (hidx : ∀ (c : Dev Cert.ReferenceIdeal.nD) (j : Cert.ReferenceIdeal.S32x64x8.Idx),
      (m' ((c.tc : Thread Cert.ReferenceIdeal.nD Cert.ReferenceIdeal.τ).loc Cert.ReferenceIdeal.main_arg0) j).toNat < 128) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v7)
          = Cert.Proof.Spec.gathered (m' ((c.tc : Thread Cert.ReferenceIdeal.nD Cert.ReferenceIdeal.τ).loc Cert.ReferenceIdeal.main_arg0))
              (shapeCast Cert.ReferenceIdeal.S32x128x49x256 (m' ((c.tc : Thread Cert.ReferenceIdeal.nD Cert.ReferenceIdeal.τ).loc Cert.ReferenceIdeal.main_arg2))
                shapeCasts_S32x2x64x49x256_S32x128x49x256)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans (result_eq _ _ (hidx c)), (h c).2⟩)
    (Cert.ReferenceIdeal.Value.run (F := Ideal) m' ρ')

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefGather

end
-- ==== Proof.KernelTrip.lean ====
/-
  One trip of the gather's loop.

  Trip k of the body serves query position k of the point's 32: it reads the eight table words of that position, starts
  eight copies — for slot j the tile [56, 256] of the padded source at (n, word j), into the output block's window
  (0, k, j) —, all eight in flight at once, and then waits for the eight. A word names a row of the source only if it is
  below 128: that is what the body assumes of each word it reads, and what the bound `hT` on the table's words gives.

  The source array is read by eight copies at once, whose tiles may coincide (two slots may name one row), so it is held
  as eight read shares and a remainder; each copy borrows one. The block is held whole: each copy takes its own window,
  and the eight windows of one row are pairwise apart. After the trip everything is back as it was, except that the block
  holds, in row k, the eight tiles; what it holds is a function `(tripRun …).1` of what it held before, found by the run.
-/
import proofs.«407486_j41695542510269_2_alg».proof.Proof.Gen.Kernel.Loops
import Idealize.ShloMosaic.Lib.Pipeline.Frame

set_option maxRecDepth 16384

noncomputable section

namespace Cert.Proof.KernelTrip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A word below 128 names a row of the padded source [32, 128, 56, 256]: the tile [1, 1, 56, 256] at (n, word, 0, 0)
    lies inside it, for every batch n of the grid. -/
theorem chk_of (i : grid0.Coords) (w : BitVec 32) (h : w.toNat < 128) : k0_chk1 i w := by
  intro a
  have hi : (i 0).val < 32 := (i 0).isLt
  have e : (BitVec.ofNat 32 (i 0).val).toNat = (i 0).val := by
    rw [BitVec.toNat_ofNat]; exact Nat.mod_eq_of_lt (by omega)
  fin_cases a
  · show (BitVec.ofNat 32 (i 0).val).toNat + 1 ≤ 32
    omega
  · show w.toNat + 1 ≤ 128
    omega
  · show 0 + 56 ≤ 56
    omega
  · show 0 + 256 ≤ 256
    omega

/-- The eight cells of the kernel's semaphore array, each at zero. -/
abbrev cells (c : Dev nD) (arg5 : DmaSems sig S8) : sProp 𝕄 :=
  iprop((semVal ((c : Thread nD τ), SemLoc.dma ((arg5.slice (Rect.unit (s := S8) ![0] S1.size inb_S8_S1_0)).squeeze S_ squeezes_S1_S_).sem) 0)
    ∗ (semVal ((c : Thread nD τ), SemLoc.dma ((arg5.slice (Rect.unit (s := S8) ![1] S1.size inb_S8_S1_1)).squeeze S_ squeezes_S1_S_).sem) 0)
    ∗ (semVal ((c : Thread nD τ), SemLoc.dma ((arg5.slice (Rect.unit (s := S8) ![2] S1.size inb_S8_S1_2)).squeeze S_ squeezes_S1_S_).sem) 0)
    ∗ (semVal ((c : Thread nD τ), SemLoc.dma ((arg5.slice (Rect.unit (s := S8) ![3] S1.size inb_S8_S1_3)).squeeze S_ squeezes_S1_S_).sem) 0)
    ∗ (semVal ((c : Thread nD τ), SemLoc.dma ((arg5.slice (Rect.unit (s := S8) ![4] S1.size inb_S8_S1_4)).squeeze S_ squeezes_S1_S_).sem) 0)
    ∗ (semVal ((c : Thread nD τ), SemLoc.dma ((arg5.slice (Rect.unit (s := S8) ![5] S1.size inb_S8_S1_5)).squeeze S_ squeezes_S1_S_).sem) 0)
    ∗ (semVal ((c : Thread nD τ), SemLoc.dma ((arg5.slice (Rect.unit (s := S8) ![6] S1.size inb_S8_S1_6)).squeeze S_ squeezes_S1_S_).sem) 0)
    ∗ (semVal ((c : Thread nD τ), SemLoc.dma ((arg5.slice (Rect.unit (s := S8) ![7] S1.size inb_S8_S1_7)).squeeze S_ squeezes_S1_S_).sem) 0))

/-- The source array as a remainder and eight read shares, all at contents `X`. -/
abbrev srcShares (c : Dev nD) (arg3 : Memref sig .tc .hbm S32x128x56x256 .f32) (X : BufTy.Contents (Elt F) arg3.view.ty) : sProp 𝕄 :=
  iprop((arg3.view.loc (c : Thread nD τ) ↦{Transfers.shareDrop fullShare 8} X)
    ∗ (arg3.view.loc (c : Thread nD τ) ↦{Transfers.shareTokN fullShare 0} X)
    ∗ (arg3.view.loc (c : Thread nD τ) ↦{Transfers.shareTokN fullShare 1} X)
    ∗ (arg3.view.loc (c : Thread nD τ) ↦{Transfers.shareTokN fullShare 2} X)
    ∗ (arg3.view.loc (c : Thread nD τ) ↦{Transfers.shareTokN fullShare 3} X)
    ∗ (arg3.view.loc (c : Thread nD τ) ↦{Transfers.shareTokN fullShare 4} X)
    ∗ (arg3.view.loc (c : Thread nD τ) ↦{Transfers.shareTokN fullShare 5} X)
    ∗ (arg3.view.loc (c : Thread nD τ) ↦{Transfers.shareTokN fullShare 6} X)
    ∗ (arg3.view.loc (c : Thread nD τ) ↦{Transfers.shareTokN fullShare 7} X))

set_option maxHeartbeats 4000000 in
/-- ONE TRIP at a symbolic position `k`: from the table at `T` (any share), the source as read shares at `X`, the block
    at any contents `f`, the eight cells at zero and the core's waits, the trip's region runs to the same resources with
    the block at `g f` — `g` the witness: eight tiles written through the row's eight windows, as the run leaves them. -/
@[irreducible] def tripRun (𝒱 : Variants) (c : Dev nD) (bd : Option 𝒱.V) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (v2 : BitVec 32) (q : PosShare TreeShare)
    (T : BufTy.Contents (Elt F) arg2.view.ty) (X : BufTy.Contents (Elt F) arg3.view.ty)
    (hT : ∀ r idx, (View.readAt (Elt F) arg2.view r T idx).toNat < 128)
    (k : Fin k0_t1_loop.trips) :
    { g : Buf (Elt F) (arg4.view.loc (c : Thread nD τ)) → Buf (Elt F) (arg4.view.loc (c : Thread nD τ)) //
      ∀ (f : Buf (Elt F) (arg4.view.loc (c : Thread nD τ))) (W : Waits sig Unit),
        iprop((arg2.view.loc (c : Thread nD τ) ↦{q} T) ∗ srcShares (F := F) c arg3 X
            ∗ (arg4.view.loc (c : Thread nD τ) ↦[arg4.view.set]{fullShare} f) ∗ cells (F := F) c arg5 ∗ owes (c : Thread nD τ) 0 W)
          ⊢ wp frame (wpE (defs₀ (F := F)) 𝒱 (c : Thread nD τ) bd) Set.univ (k0_t1_body (F := F) i arg2 harg2 arg3 harg3 arg4 harg4 arg5 v2 k ())
              (fun _ => iprop((arg2.view.loc (c : Thread nD τ) ↦{q} T) ∗ srcShares (F := F) c arg3 X
                ∗ (arg4.view.loc (c : Thread nD τ) ↦[arg4.view.set]{fullShare} g f) ∗ cells (F := F) c arg5 ∗ ∃ W', owes (c : Thread nD τ) 0 W')) } := by
  refine ⟨?_, fun f W => ?run⟩
  case run =>
    unfold k0_t1_body
    iintro ⟨HT, ⟨HXr, HX0, HX1, HX2, HX3, HX4, HX5, HX6, HX7⟩, HO4, ⟨HC0, HC1, HC2, HC3, HC4, HC5, HC6, HC7⟩, HW⟩
    sl_exec (disch := exact chk_of i _ (hT _ _))
    sl_step
    isplitl [HT]; · iexact HT
    isplitl [HXr HX0 HX1 HX2 HX3 HX4 HX5 HX6 HX7]
    · isplitl [HXr]; · iexact HXr
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [HO4]; · iexact HO4
    isplitl [HC0 HC1 HC2 HC3 HC4 HC5 HC6 HC7]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      iexact HC7
    iexists _; iexact HW

end Cert.Proof.KernelTrip

end
-- ==== Proof.LibRowWindows.lean ====
/-
  WINDOWS ONTO THE SLOTS OF A BLOCK OF ROWS. A rank-5 block of shape [1, 32, 8, 56, 256] holds 32 rows of 8 slots, each slot a
  56 × 256 tile. A window is the unit-stride rectangle of extents [1, 1, 1, 56, 256] at offsets [0, r, j, 0, 0] (row r, slot j) with
  its three unit axes dropped, so that it is indexed as a tile. A whole tile written through the window lands on the block's elements
  (0, r, j, w, c) and on no other. Two reads go with it: a tile of a [32, 128, 56, 256] source array read whole through its own
  window, and one word of a table of 16384 words. The lemmas are generic in the signature, the kind, the memory space, the element type and the
  family of values.
-/
import Idealize.ShloMosaic.Lib.ValueIdx
import Idealize.ShloMosaic.Lib.ValueLayout
import Idealize.ShloMosaic.Signature.Memref

noncomputable section

namespace Cert.Proof.LibRowWindows

open Idealize.ShloMosaic
open Idealize.ShloMosaic.ValueIdx (ix1 ix2 ix4 ix5 eq_ix2 reshapeEquiv_ix2_11ab)

/-- The block: one plane of 32 rows, each row 8 slots, each slot a 56 × 256 tile. -/
abbrev Block : Shape := ⟨5, ![1, 32, 8, 56, 256]⟩
/-- One slot of one row, as a rank-5 rectangle of the block. -/
abbrev Slot : Shape := ⟨5, ![1, 1, 1, 56, 256]⟩
/-- A tile: a slot with its three unit axes dropped. -/
abbrev Tile : Shape := ⟨2, ![56, 256]⟩

variable {sig : RefSig} {κ : Kind} {sp : Space} {e : EltTy} {Val : EltTy → Type}

/-- A tile index (w, c) matched by row-major position with the slot's shape is (0, 0, 0, w, c): the unit axes contribute
    nothing to the position. -/
theorem reshapeEquiv_tile (h : Tile.numel = Slot.numel) (w : Fin 56) (c : Fin 256) :
    Shape.reshapeEquiv (s := Slot) (s' := Tile) h (ix2 w c)
      = ix5 (⟨0, Nat.one_pos⟩ : Fin 1) (⟨0, Nat.one_pos⟩ : Fin 1) (⟨0, Nat.one_pos⟩ : Fin 1) w c :=
  Shape.reshapeEquiv_eq_of_rowMajor h (by
    rw [Shape.rowMajor_val_five, Shape.rowMajor_val_two]
    show ((((0 * 1 + 0) * 1 + 0) * 56 + w.val) * 256 + c.val) = w.val * 256 + c.val
    omega)

/-- The window's placement in the buffer factors through the block's: a tile index goes to the slot's index at the same
    row-major position, then into the block by the rectangle's offsets, then where the block's memref puts it. -/
theorem window_emb (M : Memref sig κ sp Block e) (off : Fin 5 → Nat)
    (inb : ∀ a, off a + Slot.size a ≤ Block.size a) (hs) (sq : Slot.Squeezes Tile) (x : Tile.Idx) :
    ((M.slice (Rect.unit (s := Block) off Slot.size inb) hs).squeeze Tile sq).view.emb x
      = M.view.emb ((Rect.unit (s := Block) off Slot.size inb).emb (Shape.reshapeEquiv sq.numel_eq x)) := rfl

/-- The block index the window at row r, slot j gives the tile index (w, c), axis by axis: (0, r, j, w, c). -/
theorem window_place (off : Fin 5 → Nat) (r : Fin 32) (j : Fin 8) (hoff : off = ![0, r.val, j.val, 0, 0])
    (inb : ∀ a, off a + Slot.size a ≤ Block.size a) (h : Tile.numel = Slot.numel) (w : Fin 56) (c : Fin 256) (a : Fin 5) :
    (((Rect.unit (s := Block) off Slot.size inb).emb (Shape.reshapeEquiv h (ix2 w c))) a : Nat)
      = (![0, r.val, j.val, w.val, c.val] : Fin 5 → Nat) a := by
  subst hoff
  rw [reshapeEquiv_tile, Rect.emb_apply]
  match a with
  | ⟨0, _⟩ => show 0 + 1 * 0 = 0; omega
  | ⟨1, _⟩ => show r.val + 1 * 0 = r.val; omega
  | ⟨2, _⟩ => show j.val + 1 * 0 = j.val; omega
  | ⟨3, _⟩ => show 0 + 1 * w.val = w.val; omega
  | ⟨4, _⟩ => show 0 + 1 * c.val = c.val; omega

/-- ONE TILE THROUGH ONE WINDOW. After a whole tile d is written through the window at row r, slot j, the block read at y holds
    d (y 3, y 4) when y lies in that row and slot, and what it held before everywhere else. On the window: y is the image of the
    tile index (y 3, y 4), since its leading coordinate is 0 on an axis of extent one, and reading back a written element gives
    the payload. Off the window: were y's element written, y would be the image of some tile index (the block's placement is
    injective), and that image has row r and slot j. -/
theorem read_write_tile (M : Memref sig κ sp Block e) (r : Fin 32) (j : Fin 8) (off : Fin 5 → Nat)
    (hoff : off = ![0, r.val, j.val, 0, 0]) (inb : ∀ a, off a + Slot.size a ≤ Block.size a)
    (hs : ∀ a, (Rect.unit (s := Block) off Slot.size inb).stride a = 1) (sq : Slot.Squeezes Tile)
    (f : M.view.ty.Contents Val) (d : Tile.Idx → Val e) (y : Block.Idx) :
    M.view.read Val (View.write Val ((M.slice (Rect.unit (s := Block) off Slot.size inb) hs).squeeze Tile sq).view f d Finset.univ) y
      = if (y 1).val = r.val ∧ (y 2).val = j.val then d (ix2 (y 3) (y 4)) else M.view.read Val f y := by
  split
  · next hit =>
    have hy : M.view.emb y = ((M.slice (Rect.unit (s := Block) off Slot.size inb) hs).squeeze Tile sq).view.emb (ix2 (y 3) (y 4)) := by
      rw [window_emb]
      congr 1
      funext a
      apply Fin.ext
      refine Eq.trans ?_ (window_place off r j hoff inb sq.numel_eq (y 3) (y 4) a).symm
      match a with
      | ⟨0, _⟩ => show (y 0).val = 0; have : (y 0).val < 1 := (y 0).isLt; omega
      | ⟨1, _⟩ => exact hit.1
      | ⟨2, _⟩ => exact hit.2
      | ⟨3, _⟩ => rfl
      | ⟨4, _⟩ => rfl
    rw [View.read_apply, hy]
    exact View.read_write_of_mem (v := ((M.slice (Rect.unit (s := Block) off Slot.size inb) hs).squeeze Tile sq).view) f d (Finset.mem_univ _)
  · next miss =>
    apply View.read_congr_at
    apply View.write_of_not_mem
    intro hm
    obtain ⟨x, _, hx⟩ := Finset.mem_map.mp hm
    obtain ⟨w, c, rfl⟩ : ∃ (w : Fin 56) (c : Fin 256), x = ix2 w c := ⟨x 0, x 1, eq_ix2 x⟩
    rw [window_emb] at hx
    have hxy := M.view.emb.injective hx
    apply miss
    constructor
    · have := window_place off r j hoff inb sq.numel_eq w c 1
      rw [hxy] at this; exact this
    · have := window_place off r j hoff inb sq.numel_eq w c 2
      rw [hxy] at this; exact this

/-- Choosing among eight values by a slot number, tested from slot 7 down to slot 0, is evaluating at the slot. -/
theorem pick_slot {α : Type} (g : Fin 8 → α) (z : α) (k : Fin 8) :
    (if k.val = (7 : Fin 8).val then g 7 else
      if k.val = (6 : Fin 8).val then g 6 else
      if k.val = (5 : Fin 8).val then g 5 else
      if k.val = (4 : Fin 8).val then g 4 else
      if k.val = (3 : Fin 8).val then g 3 else
      if k.val = (2 : Fin 8).val then g 2 else
      if k.val = (1 : Fin 8).val then g 1 else
      if k.val = (0 : Fin 8).val then g 0 else z) = g k := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- EIGHT TILES THROUGH THE EIGHT WINDOWS OF ONE ROW. After tile d k is written through the window at row r, slot k, for
    k = 0 (first) up to 7 (last), the block read at y holds d (y 2) (y 3, y 4) when y lies in row r, and what it held before in
    every other row. Each write is read past by the one-window lemma, the last write first; in row r the eight tests on the slot
    number pick the tile of y's own slot, and in another row every test fails. -/
theorem read_write_row (M : Memref sig κ sp Block e) (r : Fin 32)
    (off0 : Fin 5 → Nat) (hoff0 : off0 = ![0, r.val, 0, 0, 0]) (inb0 : ∀ a, off0 a + Slot.size a ≤ Block.size a)
    (hs0 : ∀ a, (Rect.unit (s := Block) off0 Slot.size inb0).stride a = 1) (sq0 : Slot.Squeezes Tile)
    (off1 : Fin 5 → Nat) (hoff1 : off1 = ![0, r.val, 1, 0, 0]) (inb1 : ∀ a, off1 a + Slot.size a ≤ Block.size a)
    (hs1 : ∀ a, (Rect.unit (s := Block) off1 Slot.size inb1).stride a = 1) (sq1 : Slot.Squeezes Tile)
    (off2 : Fin 5 → Nat) (hoff2 : off2 = ![0, r.val, 2, 0, 0]) (inb2 : ∀ a, off2 a + Slot.size a ≤ Block.size a)
    (hs2 : ∀ a, (Rect.unit (s := Block) off2 Slot.size inb2).stride a = 1) (sq2 : Slot.Squeezes Tile)
    (off3 : Fin 5 → Nat) (hoff3 : off3 = ![0, r.val, 3, 0, 0]) (inb3 : ∀ a, off3 a + Slot.size a ≤ Block.size a)
    (hs3 : ∀ a, (Rect.unit (s := Block) off3 Slot.size inb3).stride a = 1) (sq3 : Slot.Squeezes Tile)
    (off4 : Fin 5 → Nat) (hoff4 : off4 = ![0, r.val, 4, 0, 0]) (inb4 : ∀ a, off4 a + Slot.size a ≤ Block.size a)
    (hs4 : ∀ a, (Rect.unit (s := Block) off4 Slot.size inb4).stride a = 1) (sq4 : Slot.Squeezes Tile)
    (off5 : Fin 5 → Nat) (hoff5 : off5 = ![0, r.val, 5, 0, 0]) (inb5 : ∀ a, off5 a + Slot.size a ≤ Block.size a)
    (hs5 : ∀ a, (Rect.unit (s := Block) off5 Slot.size inb5).stride a = 1) (sq5 : Slot.Squeezes Tile)
    (off6 : Fin 5 → Nat) (hoff6 : off6 = ![0, r.val, 6, 0, 0]) (inb6 : ∀ a, off6 a + Slot.size a ≤ Block.size a)
    (hs6 : ∀ a, (Rect.unit (s := Block) off6 Slot.size inb6).stride a = 1) (sq6 : Slot.Squeezes Tile)
    (off7 : Fin 5 → Nat) (hoff7 : off7 = ![0, r.val, 7, 0, 0]) (inb7 : ∀ a, off7 a + Slot.size a ≤ Block.size a)
    (hs7 : ∀ a, (Rect.unit (s := Block) off7 Slot.size inb7).stride a = 1) (sq7 : Slot.Squeezes Tile)
    (f : M.view.ty.Contents Val) (d : Fin 8 → Tile.Idx → Val e) (y : Block.Idx) :
    M.view.read Val
      (View.write Val ((M.slice (Rect.unit (s := Block) off7 Slot.size inb7) hs7).squeeze Tile sq7).view
        (View.write Val ((M.slice (Rect.unit (s := Block) off6 Slot.size inb6) hs6).squeeze Tile sq6).view
        (View.write Val ((M.slice (Rect.unit (s := Block) off5 Slot.size inb5) hs5).squeeze Tile sq5).view
        (View.write Val ((M.slice (Rect.unit (s := Block) off4 Slot.size inb4) hs4).squeeze Tile sq4).view
        (View.write Val ((M.slice (Rect.unit (s := Block) off3 Slot.size inb3) hs3).squeeze Tile sq3).view
        (View.write Val ((M.slice (Rect.unit (s := Block) off2 Slot.size inb2) hs2).squeeze Tile sq2).view
        (View.write Val ((M.slice (Rect.unit (s := Block) off1 Slot.size inb1) hs1).squeeze Tile sq1).view
        (View.write Val ((M.slice (Rect.unit (s := Block) off0 Slot.size inb0) hs0).squeeze Tile sq0).view
        f (d 0) Finset.univ) (d 1) Finset.univ) (d 2) Finset.univ) (d 3) Finset.univ) (d 4) Finset.univ) (d 5) Finset.univ) (d 6) Finset.univ) (d 7) Finset.univ) y
      = if (y 1).val = r.val then d (y 2) (ix2 (y 3) (y 4)) else M.view.read Val f y := by
  rw [read_write_tile M r 7 off7 hoff7 inb7 hs7 sq7]
  rw [read_write_tile M r 6 off6 hoff6 inb6 hs6 sq6]
  rw [read_write_tile M r 5 off5 hoff5 inb5 hs5 sq5]
  rw [read_write_tile M r 4 off4 hoff4 inb4 hs4 sq4]
  rw [read_write_tile M r 3 off3 hoff3 inb3 hs3 sq3]
  rw [read_write_tile M r 2 off2 hoff2 inb2 hs2 sq2]
  rw [read_write_tile M r 1 off1 hoff1 inb1 hs1 sq1]
  rw [read_write_tile M r 0 off0 hoff0 inb0 hs0 sq0]
  by_cases h1 : (y 1).val = r.val
  · simp only [h1, true_and, if_true]
    exact pick_slot (fun k => d k (ix2 (y 3) (y 4))) (M.view.read Val f y) (y 2)
  · simp only [h1, false_and, if_false]

/-! ## The source array and the table of words -/

/-- The source array: 32 planes of 128 rows, each row a 56 × 256 tile. -/
abbrev Source : Shape := ⟨4, ![32, 128, 56, 256]⟩
/-- One row of one plane, as a rank-4 rectangle of the source array. -/
abbrev SourceRow : Shape := ⟨4, ![1, 1, 56, 256]⟩
/-- The table of words. -/
abbrev Words : Shape := ⟨1, ![16384]⟩
/-- One word of the table, as a rank-1 rectangle. -/
abbrev Word : Shape := ⟨1, ![1]⟩

/-- A TILE OF THE SOURCE ARRAY READ WHOLE. The window onto plane n, row r of the source array — the unit-stride rectangle of
    extents [1, 1, 56, 256] at offsets [n, r, 0, 0] with its two unit axes dropped — reads, at the tile index t, the array's
    element (n, r, t 0, t 1): t goes to (0, 0, t 0, t 1) in the rectangle's own shape, and the offsets add n and r. -/
theorem read_source_tile (M : Memref sig κ sp Source e) (n : Fin 32) (r : Fin 128) (off : Fin 4 → Nat)
    (hoff : off = ![n.val, r.val, 0, 0]) (inb : ∀ a, off a + SourceRow.size a ≤ Source.size a)
    (hs : ∀ a, (Rect.unit (s := Source) off SourceRow.size inb).stride a = 1) (sq : SourceRow.Squeezes Tile)
    (X : M.view.ty.Contents Val) (t : Tile.Idx) :
    View.read Val ((M.slice (Rect.unit (s := Source) off SourceRow.size inb) hs).squeeze Tile sq).view X t
      = M.view.read Val X (ix4 n r (t 0) (t 1)) := by
  have h1 : View.read Val ((M.slice (Rect.unit (s := Source) off SourceRow.size inb) hs).squeeze Tile sq).view X t
      = M.view.read Val X ((Rect.unit (s := Source) off SourceRow.size inb).emb (Shape.reshapeEquiv sq.numel_eq t)) := rfl
  rw [h1]
  congr 1
  obtain ⟨w, c, rfl⟩ : ∃ (w : Fin 56) (c : Fin 256), t = ix2 w c := ⟨t 0, t 1, eq_ix2 t⟩
  subst hoff
  rw [reshapeEquiv_ix2_11ab]
  funext a
  apply Fin.ext
  rw [Rect.emb_apply]
  match a with
  | ⟨0, _⟩ => show n.val + 1 * 0 = n.val; omega
  | ⟨1, _⟩ => show r.val + 1 * 0 = r.val; omega
  | ⟨2, _⟩ => show 0 + 1 * w.val = w.val; omega
  | ⟨3, _⟩ => show 0 + 1 * c.val = c.val; omega

/-- ONE WORD OF THE TABLE. A load through the one-element rectangle at offset p of the table of words reads, at the
    rectangle's only index, the table's element p: the rectangle's first index has coordinate 0, and the offset adds p. -/
theorem read_word (M : Memref sig κ sp Words e) (p : Fin 16384) (off : Fin 1 → Nat) (hoff : off 0 = p.val)
    (inb : ∀ a, off a + Word.size a ≤ Words.size a) (T : M.view.ty.Contents Val)
    (h : 0 < (Rect.unit (s := Words) off Word.size inb).shape.numel) :
    View.readAt Val M.view (Rect.unit (s := Words) off Word.size inb).toLoadRect T (Shape.Idx.first h)
      = M.view.read Val T (ix1 p) := by
  rw [View.readAt_apply]
  congr 1
  funext a
  apply Fin.ext
  match a with
  | ⟨0, _⟩ => show off 0 + 1 * 0 = p.val; omega

end Cert.Proof.LibRowWindows
-- ==== Proof.KernelTripRead.lean ====
/-
  What one trip leaves in the output block, read at an index.

  Trip k writes eight tiles through the eight windows (0, k, j) of the block, j = 0 … 7; the tile of window j is the
  padded source's tile at (n, word j), word j the table's entry at position 512 n + 256 p + 8 k + j. So after the trip
  the block reads, in row k, the source at (n, row of that word, w, c) — `blockVal` — and elsewhere what it held.
-/
import proofs.«407486_j41695542510269_2_alg».proof.Proof.KernelTrip
import proofs.«407486_j41695542510269_2_alg».proof.Proof.LibRowWindows
import proofs.«407486_j41695542510269_2_alg».proof.Proof.Spec
import Idealize.ShloMosaic.Lib.ValueIdx

set_option maxRecDepth 16384

noncomputable section

namespace Cert.Proof.KernelTripRead

open Cert.Kernel Cert.Kernel.Gen Cert.Proof.KernelTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table position read for row k, slot j at point (n, p) is inside the table of 32·64·8 words. -/
theorem wordPos_lt (i : grid0.Coords) (k : Fin 32) (j : Fin 8) :
    512 * (i 0).val + 256 * (i 1).val + 8 * k.val + j.val < 16384 := by
  have h0 : (i 0).val < 32 := (i 0).isLt
  have h1 : (i 1).val < 2 := (i 1).isLt
  omega

/-- The table position read for row k, slot j at point (n, p): 512 n + 256 p + 8 k + j. -/
def wordPos (i : grid0.Coords) (k : Fin 32) (j : Fin 8) : Fin 16384 :=
  ⟨512 * (i 0).val + 256 * (i 1).val + 8 * k.val + j.val, wordPos_lt i k j⟩

/-- What the point's block holds when the body ends, from the table's words `Tr` and the padded source `Xr`:
    at (0, k, j, w, c) the source at (n, row of the word at `wordPos` k j, w, c). -/
def blockVal (i : grid0.Coords) (Tr : S16384.Idx → Elt F .i32) (Xr : S32x128x56x256.Idx → Elt F .f32) :
    S1x32x8x56x256.Idx → Elt F .f32 :=
  fun y => Xr (ValueIdx.ix4 (⟨(i 0).val, (i 0).isLt⟩ : Fin 32)
    (Cert.Proof.Spec.rowOf (Tr (ValueIdx.ix1 (wordPos i (y 1 : Fin 32) (y 2 : Fin 8))))) (y 3 : Fin 56) (y 4 : Fin 256))

open Cert.Proof.LibRowWindows
open Idealize.ShloMosaic.ValueIdx (ix1 ix2 ix4)

/-- A trip's number is below 32. -/
theorem trip_lt (k : Fin k0_t1_loop.trips) : k.val < 32 := Nat.lt_of_lt_of_le k.isLt k0_t1_abs.2.1

/-- The loop's counter at trip k, read as a natural number, is k: it starts at 0, steps by 1, and 32 trips do not wrap. -/
theorem iv_toNat (k : Fin k0_t1_loop.trips) : (Scf.iv (0#32) (1#32) k.val).toNat = k.val := by
  have hk := trip_lt k
  show ((0#32 : BitVec 32) + BitVec.ofNat 32 k.val * 1#32).toNat = k.val
  simp only [BitVec.toNat_add, BitVec.toNat_mul, BitVec.toNat_ofNat]
  omega

/-- The batch coordinate as a 32-bit word reads back as itself. -/
theorem batch_toNat (i : grid0.Coords) : (BitVec.ofNat 32 (i 0).val).toNat = (i 0).val := by
  have h0 : (i 0).val < 32 := (i 0).isLt
  rw [BitVec.toNat_ofNat]
  exact Nat.mod_eq_of_lt (by omega)

/-- The 32-bit chain 512 n + 256 p + 8 k + j does not wrap for n < 32, p < 2, k < 32, j < 8: it reads as that number. -/
theorem chain_toNat (i : grid0.Coords) (k : Fin k0_t1_loop.trips) (j : Nat) (hj : j < 8) :
    (BitVec.ofNat 32 (i 0).val * 512#32 + BitVec.ofNat 32 (i 1).val * 256#32 + Scf.iv (0#32) (1#32) k.val * 8#32
        + BitVec.ofNat 32 j).toNat
      = 512 * (i 0).val + 256 * (i 1).val + 8 * k.val + j := by
  have h0 : (i 0).val < 32 := (i 0).isLt
  have h1 : (i 1).val < 2 := (i 1).isLt
  have hk := trip_lt k
  have hiv := iv_toNat k
  simp only [BitVec.toNat_add, BitVec.toNat_mul, BitVec.toNat_ofNat, hiv]
  omega

/-- Trip k as a row of the block's 32. -/
def rowOfTrip (k : Fin k0_t1_loop.trips) : Fin 32 := ⟨k.val, trip_lt k⟩

/-- The window of slot 0 at trip k sits at (0, k, 0, 0, 0). -/
theorem win0_off (k : Fin k0_t1_loop.trips) : k0_off2 k = ![0, (rowOfTrip k).val, 0, 0, 0] := by
  show ![0, (Scf.iv (0#32) (1#32) k.val).toNat, 0, 0, 0] = ![0, k.val, 0, 0, 0]
  rw [iv_toNat]

/-- The window of slot 1 at trip k sits at (0, k, 1, 0, 0). -/
theorem win1_off (k : Fin k0_t1_loop.trips) : k0_off5 k = ![0, (rowOfTrip k).val, 1, 0, 0] := by
  show ![0, (Scf.iv (0#32) (1#32) k.val).toNat, 1, 0, 0] = ![0, k.val, 1, 0, 0]
  rw [iv_toNat]

/-- The window of slot 2 at trip k sits at (0, k, 2, 0, 0). -/
theorem win2_off (k : Fin k0_t1_loop.trips) : k0_off8 k = ![0, (rowOfTrip k).val, 2, 0, 0] := by
  show ![0, (Scf.iv (0#32) (1#32) k.val).toNat, 2, 0, 0] = ![0, k.val, 2, 0, 0]
  rw [iv_toNat]

/-- The window of slot 3 at trip k sits at (0, k, 3, 0, 0). -/
theorem win3_off (k : Fin k0_t1_loop.trips) : k0_off11 k = ![0, (rowOfTrip k).val, 3, 0, 0] := by
  show ![0, (Scf.iv (0#32) (1#32) k.val).toNat, 3, 0, 0] = ![0, k.val, 3, 0, 0]
  rw [iv_toNat]

/-- The window of slot 4 at trip k sits at (0, k, 4, 0, 0). -/
theorem win4_off (k : Fin k0_t1_loop.trips) : k0_off14 k = ![0, (rowOfTrip k).val, 4, 0, 0] := by
  show ![0, (Scf.iv (0#32) (1#32) k.val).toNat, 4, 0, 0] = ![0, k.val, 4, 0, 0]
  rw [iv_toNat]

/-- The window of slot 5 at trip k sits at (0, k, 5, 0, 0). -/
theorem win5_off (k : Fin k0_t1_loop.trips) : k0_off17 k = ![0, (rowOfTrip k).val, 5, 0, 0] := by
  show ![0, (Scf.iv (0#32) (1#32) k.val).toNat, 5, 0, 0] = ![0, k.val, 5, 0, 0]
  rw [iv_toNat]

/-- The window of slot 6 at trip k sits at (0, k, 6, 0, 0). -/
theorem win6_off (k : Fin k0_t1_loop.trips) : k0_off20 k = ![0, (rowOfTrip k).val, 6, 0, 0] := by
  show ![0, (Scf.iv (0#32) (1#32) k.val).toNat, 6, 0, 0] = ![0, k.val, 6, 0, 0]
  rw [iv_toNat]

/-- The window of slot 7 at trip k sits at (0, k, 7, 0, 0). -/
theorem win7_off (k : Fin k0_t1_loop.trips) : k0_off23 k = ![0, (rowOfTrip k).val, 7, 0, 0] := by
  show ![0, (Scf.iv (0#32) (1#32) k.val).toNat, 7, 0, 0] = ![0, k.val, 7, 0, 0]
  rw [iv_toNat]

/-- The word read for slot 0 at trip k sits at position 512 n + 256 p + 8 k + 0 of the table. -/
theorem word0_off (i : grid0.Coords) (k : Fin k0_t1_loop.trips) : k0_off1 i k 0 = (wordPos i (rowOfTrip k) 0).val :=
  chain_toNat i k 0 (by omega)

/-- The word read for slot 1 at trip k sits at position 512 n + 256 p + 8 k + 1 of the table. -/
theorem word1_off (i : grid0.Coords) (k : Fin k0_t1_loop.trips) : k0_off4 i k 0 = (wordPos i (rowOfTrip k) 1).val :=
  chain_toNat i k 1 (by omega)

/-- The word read for slot 2 at trip k sits at position 512 n + 256 p + 8 k + 2 of the table. -/
theorem word2_off (i : grid0.Coords) (k : Fin k0_t1_loop.trips) : k0_off7 i k 0 = (wordPos i (rowOfTrip k) 2).val :=
  chain_toNat i k 2 (by omega)

/-- The word read for slot 3 at trip k sits at position 512 n + 256 p + 8 k + 3 of the table. -/
theorem word3_off (i : grid0.Coords) (k : Fin k0_t1_loop.trips) : k0_off10 i k 0 = (wordPos i (rowOfTrip k) 3).val :=
  chain_toNat i k 3 (by omega)

/-- The word read for slot 4 at trip k sits at position 512 n + 256 p + 8 k + 4 of the table. -/
theorem word4_off (i : grid0.Coords) (k : Fin k0_t1_loop.trips) : k0_off13 i k 0 = (wordPos i (rowOfTrip k) 4).val :=
  chain_toNat i k 4 (by omega)

/-- The word read for slot 5 at trip k sits at position 512 n + 256 p + 8 k + 5 of the table. -/
theorem word5_off (i : grid0.Coords) (k : Fin k0_t1_loop.trips) : k0_off16 i k 0 = (wordPos i (rowOfTrip k) 5).val :=
  chain_toNat i k 5 (by omega)

/-- The word read for slot 6 at trip k sits at position 512 n + 256 p + 8 k + 6 of the table. -/
theorem word6_off (i : grid0.Coords) (k : Fin k0_t1_loop.trips) : k0_off19 i k 0 = (wordPos i (rowOfTrip k) 6).val :=
  chain_toNat i k 6 (by omega)

/-- The word read for slot 7 at trip k sits at position 512 n + 256 p + 8 k + 7 of the table. -/
theorem word7_off (i : grid0.Coords) (k : Fin k0_t1_loop.trips) : k0_off22 i k 0 = (wordPos i (rowOfTrip k) 7).val :=
  chain_toNat i k 7 (by omega)

/-- The source tile of slot 0 named by the word w sits at (n, w, 0, 0). -/
theorem src0_off (i : grid0.Coords) (w : BitVec 32) : k0_off3 i w = ![(i 0).val, w.toNat, 0, 0] := by
  show ![(BitVec.ofNat 32 (i 0).val).toNat, w.toNat, 0, 0] = ![(i 0).val, w.toNat, 0, 0]
  rw [batch_toNat]

/-- The source tile of slot 1 named by the word w sits at (n, w, 0, 0). -/
theorem src1_off (i : grid0.Coords) (w : BitVec 32) : k0_off6 i w = ![(i 0).val, w.toNat, 0, 0] := by
  show ![(BitVec.ofNat 32 (i 0).val).toNat, w.toNat, 0, 0] = ![(i 0).val, w.toNat, 0, 0]
  rw [batch_toNat]

/-- The source tile of slot 2 named by the word w sits at (n, w, 0, 0). -/
theorem src2_off (i : grid0.Coords) (w : BitVec 32) : k0_off9 i w = ![(i 0).val, w.toNat, 0, 0] := by
  show ![(BitVec.ofNat 32 (i 0).val).toNat, w.toNat, 0, 0] = ![(i 0).val, w.toNat, 0, 0]
  rw [batch_toNat]

/-- The source tile of slot 3 named by the word w sits at (n, w, 0, 0). -/
theorem src3_off (i : grid0.Coords) (w : BitVec 32) : k0_off12 i w = ![(i 0).val, w.toNat, 0, 0] := by
  show ![(BitVec.ofNat 32 (i 0).val).toNat, w.toNat, 0, 0] = ![(i 0).val, w.toNat, 0, 0]
  rw [batch_toNat]

/-- The source tile of slot 4 named by the word w sits at (n, w, 0, 0). -/
theorem src4_off (i : grid0.Coords) (w : BitVec 32) : k0_off15 i w = ![(i 0).val, w.toNat, 0, 0] := by
  show ![(BitVec.ofNat 32 (i 0).val).toNat, w.toNat, 0, 0] = ![(i 0).val, w.toNat, 0, 0]
  rw [batch_toNat]

/-- The source tile of slot 5 named by the word w sits at (n, w, 0, 0). -/
theorem src5_off (i : grid0.Coords) (w : BitVec 32) : k0_off18 i w = ![(i 0).val, w.toNat, 0, 0] := by
  show ![(BitVec.ofNat 32 (i 0).val).toNat, w.toNat, 0, 0] = ![(i 0).val, w.toNat, 0, 0]
  rw [batch_toNat]

/-- The source tile of slot 6 named by the word w sits at (n, w, 0, 0). -/
theorem src6_off (i : grid0.Coords) (w : BitVec 32) : k0_off21 i w = ![(i 0).val, w.toNat, 0, 0] := by
  show ![(BitVec.ofNat 32 (i 0).val).toNat, w.toNat, 0, 0] = ![(i 0).val, w.toNat, 0, 0]
  rw [batch_toNat]

/-- The source tile of slot 7 named by the word w sits at (n, w, 0, 0). -/
theorem src7_off (i : grid0.Coords) (w : BitVec 32) : k0_off24 i w = ![(i 0).val, w.toNat, 0, 0] := by
  show ![(BitVec.ofNat 32 (i 0).val).toNat, w.toNat, 0, 0] = ![(i 0).val, w.toNat, 0, 0]
  rw [batch_toNat]

/-- ONE SLOT'S TILE. The tile delivered for a slot is read from the source through the window at (n, w), w the word the
    table holds at the slot's position; when every word of the table is below 128, w names row w of the 128, so the tile
    holds, at (a, b), the source at (n, row of the table's word at that position, a, b). -/
theorem slot_tile (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128)
    (r : Fin 32) (j : Fin 8)
    (offA : Fin 1 → Nat) (hA : offA 0 = (wordPos i r j).val) (inbA : ∀ a, offA a + S1.size a ≤ S16384.size a)
    (h1 : 0 < (Rect.unit (s := S16384) offA S1.size inbA).shape.numel)
    (offB : BitVec 32 → Fin 4 → Nat) (hB : ∀ w, offB w = ![(i 0).val, w.toNat, 0, 0])
    (inbB : ∀ a, offB (View.readAt (Elt F) arg2.view (Rect.unit (s := S16384) offA S1.size inbA).toLoadRect T (Shape.Idx.first h1)) a
      + S1x1x56x256.size a ≤ S32x128x56x256.size a)
    (hs : ∀ a, (Rect.unit (s := S32x128x56x256)
      (offB (View.readAt (Elt F) arg2.view (Rect.unit (s := S16384) offA S1.size inbA).toLoadRect T (Shape.Idx.first h1)))
      S1x1x56x256.size inbB).stride a = 1)
    (sq : S1x1x56x256.Squeezes S56x256) (t : S56x256.Idx) :
    ReadAs.same.apply (View.read (Elt F) ((arg3.slice (Rect.unit (s := S32x128x56x256)
        (offB (View.readAt (Elt F) arg2.view (Rect.unit (s := S16384) offA S1.size inbA).toLoadRect T (Shape.Idx.first h1)))
        S1x1x56x256.size inbB) hs).squeeze S56x256 sq).view X) t
      = arg3.view.read (Elt F) X (ix4 (⟨(i 0).val, (i 0).isLt⟩ : Fin 32)
          (Cert.Proof.Spec.rowOf (arg2.view.read (Elt F) T (ix1 (wordPos i r j)))) (t 0) (t 1)) := by
  rw [ReadAs.apply_same]
  have hw := read_word arg2 (wordPos i r j) offA hA inbA T h1
  rw [read_source_tile arg3 ⟨(i 0).val, (i 0).isLt⟩
    (Cert.Proof.Spec.rowOf (View.readAt (Elt F) arg2.view (Rect.unit (s := S16384) offA S1.size inbA).toLoadRect T (Shape.Idx.first h1)))
    _ (by rw [hB, Cert.Proof.Spec.rowOf_val _ (hT _ _)]) inbB hs sq X t, hw]
/-- The tile delivered to slot 0 at trip k holds, at (a, b), the source at (n, row of the table's word at the slot's position, a, b). -/
theorem tile0_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma1 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 0)))) (t 0) (t 1)) := by
  unfold tripRun.sl.dma1 tripRun.sl.r
  exact slot_tile i arg2 arg3 T X hT (rowOfTrip k) 0 (k0_off1 i k) (word0_off i k) _ _ (k0_off3 i) (src0_off i) _ _ _ t

/-- The tile delivered to slot 1 at trip k holds, at (a, b), the source at (n, row of the table's word at the slot's position, a, b). -/
theorem tile1_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma2 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 1)))) (t 0) (t 1)) := by
  unfold tripRun.sl.dma2 tripRun.sl.r_1
  exact slot_tile i arg2 arg3 T X hT (rowOfTrip k) 1 (k0_off4 i k) (word1_off i k) _ _ (k0_off6 i) (src1_off i) _ _ _ t

/-- The tile delivered to slot 2 at trip k holds, at (a, b), the source at (n, row of the table's word at the slot's position, a, b). -/
theorem tile2_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma3 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 2)))) (t 0) (t 1)) := by
  unfold tripRun.sl.dma3 tripRun.sl.r_2
  exact slot_tile i arg2 arg3 T X hT (rowOfTrip k) 2 (k0_off7 i k) (word2_off i k) _ _ (k0_off9 i) (src2_off i) _ _ _ t

/-- The tile delivered to slot 3 at trip k holds, at (a, b), the source at (n, row of the table's word at the slot's position, a, b). -/
theorem tile3_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma4 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 3)))) (t 0) (t 1)) := by
  unfold tripRun.sl.dma4 tripRun.sl.r_3
  exact slot_tile i arg2 arg3 T X hT (rowOfTrip k) 3 (k0_off10 i k) (word3_off i k) _ _ (k0_off12 i) (src3_off i) _ _ _ t

/-- The tile delivered to slot 4 at trip k holds, at (a, b), the source at (n, row of the table's word at the slot's position, a, b). -/
theorem tile4_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma5 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 4)))) (t 0) (t 1)) := by
  unfold tripRun.sl.dma5 tripRun.sl.r_4
  exact slot_tile i arg2 arg3 T X hT (rowOfTrip k) 4 (k0_off13 i k) (word4_off i k) _ _ (k0_off15 i) (src4_off i) _ _ _ t

/-- The tile delivered to slot 5 at trip k holds, at (a, b), the source at (n, row of the table's word at the slot's position, a, b). -/
theorem tile5_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma6 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 5)))) (t 0) (t 1)) := by
  unfold tripRun.sl.dma6 tripRun.sl.r_5
  exact slot_tile i arg2 arg3 T X hT (rowOfTrip k) 5 (k0_off16 i k) (word5_off i k) _ _ (k0_off18 i) (src5_off i) _ _ _ t

/-- The tile delivered to slot 6 at trip k holds, at (a, b), the source at (n, row of the table's word at the slot's position, a, b). -/
theorem tile6_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma7 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 6)))) (t 0) (t 1)) := by
  unfold tripRun.sl.dma7 tripRun.sl.r_6
  exact slot_tile i arg2 arg3 T X hT (rowOfTrip k) 6 (k0_off19 i k) (word6_off i k) _ _ (k0_off21 i) (src6_off i) _ _ _ t

/-- The tile delivered to slot 7 at trip k holds, at (a, b), the source at (n, row of the table's word at the slot's position, a, b). -/
theorem tile7_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma8 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 7)))) (t 0) (t 1)) := by
  unfold tripRun.sl.dma8 tripRun.sl.r_7
  exact slot_tile i arg2 arg3 T X hT (rowOfTrip k) 7 (k0_off22 i k) (word7_off i k) _ _ (k0_off24 i) (src7_off i) _ _ _ t

/-- A trip writes row k and nothing else: after it the block reads `blockVal` in row k and what it held elsewhere. -/
theorem tripRun_read (𝒱 : Variants) (c : Dev nD) (bd : Option 𝒱.V) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (v2 : BitVec 32) (q : PosShare TreeShare)
    (T : BufTy.Contents (Elt F) arg2.view.ty) (X : BufTy.Contents (Elt F) arg3.view.ty)
    (hT : ∀ r idx, (View.readAt (Elt F) arg2.view r T idx).toNat < 128)
    (k : Fin k0_t1_loop.trips) (f : Buf (Elt F) (arg4.view.loc (c : Thread nD τ))) (y : S1x32x8x56x256.Idx) :
    arg4.view.read (Elt F) ((tripRun (F := F) 𝒱 c bd i arg2 harg2 arg3 harg3 arg4 harg4 arg5 v2 q T X hT k).1 f) y
      = if (y 1).val = k.val then blockVal (F := F) i (arg2.view.read (Elt F) T) (arg3.view.read (Elt F) X) y
        else arg4.view.read (Elt F) f y := by
  unfold tripRun
  dsimp only
  unfold tripRun.sl.HO4_w7 tripRun.sl.HO4_w6 tripRun.sl.HO4_w5 tripRun.sl.HO4_w4 tripRun.sl.HO4_w3 tripRun.sl.HO4_w2 tripRun.sl.HO4_w1 tripRun.sl.HO4_w0
  -- the eight writes read past, by the row lemma at row k
  refine (read_write_row arg4 (rowOfTrip k)
    (k0_off2 k) (win0_off k) (k0_off2_inb k) (fun _ => rfl) squeezes_S1x1x1x56x256_S56x256
    (k0_off5 k) (win1_off k) (k0_off5_inb k) (fun _ => rfl) squeezes_S1x1x1x56x256_S56x256
    (k0_off8 k) (win2_off k) (k0_off8_inb k) (fun _ => rfl) squeezes_S1x1x1x56x256_S56x256
    (k0_off11 k) (win3_off k) (k0_off11_inb k) (fun _ => rfl) squeezes_S1x1x1x56x256_S56x256
    (k0_off14 k) (win4_off k) (k0_off14_inb k) (fun _ => rfl) squeezes_S1x1x1x56x256_S56x256
    (k0_off17 k) (win5_off k) (k0_off17_inb k) (fun _ => rfl) squeezes_S1x1x1x56x256_S56x256
    (k0_off20 k) (win6_off k) (k0_off20_inb k) (fun _ => rfl) squeezes_S1x1x1x56x256_S56x256
    (k0_off23 k) (win7_off k) (k0_off23_inb k) (fun _ => rfl) squeezes_S1x1x1x56x256_S56x256
    f
    ![tripRun.sl.dma1 (F := F) i arg2 arg3 T X hT k,
      tripRun.sl.dma2 (F := F) i arg2 arg3 T X hT k,
      tripRun.sl.dma3 (F := F) i arg2 arg3 T X hT k,
      tripRun.sl.dma4 (F := F) i arg2 arg3 T X hT k,
      tripRun.sl.dma5 (F := F) i arg2 arg3 T X hT k,
      tripRun.sl.dma6 (F := F) i arg2 arg3 T X hT k,
      tripRun.sl.dma7 (F := F) i arg2 arg3 T X hT k,
      tripRun.sl.dma8 (F := F) i arg2 arg3 T X hT k]
    y).trans ?_
  show (if (y 1).val = k.val then _ else _) = _
  split
  · next hrow =>
    -- in row k: the tile of y's own slot, read at (y 3, y 4)
    have hy1 : (y 1 : Fin 32) = rowOfTrip k := Fin.ext hrow
    have key : ∀ (j : Fin 8) (t : S56x256.Idx),
        (![tripRun.sl.dma1 (F := F) i arg2 arg3 T X hT k,
          tripRun.sl.dma2 (F := F) i arg2 arg3 T X hT k,
          tripRun.sl.dma3 (F := F) i arg2 arg3 T X hT k,
          tripRun.sl.dma4 (F := F) i arg2 arg3 T X hT k,
          tripRun.sl.dma5 (F := F) i arg2 arg3 T X hT k,
          tripRun.sl.dma6 (F := F) i arg2 arg3 T X hT k,
          tripRun.sl.dma7 (F := F) i arg2 arg3 T X hT k,
          tripRun.sl.dma8 (F := F) i arg2 arg3 T X hT k] : Fin 8 → S56x256.Idx → Elt F .f32) j t
        = arg3.view.read (Elt F) X (ix4 (⟨(i 0).val, (i 0).isLt⟩ : Fin 32)
            (Cert.Proof.Spec.rowOf (arg2.view.read (Elt F) T (ix1 (wordPos i (rowOfTrip k) j)))) (t 0) (t 1)) := by
      intro j t
      match j with
      | ⟨0, _⟩ => exact tile0_eq i arg2 arg3 T X hT k t
      | ⟨1, _⟩ => exact tile1_eq i arg2 arg3 T X hT k t
      | ⟨2, _⟩ => exact tile2_eq i arg2 arg3 T X hT k t
      | ⟨3, _⟩ => exact tile3_eq i arg2 arg3 T X hT k t
      | ⟨4, _⟩ => exact tile4_eq i arg2 arg3 T X hT k t
      | ⟨5, _⟩ => exact tile5_eq i arg2 arg3 T X hT k t
      | ⟨6, _⟩ => exact tile6_eq i arg2 arg3 T X hT k t
      | ⟨7, _⟩ => exact tile7_eq i arg2 arg3 T X hT k t
    refine (key (y 2) (ix2 (y 3) (y 4))).trans ?_
    show _ = arg3.view.read (Elt F) X (ix4 (⟨(i 0).val, (i 0).isLt⟩ : Fin 32)
      (Cert.Proof.Spec.rowOf (arg2.view.read (Elt F) T (ix1 (wordPos i (y 1 : Fin 32) (y 2 : Fin 8))))) (y 3 : Fin 56) (y 4 : Fin 256))
    rw [hy1]
  · rfl

end Cert.Proof.KernelTripRead

end
-- ==== Proof.KernelBody.lean ====
/-
  The gather's body at one grid point.

  At point (n, p) the body's loop runs 32 trips; trip k fills row k of the output block [1, 32, 8, 56, 256]: slot j of
  the row receives the tile of the padded source at (n, word), the word being the table's entry at position
  512 n + 256 p + 8 k + j. So when the loop ends the block holds, at (0, k, j, w, c), the source at
  (n, row of that word, w, c): `blockVal`.

  The loop's invariant before trip k: the table, the source, the cells and the waits as they were, and the block at
  SOME contents whose rows below k are already `blockVal`'s (`RowsDone`). A trip writes row k only (`tripRun_read`),
  so it keeps the rows below k and finishes row k.
-/
import proofs.«407486_j41695542510269_2_alg».proof.Proof.KernelTripRead
import proofs.«407486_j41695542510269_2_alg».proof.Proof.Spec
import Idealize.ShloMosaic.Lib.ValueIdx

set_option maxRecDepth 16384

noncomputable section

namespace Cert.Proof.KernelBody

open Cert.Kernel Cert.Kernel.Gen Cert.Proof.KernelTrip Cert.Proof.KernelTripRead
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows below `k` of the block's contents `g` are final. -/
def RowsDone (i : grid0.Coords)
    (arg2 : Memref sig .tc .smem S16384 .i32) (arg3 : Memref sig .tc .hbm S32x128x56x256 .f32)
    (arg4 : Memref sig .tc .vmem S1x32x8x56x256 .f32)
    (T : BufTy.Contents (Elt F) arg2.view.ty) (X : BufTy.Contents (Elt F) arg3.view.ty)
    (k : ℕ) (g : BufTy.Contents (Elt F) arg4.view.ty) : Prop :=
  ∀ y : S1x32x8x56x256.Idx, (y 1).val < k →
    arg4.view.read (Elt F) g y = blockVal (F := F) i (arg2.view.read (Elt F) T) (arg3.view.read (Elt F) X) y

/-- The source whole is its remainder and eight read shares, and back. -/
theorem srcShares_iff (c : Dev nD) (arg3 : Memref sig .tc .hbm S32x128x56x256 .f32) (X : BufTy.Contents (Elt F) arg3.view.ty) :
    (arg3.view.loc (c : Thread nD τ) ↦{fullShare} X : sProp 𝕄) ⊣⊢ srcShares (F := F) c arg3 X := by
  refine (Transfers.pointsTo_toks (Ix := Unit) (Name := ℕ) (U := Pipeline.UD sig nD τ) (Lvl := ℕ) fullShare 8).trans ?_
  exact BiEntails.of_eq (by
    rw [bigSep_univ_eq_bigSepL [(0 : Fin 8), 1, 2, 3, 4, 5, 6, 7] (by decide) (by decide)]; rfl)

/-- The loop's invariant before trip `k`. -/
def inv (c : Dev nD) (i : grid0.Coords)
    (arg2 : Memref sig .tc .smem S16384 .i32) (arg3 : Memref sig .tc .hbm S32x128x56x256 .f32)
    (arg4 : Memref sig .tc .vmem S1x32x8x56x256 .f32) (arg5 : DmaSems sig S8) (q : PosShare TreeShare)
    (T : BufTy.Contents (Elt F) arg2.view.ty) (X : BufTy.Contents (Elt F) arg3.view.ty) (k : ℕ) (_ : Unit) : sProp 𝕄 :=
  iprop((arg2.view.loc (c : Thread nD τ) ↦{q} T) ∗ (arg3.view.loc (c : Thread nD τ) ↦{fullShare} X)
    ∗ (∃ g, (arg4.view.loc (c : Thread nD τ) ↦[arg4.view.set]{fullShare} g) ∗ ⌜RowsDone (F := F) i arg2 arg3 arg4 T X k g⌝)
    ∗ cells (F := F) c arg5 ∗ ∃ W', owes (c : Thread nD τ) 0 W')

set_option maxHeartbeats 2000000 in
/-- THE BODY at point `i`: from the table at `T` (any share) with every word below 128, the source whole at `X`, the
    block at any contents, the eight cells at zero and the core's waits, the kernel function runs to the same resources
    with the block owned at `blockVal`. -/
theorem kernel_run (c : Dev nD) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (q : PosShare TreeShare)
    (T : BufTy.Contents (Elt F) arg2.view.ty) (X : BufTy.Contents (Elt F) arg3.view.ty)
    (hT : ∀ r idx, (View.readAt (Elt F) arg2.view r T idx).toNat < 128) (W : Waits sig Unit) :
    iprop((arg2.view.loc (c : Thread nD τ) ↦{q} T) ∗ (arg3.view.loc (c : Thread nD τ) ↦{fullShare} X)
        ∗ (∃ f, arg4.view.loc (c : Thread nD τ) ↦[arg4.view.set]{fullShare} f) ∗ cells (F := F) c arg5 ∗ owes (c : Thread nD τ) 0 W)
      ⊢ (wp frame (wpE (defs₀ (F := F)) Variants.none (c : Thread nD τ) none) Set.univ
          (cc0_kernel (F := F) i arg2 harg2 arg3 harg3 arg4 harg4 arg5)
          (fun _ => iprop((arg2.view.loc (c : Thread nD τ) ↦{q} T) ∗ (arg3.view.loc (c : Thread nD τ) ↦{fullShare} X)
            ∗ owns (c : Thread nD τ) arg4 fullShare (blockVal (F := F) i (arg2.view.read (Elt F) T) (arg3.view.read (Elt F) X))
            ∗ cells (F := F) c arg5 ∗ ∃ W', owes (c : Thread nD τ) 0 W')) : sProp 𝕄) := by
  simp only [cc0_kernel_eq_skeleton]; unfold cc0_kernel_skel
  iintro ⟨HT, HX, ⟨%f0, HO4⟩, HC, HW⟩
  sl_exec
  sl_for (inv (F := F) c i arg2 arg3 arg4 arg5 q T X) $$ [HT HX HO4 HC HW]
  · -- one trip keeps the invariant
    intro k acc
    unfold inv
    iintro ⟨HT, HX, ⟨%g, HO4, %hg⟩, HC, ⟨%W', HW⟩⟩
    ihave HXs := (srcShares_iff (F := F) c arg3 X).1 $$ HX
    iapply (wp_wand_r Idealize.ShloMosaic.frame (wpE (defs₀ (F := F)) Variants.none (c : Thread nD τ) none) Set.univ)
    isplitl [HT HXs HO4 HC HW]
    · iapply ((tripRun (F := F) Variants.none c none i arg2 harg2 arg3 harg3 arg4 harg4 arg5 _ q T X hT k).2 g W')
      isplitl [HT]; · iexact HT
      isplitl [HXs]; · iexact HXs
      isplitl [HO4]; · iexact HO4
      isplitl [HC]; · iexact HC
      iexact HW
    · iintro %u ⟨HT, HXs, HO4, HC, HW⟩
      ihave HX := (srcShares_iff (F := F) c arg3 X).2 $$ HXs
      isplitl [HT]; · iexact HT
      isplitl [HX]; · iexact HX
      isplitl [HO4]
      · iexists _
        isplitl [HO4]; · iexact HO4
        ipureintro
        intro y hy
        rw [tripRun_read]
        by_cases hk : (y 1).val = k.val
        · rw [if_pos hk]
        · rw [if_neg hk]; exact hg y (by omega)
      isplitl [HC]; · iexact HC
      iexact HW
  · -- before the first trip no row is asked for
    unfold inv
    isplitl [HT]; · iexact HT
    isplitl [HX]; · iexact HX
    isplitl [HO4]
    · iexists f0
      isplitl [HO4]; · iexact HO4
      ipureintro; intro y hy; exact absurd hy (Nat.not_lt_zero _)
    isplitl [HC]; · iexact HC
    iexists W; iexact HW
  · -- after the last trip every row is final
    unfold inv
    iintro %acc ⟨HT, HX, ⟨%g, HO4, %hg⟩, HC, HW⟩
    sl_exec
    sl_step
    isplitl [HT]; · iexact HT
    isplitl [HX]; · iexact HX
    isplitl [HO4]
    · unfold owns
      iexists g
      isplitr
      · ipureintro; funext y; exact hg y (y 1).isLt
      · iexact HO4
    isplitl [HC]; · iexact HC
    iexact HW

end Cert.Proof.KernelBody

end
-- ==== Proof.KernelData.lean ====
/-
  The gather as a launch: the contents the region is entered at, the table, and the proof data of its one pipeline.

  @main is three stretches of host operations (kv reshaped to [32, 128, 49, 256] and padded with seven zero rows to
  [32, 128, 56, 256]; idx flattened to the table of 16384 words, kept in scalar memory), the region, and one host
  operation after it (the result [32, 64, 8, 56, 256] cut back to 49 rows). The region's grid is 32 × 2; its one window is
  the result, in blocks [1, 32, 8, 56, 256] at (n, p, 0, 0, 0). The padded source stays in main memory and the body
  copies tiles out of it itself, on eight semaphores of its own.

  After the body at point t the window's buffer holds `blockVal` of the point (Proof/KernelBody.lean): that is the
  proof data's `after`. The region's invariant is the library's for a body with copies of its own (the scoped rest, the
  generator register, the eight cells at zero, the padded source whole at its entry contents) beside the table's half.
-/
import proofs.«407486_j41695542510269_2_alg».proof.Proof.KernelBody
import proofs.«407486_j41695542510269_2_alg».proof.Proof.Gen.Kernel.Launch
import Idealize.ShloMosaic.Lib.Pipeline.FrameSuffix
import Idealize.ShloMosaic.Lib.Pipeline.FrameBody

set_option maxRecDepth 16384

noncomputable section

namespace Cert.Proof.KernelData

open Cert.Kernel Cert.Kernel.Gen Cert.Proof.KernelTrip Cert.Proof.KernelTripRead Cert.Proof.KernelBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the launch memory after the three stretches of host
    operations before the call. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the one line after it, at the contents after the lines before it. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents as admissible contents (the window's index map reads no table: nothing is asked of them). -/
abbrev adm : (pcfg0 (F := F)).Adm := ⟨tbl m, trivial⟩
/-- The pipeline at them. -/
abbrev cfgM : Pipeline.Cfg sig Λ₀ := cfg0 (adm m)

/-- The table and the padded source as the body is handed them. -/
abbrev tbM : Memref sig .tc .smem S16384 .i32 := Memref.whole main_v2
abbrev srcM : Memref sig .tc .hbm S32x128x56x256 .f32 := Memref.whole main_v1

/-- The table's half the region hands the body. -/
theorem PhiT_eq (c : Dev nD) :
    (Pipeline.ΦT pre0 (tbl m) c : sProp 𝕄) = iprop(tbM.view.loc (c : Thread nD τ) ↦{fullShare.right} (tbl m 0)) := by
  unfold Pipeline.ΦT Pipeline.prefHeld
  rw [show (Finset.univ : Finset (Fin 1)) = {(0 : Fin 1)} from by decide, bigSep_singleton]
  rfl

/-! ## The body's own semaphores and the operand it copies from -/

/-- The eight cells of the kernel's semaphore array (numbers 2 to 9 of the pool; 0 and 1 are the window's). -/
abbrev osem : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
/-- The padded source: unscoped, no window's array, no table. -/
def H0 : Finset (Ref sig .tc) := {main_v1}
theorem H0_sub : H0 ⊆ Pipeline.restRefsP sig pre0 spec0 := by decide

theorem ownSems_eq (c : Dev nD) :
    (Pipeline.ownSems0 (Ix := Unit) (Name := ℕ) (U := Pipeline.UD sig nD τ) (Lvl := ℕ) (Val := Elt F) (τ := τ) osem c : sProp 𝕄)
      = cells (F := F) c cc0_scratch0 := by
  rw [Pipeline.ownSems0_eq_of_list c osem [0, 1, 2, 3, 4, 5, 6, 7] (by decide) (by decide)]; rfl

theorem hbmPts_eq (c : Dev nD) :
    (bigSep H0 (fun b => ((c : Thread nD τ).loc b) ↦{fullShare} V m c b) : sProp 𝕄)
      = iprop(srcM.view.loc (c : Thread nD τ) ↦{fullShare} V m c main_v1) := by
  rw [BI.bigSep_eq_bigSepL_of_eq [main_v1] (by decide) (by decide)]; rfl

/-- The region's invariant, conjunct by conjunct. -/
theorem PhiD_eq (c : Dev nD) :
    (Pipeline.ΦD osem spec0 H0 (V m) c : sProp 𝕄)
      = iprop((BI.emp : sProp 𝕄) ∗ (∃ r, prngReg c r) ∗ cells (F := F) c cc0_scratch0
          ∗ (srcM.view.loc (c : Thread nD τ) ↦{fullShare} V m c main_v1)) := by
  rw [Pipeline.ΦD_eq, scopedRest0_eq, ownSems_eq, hbmPts_eq]

/-! ## The proof data -/

/-- What the window's buffer holds after the body at point `t`. -/
def outBlock (c : Dev nD) (t : Fin (cfgM m).N) : S1x32x8x56x256.Idx → Elt F .f32 :=
  blockVal (F := F) (grid0.coords t) (tbM.view.read (Elt F) (tbl m 0)) (srcM.view.read (Elt F) (V m c main_v1))

/-- The proof data of the one pipeline on core `c`. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlock m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_eq (c : Dev nD) (t : Fin (cfgM m).N) : (dats m 0 c).after 0 t = outBlock m c t := by dsimp only [dats]; rfl

end Cert.Proof.KernelData

end
-- ==== Proof.KernelLaunch.lean ====
/-
  The gather's launch: the body obligation at every grid point, what the one host line after the region may touch, and
  the run of @main.

  At each point the region hands the body its invariant — the eight cells at zero, the padded source whole, the table's
  half — and the window's current buffer at any contents; the body (Proof/KernelBody.lean) returns them with the
  buffer at `outBlock`. The line after the region (the cut back to 49 rows) reads the result and writes a buffer of its
  own: it touches neither the table nor the padded source, which the region's invariant holds. The run then ends with
  the result array at what the library assembles from the blocks, and every other buffer at the line's result over the
  region-entry contents.
-/
import proofs.«407486_j41695542510269_2_alg».proof.Proof.KernelData

set_option maxRecDepth 16384

noncomputable section

namespace Cert.Proof.KernelLaunch

open Cert.Kernel Cert.Kernel.Gen Cert.Proof.KernelTrip Cert.Proof.KernelTripRead Cert.Proof.KernelBody Cert.Proof.KernelData
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of the table names a row of the padded source. -/
abbrev WordsInRange : Prop := ∀ r idx, (View.readAt (Elt F) (tbM).view r (tbl m 0) idx).toNat < 128

/-! ## The body obligation -/

/-- The window's current buffer at point `t`, as the pipeline passes it to the body. -/
abbrev stageAt (t : Fin (cfgM m).N) : Memref sig .tc .vmem S1x32x8x56x256 .f32 := spec0_0.stage ((cfgM m).slots t 0)
abbrev stageAt_whole (t : Fin (cfgM m).N) : (stageAt m t).IsWhole := hstage0_0 (((cfgM m).slots t 0).cast nbuf0_0)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (stageAt m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (stageAt m t) fullShare ((dats m 0 c).after 0 t))

set_option maxHeartbeats 1000000 in
/-- The body at any point, from the region's invariant. -/
theorem sound_body (hW : WordsInRange (F := F) m) (c : Dev nD) (t : Fin (cfgM m).N) :
    bodyPre m c t ⊢ wp frame (wpE (defs₀ (F := F)) Variants.none c none) Set.univ
      (cc0_kernel (F := F) (grid0.coords t) tbM (Memref.isWhole_whole _) srcM (Memref.isWhole_whole _) (stageAt m t) (stageAt_whole m t) cc0_scratch0)
      (fun _ => bodyPost m c t) := by
  unfold bodyPre bodyPost
  rw [show (dats m 0 c).Φ t.succ = (dats m 0 c).Φ t.castSucc from rfl, after_eq]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold owns
  iintro ⟨⟨⟨Hemp, Hg, HC, HX⟩, HT⟩, ⟨%W, -, HW⟩, ⟨%d0, %f0, -, H0⟩⟩
  iapply (wp_wand_r Idealize.ShloMosaic.frame (wpE (defs₀ (F := F)) Variants.none (c : Thread nD τ) none) Set.univ)
  isplitl [HT HX H0 HC HW]
  · iapply (kernel_run (F := F) c (grid0.coords t) tbM (Memref.isWhole_whole _) srcM (Memref.isWhole_whole _) (stageAt m t) (stageAt_whole m t)
      cc0_scratch0 fullShare.right (tbl m 0) (V m c main_v1) hW W)
    isplitl [HT]; · iexact HT
    isplitl [HX]; · iexact HX
    isplitl [H0]; · iexists f0; iexact H0
    isplitl [HC]; · iexact HC
    iexact HW
  · iintro %u ⟨HT, HX, HO, HC, ⟨%W', HW'⟩⟩
    isplitl [Hemp Hg HC HX HT]
    · isplitl [Hemp Hg HC HX]
      · isplitl [Hemp]; · iexact Hemp
        isplitl [Hg]; · iexact Hg
        isplitl [HC]; · iexact HC
        iexact HX
      iexact HT
    isplitl [HW']
    · iexists W'; isplitr; · ipureintro; exact fun _ _ => Or.inl trivial
      iexact HW'
    unfold outBlock owns
    iexact HO

/-- The library's body obligation, at every point. -/
theorem body_obligation (hW : WordsInRange (F := F) m) (c : Dev nD) :
    BodyObligation (dats (F := F) m 0 c) (defs₀ (F := F)) Variants.none () Set.univ := fun t => by
  rw [bigSep_W0, bigSep_W0]
  exact sound_body m hW c t

/-! ## The line after the region -/

/-- It touches the result and a buffer of its own only: neither the table nor the padded source. -/
theorem tail_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  · simp only [hostOps1, List.mem_cons, List.mem_nil_iff, or_false] at hop
    subst hop
    intro j; fin_cases j
    simp only [StableHlo.unary_bufs, Finset.mem_insert, Finset.mem_singleton, not_or]
    and_intros <;> exact StableHlo.devRef_ne_of_ne (by decide)
  · simp only [hostOps1, List.mem_cons, List.mem_nil_iff, or_false] at hop
    subst hop
    intro b hb
    simp only [H0, Finset.mem_singleton] at hb
    subst hb
    simp only [StableHlo.unary_bufs, Finset.mem_insert, Finset.mem_singleton, not_or]
    and_intros <;> exact StableHlo.devRef_ne_of_ne (by decide)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And it writes no array of the pipeline (it writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w
  simp only [StableHlo.unary_writes, Finset.mem_singleton]
  exact StableHlo.devRef_ne_of_ne (by decide)

/-! ## The run -/

/-- What every buffer holds when @main ends: the arrays at what the library assembles from the blocks, the others at the
    last line's result over the region-entry contents. -/
abbrev finalVal (c : Dev nD) (b : Ref sig .tc) : Buf (Elt F) ((c : Thread nD τ).loc b) :=
  Pipeline.afterTail pcfgs (fun _ => adm m) (dats m) 0 (V0 m) [hostOps1] c b

set_option backward.isDefEq.respectTransparency.types false in
/-- From any memory with zero counters whose table words are in range: every weakly fair execution of @main terminates,
    and every final state has the result array at the blocks' assembly and every other unscoped buffer at `finalVal`. -/
theorem run_main (hW : WordsInRange (F := F) m) :
    θ_run defs (onTc (τ := τ) (main (F := F))) (s₀ m ρ)
      (Pipeline.FramePost (Pipeline.pin pcfgs fun _ => adm m) (dats m) 0 (finalVal m)) :=
  Pipeline.θ_run_frameP_dma_around pcfgs (fun _ => adm m) (dats m) (0 : Fin 1) launch0 osem defs₀ Variants.none ownSemFacts H0 H0_sub m ρ main
    (hbody := fun c => (body_obligation m hW c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m)
    (hin := fun _ => .rfl)
    (hout := fun c => by
      show iprop(Pipeline.ΦD osem spec0 H0 (V m) c ∗ Pipeline.ΦT pre0 (tbl m) c) ⊢ Pipeline.ΦD osem spec0 H0 (V m) c
      iintro ⟨HD, -⟩; iexact HD)

end Cert.Proof.KernelLaunch

end
-- ==== Proof.LibHostReads.lean ====
/-
  Three layout operations read at an index, at the literal shapes they are used at.
  • A pad that only appends rows at the high end of one axis (no low padding, no interior padding) leaves
    the operand where it was: below the operand's extent on that axis the result is the operand.
  • A reshape keeps every element's row-major position; flattening [32, 64, 8] to [16384] therefore puts
    the element (b, q, j) at position (b·64 + q)·8 + j = 512·b + 8·q + j.
  • A unit-stride slice from offset 0 on every axis is the operand restricted to the smaller box.
  Every side condition an operation takes is a hypothesis here, of exactly the operation's type, so the
  lemmas apply to whatever evidence a caller holds.
-/
import Idealize.ShloMosaic.Lib.KernelVsHost
import Idealize.ShloMosaic.Lib.Pipeline.Value
import Idealize.ShloMosaic.Lib.ValueLayout
import Idealize.ShloMosaic.Lib.ValueIdx

namespace Cert.Proof.LibHostReads

open Idealize.ShloMosaic

/-- The rank-0 shape (a scalar). -/
abbrev S_ : Shape := ⟨0, ![]⟩
/-- The pad's operand shape. -/
abbrev S32x128x49x256 : Shape := ⟨4, ![32, 128, 49, 256]⟩
/-- The pad's result shape: axis 2 grown from 49 to 56. -/
abbrev S32x128x56x256 : Shape := ⟨4, ![32, 128, 56, 256]⟩
/-- The reshape's operand shape. -/
abbrev S32x64x8 : Shape := ⟨3, ![32, 64, 8]⟩
/-- The reshape's result shape: 32 · 64 · 8 = 16384 positions in a row. -/
abbrev S16384 : Shape := ⟨1, ![16384]⟩
/-- The slice's operand shape. -/
abbrev S32x64x8x56x256 : Shape := ⟨5, ![32, 64, 8, 56, 256]⟩
/-- The slice's result shape: axis 3 cut from 56 back to 49. -/
abbrev S32x64x8x49x256 : Shape := ⟨5, ![32, 64, 8, 49, 256]⟩

/-! ## The pad -/

/-- The pad with low (0, 0, 0, 0), high (0, 0, 7, 0) and no interior padding, read at `(b, r, w, c)` with
    `w` an index of the padded extent 56 that is below 49, is the operand at `(b, r, w, c)`: on every axis
    the result coordinate is `0 + k · 1` for the operand coordinate `k`, which is inside the operand. -/
theorem pad_apply_of_lt {F : FTy → Type} (x : FVec F S32x128x49x256 .f32) (v : FVec F S_ .f32)
    (hp : S32x128x49x256.Pads (![0, 0, 0, 0] : Fin 4 → Nat) ![0, 0, 7, 0] ![0, 0, 0, 0] S32x128x56x256)
    (h0 : 0 < S_.numel) (b : Fin 32) (r : Fin 128) (w : Fin 56) (c : Fin 256) (hw : w.val < 49) :
    pad S32x128x56x256 ![0, 0, 0, 0] ![0, 0, 7, 0] ![0, 0, 0, 0] x v hp h0 (ValueIdx.ix4 b r w c)
      = x (ValueIdx.ix4 b r ⟨w.val, hw⟩ c) :=
  pad_apply_of_inside _ _ _ x v hp h0 _ _ (fun a => by
    match a with
    | ⟨0, _⟩ => show b.val = 0 + b.val * (0 + 1); omega
    | ⟨1, _⟩ => show r.val = 0 + r.val * (0 + 1); omega
    | ⟨2, _⟩ => show w.val = 0 + w.val * (0 + 1); omega
    | ⟨3, _⟩ => show c.val = 0 + c.val * (0 + 1); omega)

/-- The same pad read at `(b, r, w, c)` for `w` an index of the operand's extent 49, taken as an index of
    the padded extent 56 (the bound is any proof of `w < 56`): the operand at `(b, r, w, c)`. -/
theorem pad_apply {F : FTy → Type} (x : FVec F S32x128x49x256 .f32) (v : FVec F S_ .f32)
    (hp : S32x128x49x256.Pads (![0, 0, 0, 0] : Fin 4 → Nat) ![0, 0, 7, 0] ![0, 0, 0, 0] S32x128x56x256)
    (h0 : 0 < S_.numel) (b : Fin 32) (r : Fin 128) (w : Fin 49) (c : Fin 256) :
    pad S32x128x56x256 ![0, 0, 0, 0] ![0, 0, 7, 0] ![0, 0, 0, 0] x v hp h0
        (ValueIdx.ix4 b r (⟨w.val, Nat.lt_of_lt_of_le w.isLt (by decide)⟩ : Fin 56) c)
      = x (ValueIdx.ix4 b r w c) :=
  pad_apply_of_lt x v hp h0 b r ⟨w.val, Nat.lt_of_lt_of_le w.isLt (by decide)⟩ c w.isLt

/-! ## The reshape -/

/-- The flattening of a [32, 64, 8] array to [16384], read at a position `p` that is
    `512 · b + 8 · q + j`, is the array at `(b, q, j)`: that is `(b, q, j)`'s row-major position
    `(b · 64 + q) · 8 + j`, and a reshape keeps row-major positions. For any element type. -/
theorem flatten_apply_of_pos {α : Type} (idx : S32x64x8.Idx → α) (hsc : S32x64x8.ShapeCasts S16384)
    (p : Fin 16384) (b : Fin 32) (q : Fin 64) (j : Fin 8) (hp : p.val = 512 * b.val + 8 * q.val + j.val) :
    shapeCast S16384 idx hsc (ValueIdx.ix1 p) = idx (ValueIdx.ix3 b q j) := by
  refine shapeCast_apply idx hsc _ _ ?_
  rw [Shape.rowMajor_val_three, Shape.rowMajor_val_one]
  show (b.val * 64 + q.val) * 8 + j.val = p.val
  omega

/-- The same flattening read at the position `(b · 64 + q) · 8 + j` itself (below 16384 since
    `b < 32`, `q < 64`, `j < 8`): the array at `(b, q, j)`. -/
theorem flatten_apply {α : Type} (idx : S32x64x8.Idx → α) (hsc : S32x64x8.ShapeCasts S16384)
    (b : Fin 32) (q : Fin 64) (j : Fin 8) :
    shapeCast S16384 idx hsc
        (ValueIdx.ix1 (⟨(b.val * 64 + q.val) * 8 + j.val, by have := b.isLt; have := q.isLt; have := j.isLt; omega⟩ : Fin 16384))
      = idx (ValueIdx.ix3 b q j) :=
  flatten_apply_of_pos idx hsc _ b q j (by show (b.val * 64 + q.val) * 8 + j.val = _; omega)

/-! ## The slice -/

/-- The slice of a [32, 64, 8, 56, 256] array from offset 0 on every axis to [32, 64, 8, 49, 256], read at
    `(b, q, j, w, c)`, is the array at the same coordinates, `w` taken as an index of extent 56. -/
theorem slice_apply_ix {F : FTy → Type} (x : FVec F S32x64x8x56x256 .f32)
    (hsl : S32x64x8x56x256.Slices ![0, 0, 0, 0, 0] S32x64x8x49x256)
    (b : Fin 32) (q : Fin 64) (j : Fin 8) (w : Fin 49) (c : Fin 256) :
    extractStridedSlice S32x64x8x49x256 ![0, 0, 0, 0, 0] x hsl (ValueIdx.ix5 b q j w c)
      = x (ValueIdx.ix5 b q j (⟨w.val, Nat.lt_of_lt_of_le w.isLt (by decide)⟩ : Fin 56) c) :=
  ValueIdx.slice5_axis3_apply 0 x hsl b q j w c _ (Nat.zero_add _).symm

/-- The same slice read at any index `y` of the result: the array at `y`'s own coordinates (every index
    of rank 5 is the tuple of its coordinates; the bound on axis 3 is any proof of `y 3 < 56`). -/
theorem slice_apply {F : FTy → Type} (x : FVec F S32x64x8x56x256 .f32)
    (hsl : S32x64x8x56x256.Slices ![0, 0, 0, 0, 0] S32x64x8x49x256) (y : S32x64x8x49x256.Idx) :
    extractStridedSlice S32x64x8x49x256 ![0, 0, 0, 0, 0] x hsl y
      = x (ValueIdx.ix5 (y 0) (y 1) (y 2) (⟨(y 3).val, Nat.lt_of_lt_of_le (y 3).isLt (by decide)⟩ : Fin 56) (y 4)) :=
  (congrArg (extractStridedSlice S32x64x8x49x256 ![0, 0, 0, 0, 0] x hsl) (ValueIdx.eq_ix5 y)).trans
    (slice_apply_ix x hsl (y 0) (y 1) (y 2) (y 3) (y 4))

end Cert.Proof.LibHostReads
-- ==== Proof.KernelHost.lean ====
/-
  The host side of the kernel's @main, read as functions of the launch memory.

  Before the region @main runs five host operations: kv reshaped to [32, 128, 49, 256]; the integer constant 0; its
  conversion to f32 (the fill value); the pad of the reshaped kv by seven rows at the high end of axis 2, to
  [32, 128, 56, 256]; idx reshaped to the table of 16384 words. The contents a buffer holds when the region is entered
  are the fold of these operations over the launch memory: each operation rewrites its own result buffer and leaves
  every other buffer as it was. So the padded source is the pad of the reshape of kv, the table is the reshape of idx,
  and the three arguments are untouched.

  Read at an index: the padded source below row 49 is the reshaped kv there (the pad only appends rows); the table at
  position 512·b + 8·q + j is idx at (b, q, j) (a reshape keeps row-major positions), so every word of the table is a
  word of idx, and a bound on all of idx's words is a bound on every word any load of the table reads.
-/
import proofs.«407486_j41695542510269_2_alg».proof.Proof.KernelData
import proofs.«407486_j41695542510269_2_alg».proof.Proof.LibHostReads
import proofs.«407486_j41695542510269_2_alg».proof.Proof.Spec
import Idealize.ShloMosaic.Lib.StableHlo.Run
import Idealize.ShloMosaic.Lib.ValueIdx

set_option maxRecDepth 16384

noncomputable section

namespace Cert.Proof.KernelHost

open Cert.Kernel Cert.Kernel.Facts₀ Cert.Proof.KernelData
open Idealize.ShloMosaic Idealize.ShloMosaic.TcCoe

variable {F : FTy → Type} [FloatOps F]
variable (m : (ℓ : Loc nD τ sig) → Buf (Elt F) ℓ)

/-! ## What the buffers hold when the region is entered -/

/-- The padded source is the pad of kv reshaped to [32, 128, 49, 256], by seven rows at the high end of axis 2, filled
    with the f32 conversion of the integer 0: the composition of the first four host operations, of which the last
    writes this buffer. -/
theorem V_src (c : Dev nD) :
    V m c main_v1 = pad S32x128x56x256 ![0, 0, 0, 0] ![0, 0, 7, 0] ![0, 0, 0, 0]
      (shapeCast S32x128x49x256 (m ((c : Thread nD τ).loc main_arg2)) shapeCasts_S32x2x64x49x256_S32x128x49x256)
      (sitofp (F := F) .f32 (constantI S_ 32 0#32)) pads_S32x128x49x256_S32x128x56x256_000_000_070_000 h_S_ := by
  dsimp only [V, V0]
  simp only [Gen.hostOps0, Gen.hostOps0_1, Gen.hostOps0_2, List.flatten_cons, List.flatten_nil, List.append_nil, List.cons_append,
    List.nil_append]
  after_results
  rfl

/-- The table is idx reshaped to [16384]: the fifth host operation writes it and reads only idx, which none of the
    first four writes. -/
theorem tbl_eq :
    tbl m 0 = shapeCast S16384 (m (((0 : Dev nD) : Thread nD τ).loc main_arg0)) shapeCasts_S32x64x8_S16384 := by
  dsimp only [tbl, V, V0]
  simp only [Gen.hostOps0, Gen.hostOps0_1, Gen.hostOps0_2, List.flatten_cons, List.flatten_nil, List.append_nil, List.cons_append,
    List.nil_append]
  after_results
  rfl

/-- No host operation writes idx: it is as launched. -/
theorem V_arg0 (c : Dev nD) : V m c main_arg0 = m ((c : Thread nD τ).loc main_arg0) := by
  dsimp only [V, V0]
  simp only [Gen.hostOps0, Gen.hostOps0_1, Gen.hostOps0_2, List.flatten_cons, List.flatten_nil, List.append_nil, List.cons_append,
    List.nil_append]
  after_results

/-- No host operation writes the weights: they are as launched. -/
theorem V_arg1 (c : Dev nD) : V m c main_arg1 = m ((c : Thread nD τ).loc main_arg1) := by
  dsimp only [V, V0]
  simp only [Gen.hostOps0, Gen.hostOps0_1, Gen.hostOps0_2, List.flatten_cons, List.flatten_nil, List.append_nil, List.cons_append,
    List.nil_append]
  after_results

/-- No host operation writes kv: it is as launched. -/
theorem V_arg2 (c : Dev nD) : V m c main_arg2 = m ((c : Thread nD τ).loc main_arg2) := by
  dsimp only [V, V0]
  simp only [Gen.hostOps0, Gen.hostOps0_1, Gen.hostOps0_2, List.flatten_cons, List.flatten_nil, List.append_nil, List.cons_append,
    List.nil_append]
  after_results

/-! ## Read at an index -/

/-- The padded source, through the whole-buffer view (which reads the contents as they are), at `(b, r, w, cc)` with
    `w < 49`, is the reshaped kv at `(b, r, w, cc)`: the pad leaves the first 49 rows of axis 2 where they were. -/
theorem src_read (c : Dev nD) (b : Fin 32) (r : Fin 128) (w : Fin 56) (hw : w.val < 49) (cc : Fin 256) :
    srcM.view.read (Elt F) (V m c main_v1) (ValueIdx.ix4 b r w cc)
      = shapeCast S32x128x49x256 (m ((c : Thread nD τ).loc main_arg2)) shapeCasts_S32x2x64x49x256_S32x128x49x256
          (ValueIdx.ix4 b r ⟨w.val, hw⟩ cc) := by
  show V m c main_v1 (ValueIdx.ix4 b r w cc) = _
  rw [V_src]
  exact Cert.Proof.LibHostReads.pad_apply_of_lt _ _ _ _ b r w cc hw

/-- The table, through the whole-buffer view, at the position `p = 512·b + 8·q + j`, is idx at `(b, q, j)`: that is
    `(b, q, j)`'s row-major position in [32, 64, 8]. -/
theorem tbl_read (b : Fin 32) (q : Fin 64) (j : Fin 8) (p : Fin 16384) (hp : p.val = 512 * b.val + 8 * q.val + j.val) :
    tbM.view.read (Elt F) (tbl m 0) (ValueIdx.ix1 p)
      = m (((0 : Dev nD) : Thread nD τ).loc main_arg0) (ValueIdx.ix3 b q j) := by
  show tbl m 0 (ValueIdx.ix1 p) = _
  rw [tbl_eq]
  exact Cert.Proof.LibHostReads.flatten_apply_of_pos _ _ p b q j hp

/-- If every word of idx is below 128, so is every word any load of the table reads. A load reads the table at some
    position `p < 16384`; with `b = p / 512`, `q = p % 512 / 8`, `j = p % 8` (so `b < 32`, `q < 64`, `j < 8` and
    `p = 512·b + 8·q + j`) that word is idx at `(b, q, j)`. -/
theorem words_in_range (h : ∀ j : S32x64x8.Idx, (m (((0 : Dev nD) : Thread nD τ).loc main_arg0) j).toNat < 128)
    (r : LoadRect S16384) (x : r.shape.Idx) : (tbM.view.readAt (Elt F) r (tbl m 0) x).toNat < 128 := by
  obtain ⟨p, hp⟩ : ∃ p : Fin 16384, r.idx x = ValueIdx.ix1 p := ⟨r.idx x 0, ValueIdx.eq_ix1 _⟩
  have hlt := p.isLt
  have e : tbM.view.readAt (Elt F) r (tbl m 0) x
      = m (((0 : Dev nD) : Thread nD τ).loc main_arg0)
          (ValueIdx.ix3 (⟨p.val / 512, by omega⟩ : Fin 32) (⟨p.val % 512 / 8, by omega⟩ : Fin 64) (⟨p.val % 8, by omega⟩ : Fin 8)) :=
    (congrArg (tbM.view.read (Elt F) (tbl m 0)) hp).trans
      (tbl_read m ⟨p.val / 512, by omega⟩ ⟨p.val % 512 / 8, by omega⟩ ⟨p.val % 8, by omega⟩ p
        (by show p.val = 512 * (p.val / 512) + 8 * (p.val % 512 / 8) + p.val % 8; omega))
  exact lt_of_eq_of_lt (congrArg BitVec.toNat e) (h _)

end Cert.Proof.KernelHost

end
-- ==== Proof.KernelFrame.lean ====
/-
  The frame claim, read off the gather's run.

  The run ends with every unscoped buffer that is no window's array at the last line's result over the region-entry
  contents. The three arguments are written by no host operation, before the region or after it, and staged by no
  window: they end as launched. The precondition's bound on the index words is the bound on the table's words the body
  needs (the table is idx flattened).
-/
import proofs.«407486_j41695542510269_2_alg».proof.Proof.KernelLaunch
import proofs.«407486_j41695542510269_2_alg».proof.Proof.KernelHost

set_option maxRecDepth 16384

noncomputable section

namespace Cert.Proof.KernelFrame

open Cert.Kernel Cert.Kernel.Gen Cert.Proof.KernelData Cert.Proof.KernelLaunch Cert.Proof.KernelHost
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- No line after the region writes argument 0, and no window stages it: it ends as launched. -/
theorem final_arg0 (c : Dev nD) : finalVal m c main_arg0 = m ((c : Thread nD τ).loc main_arg0) := by
  unfold finalVal Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No line after the region writes argument 1, and no window stages it: it ends as launched. -/
theorem final_arg1 (c : Dev nD) : finalVal m c main_arg1 = m ((c : Thread nD τ).loc main_arg1) := by
  unfold finalVal Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line after the region writes argument 2, and no window stages it: it ends as launched. -/
theorem final_arg2 (c : Dev nD) : finalVal m c main_arg2 = m ((c : Thread nD τ).loc main_arg2) := by
  unfold finalVal Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- The three arguments are unscoped and no window's array. -/
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)
theorem arg2_rest : main_arg2 ∈ Pipeline.restRefs sig spec0 := Pipeline.mem_restRefs_of main_arg2 (by decide) (by decide)

/-- THE FRAME: when every index word is below 128, every weakly fair execution of @main terminates, nothing faults, and
    the three arguments end as launched. -/
theorem frame (hidx : ∀ j : S32x64x8.Idx, (m (((0 : Dev nD) : Thread nD τ).loc main_arg0) j).toNat < 128) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 arg0_rest).trans (final_arg0 m c),
      ((h c).2 main_arg1 arg1_rest).trans (final_arg1 m c),
      ((h c).2 main_arg2 arg2_rest).trans (final_arg2 m c)⟩)
    (run_main m ρ (words_in_range m hidx))

end Cert.Proof.KernelFrame

end
-- ==== Proof.KernelIdealTrip.lean ====
/-
  One trip of the gather's loop.

  Trip k of the body serves query position k of the point's 32: it reads the eight table words of that position, starts
  eight copies — for slot j the tile [56, 256] of the padded source at (n, word j), into the output block's window
  (0, k, j) —, all eight in flight at once, and then waits for the eight. A word names a row of the source only if it is
  below 128: that is what the body assumes of each word it reads, and what the bound `hT` on the table's words gives.

  The source array is read by eight copies at once, whose tiles may coincide (two slots may name one row), so it is held
  as eight read shares and a remainder; each copy borrows one. The block is held whole: each copy takes its own window,
  and the eight windows of one row are pairwise apart. After the trip everything is back as it was, except that the block
  holds, in row k, the eight tiles; what it holds is a function `(tripRun …).1` of what it held before, found by the run.
-/
import proofs.«407486_j41695542510269_2_alg».proof.Proof.Gen.KernelIdeal.Loops
import Idealize.ShloMosaic.Lib.Pipeline.Frame

set_option maxRecDepth 16384

noncomputable section

namespace Cert.Proof.KernelIdealTrip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A word below 128 names a row of the padded source [32, 128, 56, 256]: the tile [1, 1, 56, 256] at (n, word, 0, 0)
    lies inside it, for every batch n of the grid. -/
theorem chk_of (i : grid0.Coords) (w : BitVec 32) (h : w.toNat < 128) : k0_chk1 i w := by
  intro a
  have hi : (i 0).val < 32 := (i 0).isLt
  have e : (BitVec.ofNat 32 (i 0).val).toNat = (i 0).val := by
    rw [BitVec.toNat_ofNat]; exact Nat.mod_eq_of_lt (by omega)
  fin_cases a
  · show (BitVec.ofNat 32 (i 0).val).toNat + 1 ≤ 32
    omega
  · show w.toNat + 1 ≤ 128
    omega
  · show 0 + 56 ≤ 56
    omega
  · show 0 + 256 ≤ 256
    omega

/-- The eight cells of the kernel's semaphore array, each at zero. -/
abbrev cells (c : Dev nD) (arg5 : DmaSems sig S8) : sProp 𝕄 :=
  iprop((semVal ((c : Thread nD τ), SemLoc.dma ((arg5.slice (Rect.unit (s := S8) ![0] S1.size inb_S8_S1_0)).squeeze S_ squeezes_S1_S_).sem) 0)
    ∗ (semVal ((c : Thread nD τ), SemLoc.dma ((arg5.slice (Rect.unit (s := S8) ![1] S1.size inb_S8_S1_1)).squeeze S_ squeezes_S1_S_).sem) 0)
    ∗ (semVal ((c : Thread nD τ), SemLoc.dma ((arg5.slice (Rect.unit (s := S8) ![2] S1.size inb_S8_S1_2)).squeeze S_ squeezes_S1_S_).sem) 0)
    ∗ (semVal ((c : Thread nD τ), SemLoc.dma ((arg5.slice (Rect.unit (s := S8) ![3] S1.size inb_S8_S1_3)).squeeze S_ squeezes_S1_S_).sem) 0)
    ∗ (semVal ((c : Thread nD τ), SemLoc.dma ((arg5.slice (Rect.unit (s := S8) ![4] S1.size inb_S8_S1_4)).squeeze S_ squeezes_S1_S_).sem) 0)
    ∗ (semVal ((c : Thread nD τ), SemLoc.dma ((arg5.slice (Rect.unit (s := S8) ![5] S1.size inb_S8_S1_5)).squeeze S_ squeezes_S1_S_).sem) 0)
    ∗ (semVal ((c : Thread nD τ), SemLoc.dma ((arg5.slice (Rect.unit (s := S8) ![6] S1.size inb_S8_S1_6)).squeeze S_ squeezes_S1_S_).sem) 0)
    ∗ (semVal ((c : Thread nD τ), SemLoc.dma ((arg5.slice (Rect.unit (s := S8) ![7] S1.size inb_S8_S1_7)).squeeze S_ squeezes_S1_S_).sem) 0))

/-- The source array as a remainder and eight read shares, all at contents `X`. -/
abbrev srcShares (c : Dev nD) (arg3 : Memref sig .tc .hbm S32x128x56x256 .f32) (X : BufTy.Contents (Elt F) arg3.view.ty) : sProp 𝕄 :=
  iprop((arg3.view.loc (c : Thread nD τ) ↦{Transfers.shareDrop fullShare 8} X)
    ∗ (arg3.view.loc (c : Thread nD τ) ↦{Transfers.shareTokN fullShare 0} X)
    ∗ (arg3.view.loc (c : Thread nD τ) ↦{Transfers.shareTokN fullShare 1} X)
    ∗ (arg3.view.loc (c : Thread nD τ) ↦{Transfers.shareTokN fullShare 2} X)
    ∗ (arg3.view.loc (c : Thread nD τ) ↦{Transfers.shareTokN fullShare 3} X)
    ∗ (arg3.view.loc (c : Thread nD τ) ↦{Transfers.shareTokN fullShare 4} X)
    ∗ (arg3.view.loc (c : Thread nD τ) ↦{Transfers.shareTokN fullShare 5} X)
    ∗ (arg3.view.loc (c : Thread nD τ) ↦{Transfers.shareTokN fullShare 6} X)
    ∗ (arg3.view.loc (c : Thread nD τ) ↦{Transfers.shareTokN fullShare 7} X))

set_option maxHeartbeats 4000000 in
/-- ONE TRIP at a symbolic position `k`: from the table at `T` (any share), the source as read shares at `X`, the block
    at any contents `f`, the eight cells at zero and the core's waits, the trip's region runs to the same resources with
    the block at `g f` — `g` the witness: eight tiles written through the row's eight windows, as the run leaves them. -/
@[irreducible] def tripRun (𝒱 : Variants) (c : Dev nD) (bd : Option 𝒱.V) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (v2 : BitVec 32) (q : PosShare TreeShare)
    (T : BufTy.Contents (Elt F) arg2.view.ty) (X : BufTy.Contents (Elt F) arg3.view.ty)
    (hT : ∀ r idx, (View.readAt (Elt F) arg2.view r T idx).toNat < 128)
    (k : Fin k0_t1_loop.trips) :
    { g : Buf (Elt F) (arg4.view.loc (c : Thread nD τ)) → Buf (Elt F) (arg4.view.loc (c : Thread nD τ)) //
      ∀ (f : Buf (Elt F) (arg4.view.loc (c : Thread nD τ))) (W : Waits sig Unit),
        iprop((arg2.view.loc (c : Thread nD τ) ↦{q} T) ∗ srcShares (F := F) c arg3 X
            ∗ (arg4.view.loc (c : Thread nD τ) ↦[arg4.view.set]{fullShare} f) ∗ cells (F := F) c arg5 ∗ owes (c : Thread nD τ) 0 W)
          ⊢ wp frame (wpE (defs₀ (F := F)) 𝒱 (c : Thread nD τ) bd) Set.univ (k0_t1_body (F := F) i arg2 harg2 arg3 harg3 arg4 harg4 arg5 v2 k ())
              (fun _ => iprop((arg2.view.loc (c : Thread nD τ) ↦{q} T) ∗ srcShares (F := F) c arg3 X
                ∗ (arg4.view.loc (c : Thread nD τ) ↦[arg4.view.set]{fullShare} g f) ∗ cells (F := F) c arg5 ∗ ∃ W', owes (c : Thread nD τ) 0 W')) } := by
  refine ⟨?_, fun f W => ?run⟩
  case run =>
    unfold k0_t1_body
    iintro ⟨HT, ⟨HXr, HX0, HX1, HX2, HX3, HX4, HX5, HX6, HX7⟩, HO4, ⟨HC0, HC1, HC2, HC3, HC4, HC5, HC6, HC7⟩, HW⟩
    sl_exec (disch := exact chk_of i _ (hT _ _))
    sl_step
    isplitl [HT]; · iexact HT
    isplitl [HXr HX0 HX1 HX2 HX3 HX4 HX5 HX6 HX7]
    · isplitl [HXr]; · iexact HXr
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [HO4]; · iexact HO4
    isplitl [HC0 HC1 HC2 HC3 HC4 HC5 HC6 HC7]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      iexact HC7
    iexists _; iexact HW

end Cert.Proof.KernelIdealTrip

end
-- ==== Proof.KernelIdealTripRead.lean ====
/-
  What one trip leaves in the output block, read at an index.

  Trip k writes eight tiles through the eight windows (0, k, j) of the block, j = 0 … 7; the tile of window j is the
  padded source's tile at (n, word j), word j the table's entry at position 512 n + 256 p + 8 k + j. So after the trip
  the block reads, in row k, the source at (n, row of that word, w, c) — `blockVal` — and elsewhere what it held.
-/
import proofs.«407486_j41695542510269_2_alg».proof.Proof.KernelIdealTrip
import proofs.«407486_j41695542510269_2_alg».proof.Proof.LibRowWindows
import proofs.«407486_j41695542510269_2_alg».proof.Proof.Spec
import Idealize.ShloMosaic.Lib.ValueIdx

set_option maxRecDepth 16384

noncomputable section

namespace Cert.Proof.KernelIdealTripRead

open Cert.KernelIdeal Cert.KernelIdeal.Gen Cert.Proof.KernelIdealTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table position read for row k, slot j at point (n, p) is inside the table of 32·64·8 words. -/
theorem wordPos_lt (i : grid0.Coords) (k : Fin 32) (j : Fin 8) :
    512 * (i 0).val + 256 * (i 1).val + 8 * k.val + j.val < 16384 := by
  have h0 : (i 0).val < 32 := (i 0).isLt
  have h1 : (i 1).val < 2 := (i 1).isLt
  omega

/-- The table position read for row k, slot j at point (n, p): 512 n + 256 p + 8 k + j. -/
def wordPos (i : grid0.Coords) (k : Fin 32) (j : Fin 8) : Fin 16384 :=
  ⟨512 * (i 0).val + 256 * (i 1).val + 8 * k.val + j.val, wordPos_lt i k j⟩

/-- What the point's block holds when the body ends, from the table's words `Tr` and the padded source `Xr`:
    at (0, k, j, w, c) the source at (n, row of the word at `wordPos` k j, w, c). -/
def blockVal (i : grid0.Coords) (Tr : S16384.Idx → Elt F .i32) (Xr : S32x128x56x256.Idx → Elt F .f32) :
    S1x32x8x56x256.Idx → Elt F .f32 :=
  fun y => Xr (ValueIdx.ix4 (⟨(i 0).val, (i 0).isLt⟩ : Fin 32)
    (Cert.Proof.Spec.rowOf (Tr (ValueIdx.ix1 (wordPos i (y 1 : Fin 32) (y 2 : Fin 8))))) (y 3 : Fin 56) (y 4 : Fin 256))

open Cert.Proof.LibRowWindows
open Idealize.ShloMosaic.ValueIdx (ix1 ix2 ix4)

/-- A trip's number is below 32. -/
theorem trip_lt (k : Fin k0_t1_loop.trips) : k.val < 32 := Nat.lt_of_lt_of_le k.isLt k0_t1_abs.2.1

/-- The loop's counter at trip k, read as a natural number, is k: it starts at 0, steps by 1, and 32 trips do not wrap. -/
theorem iv_toNat (k : Fin k0_t1_loop.trips) : (Scf.iv (0#32) (1#32) k.val).toNat = k.val := by
  have hk := trip_lt k
  show ((0#32 : BitVec 32) + BitVec.ofNat 32 k.val * 1#32).toNat = k.val
  simp only [BitVec.toNat_add, BitVec.toNat_mul, BitVec.toNat_ofNat]
  omega

/-- The batch coordinate as a 32-bit word reads back as itself. -/
theorem batch_toNat (i : grid0.Coords) : (BitVec.ofNat 32 (i 0).val).toNat = (i 0).val := by
  have h0 : (i 0).val < 32 := (i 0).isLt
  rw [BitVec.toNat_ofNat]
  exact Nat.mod_eq_of_lt (by omega)

/-- The 32-bit chain 512 n + 256 p + 8 k + j does not wrap for n < 32, p < 2, k < 32, j < 8: it reads as that number. -/
theorem chain_toNat (i : grid0.Coords) (k : Fin k0_t1_loop.trips) (j : Nat) (hj : j < 8) :
    (BitVec.ofNat 32 (i 0).val * 512#32 + BitVec.ofNat 32 (i 1).val * 256#32 + Scf.iv (0#32) (1#32) k.val * 8#32
        + BitVec.ofNat 32 j).toNat
      = 512 * (i 0).val + 256 * (i 1).val + 8 * k.val + j := by
  have h0 : (i 0).val < 32 := (i 0).isLt
  have h1 : (i 1).val < 2 := (i 1).isLt
  have hk := trip_lt k
  have hiv := iv_toNat k
  simp only [BitVec.toNat_add, BitVec.toNat_mul, BitVec.toNat_ofNat, hiv]
  omega

/-- Trip k as a row of the block's 32. -/
def rowOfTrip (k : Fin k0_t1_loop.trips) : Fin 32 := ⟨k.val, trip_lt k⟩

/-- The window of slot 0 at trip k sits at (0, k, 0, 0, 0). -/
theorem win0_off (k : Fin k0_t1_loop.trips) : k0_off2 k = ![0, (rowOfTrip k).val, 0, 0, 0] := by
  show ![0, (Scf.iv (0#32) (1#32) k.val).toNat, 0, 0, 0] = ![0, k.val, 0, 0, 0]
  rw [iv_toNat]

/-- The window of slot 1 at trip k sits at (0, k, 1, 0, 0). -/
theorem win1_off (k : Fin k0_t1_loop.trips) : k0_off5 k = ![0, (rowOfTrip k).val, 1, 0, 0] := by
  show ![0, (Scf.iv (0#32) (1#32) k.val).toNat, 1, 0, 0] = ![0, k.val, 1, 0, 0]
  rw [iv_toNat]

/-- The window of slot 2 at trip k sits at (0, k, 2, 0, 0). -/
theorem win2_off (k : Fin k0_t1_loop.trips) : k0_off8 k = ![0, (rowOfTrip k).val, 2, 0, 0] := by
  show ![0, (Scf.iv (0#32) (1#32) k.val).toNat, 2, 0, 0] = ![0, k.val, 2, 0, 0]
  rw [iv_toNat]

/-- The window of slot 3 at trip k sits at (0, k, 3, 0, 0). -/
theorem win3_off (k : Fin k0_t1_loop.trips) : k0_off11 k = ![0, (rowOfTrip k).val, 3, 0, 0] := by
  show ![0, (Scf.iv (0#32) (1#32) k.val).toNat, 3, 0, 0] = ![0, k.val, 3, 0, 0]
  rw [iv_toNat]

/-- The window of slot 4 at trip k sits at (0, k, 4, 0, 0). -/
theorem win4_off (k : Fin k0_t1_loop.trips) : k0_off14 k = ![0, (rowOfTrip k).val, 4, 0, 0] := by
  show ![0, (Scf.iv (0#32) (1#32) k.val).toNat, 4, 0, 0] = ![0, k.val, 4, 0, 0]
  rw [iv_toNat]

/-- The window of slot 5 at trip k sits at (0, k, 5, 0, 0). -/
theorem win5_off (k : Fin k0_t1_loop.trips) : k0_off17 k = ![0, (rowOfTrip k).val, 5, 0, 0] := by
  show ![0, (Scf.iv (0#32) (1#32) k.val).toNat, 5, 0, 0] = ![0, k.val, 5, 0, 0]
  rw [iv_toNat]

/-- The window of slot 6 at trip k sits at (0, k, 6, 0, 0). -/
theorem win6_off (k : Fin k0_t1_loop.trips) : k0_off20 k = ![0, (rowOfTrip k).val, 6, 0, 0] := by
  show ![0, (Scf.iv (0#32) (1#32) k.val).toNat, 6, 0, 0] = ![0, k.val, 6, 0, 0]
  rw [iv_toNat]

/-- The window of slot 7 at trip k sits at (0, k, 7, 0, 0). -/
theorem win7_off (k : Fin k0_t1_loop.trips) : k0_off23 k = ![0, (rowOfTrip k).val, 7, 0, 0] := by
  show ![0, (Scf.iv (0#32) (1#32) k.val).toNat, 7, 0, 0] = ![0, k.val, 7, 0, 0]
  rw [iv_toNat]

/-- The word read for slot 0 at trip k sits at position 512 n + 256 p + 8 k + 0 of the table. -/
theorem word0_off (i : grid0.Coords) (k : Fin k0_t1_loop.trips) : k0_off1 i k 0 = (wordPos i (rowOfTrip k) 0).val :=
  chain_toNat i k 0 (by omega)

/-- The word read for slot 1 at trip k sits at position 512 n + 256 p + 8 k + 1 of the table. -/
theorem word1_off (i : grid0.Coords) (k : Fin k0_t1_loop.trips) : k0_off4 i k 0 = (wordPos i (rowOfTrip k) 1).val :=
  chain_toNat i k 1 (by omega)

/-- The word read for slot 2 at trip k sits at position 512 n + 256 p + 8 k + 2 of the table. -/
theorem word2_off (i : grid0.Coords) (k : Fin k0_t1_loop.trips) : k0_off7 i k 0 = (wordPos i (rowOfTrip k) 2).val :=
  chain_toNat i k 2 (by omega)

/-- The word read for slot 3 at trip k sits at position 512 n + 256 p + 8 k + 3 of the table. -/
theorem word3_off (i : grid0.Coords) (k : Fin k0_t1_loop.trips) : k0_off10 i k 0 = (wordPos i (rowOfTrip k) 3).val :=
  chain_toNat i k 3 (by omega)

/-- The word read for slot 4 at trip k sits at position 512 n + 256 p + 8 k + 4 of the table. -/
theorem word4_off (i : grid0.Coords) (k : Fin k0_t1_loop.trips) : k0_off13 i k 0 = (wordPos i (rowOfTrip k) 4).val :=
  chain_toNat i k 4 (by omega)

/-- The word read for slot 5 at trip k sits at position 512 n + 256 p + 8 k + 5 of the table. -/
theorem word5_off (i : grid0.Coords) (k : Fin k0_t1_loop.trips) : k0_off16 i k 0 = (wordPos i (rowOfTrip k) 5).val :=
  chain_toNat i k 5 (by omega)

/-- The word read for slot 6 at trip k sits at position 512 n + 256 p + 8 k + 6 of the table. -/
theorem word6_off (i : grid0.Coords) (k : Fin k0_t1_loop.trips) : k0_off19 i k 0 = (wordPos i (rowOfTrip k) 6).val :=
  chain_toNat i k 6 (by omega)

/-- The word read for slot 7 at trip k sits at position 512 n + 256 p + 8 k + 7 of the table. -/
theorem word7_off (i : grid0.Coords) (k : Fin k0_t1_loop.trips) : k0_off22 i k 0 = (wordPos i (rowOfTrip k) 7).val :=
  chain_toNat i k 7 (by omega)

/-- The source tile of slot 0 named by the word w sits at (n, w, 0, 0). -/
theorem src0_off (i : grid0.Coords) (w : BitVec 32) : k0_off3 i w = ![(i 0).val, w.toNat, 0, 0] := by
  show ![(BitVec.ofNat 32 (i 0).val).toNat, w.toNat, 0, 0] = ![(i 0).val, w.toNat, 0, 0]
  rw [batch_toNat]

/-- The source tile of slot 1 named by the word w sits at (n, w, 0, 0). -/
theorem src1_off (i : grid0.Coords) (w : BitVec 32) : k0_off6 i w = ![(i 0).val, w.toNat, 0, 0] := by
  show ![(BitVec.ofNat 32 (i 0).val).toNat, w.toNat, 0, 0] = ![(i 0).val, w.toNat, 0, 0]
  rw [batch_toNat]

/-- The source tile of slot 2 named by the word w sits at (n, w, 0, 0). -/
theorem src2_off (i : grid0.Coords) (w : BitVec 32) : k0_off9 i w = ![(i 0).val, w.toNat, 0, 0] := by
  show ![(BitVec.ofNat 32 (i 0).val).toNat, w.toNat, 0, 0] = ![(i 0).val, w.toNat, 0, 0]
  rw [batch_toNat]

/-- The source tile of slot 3 named by the word w sits at (n, w, 0, 0). -/
theorem src3_off (i : grid0.Coords) (w : BitVec 32) : k0_off12 i w = ![(i 0).val, w.toNat, 0, 0] := by
  show ![(BitVec.ofNat 32 (i 0).val).toNat, w.toNat, 0, 0] = ![(i 0).val, w.toNat, 0, 0]
  rw [batch_toNat]

/-- The source tile of slot 4 named by the word w sits at (n, w, 0, 0). -/
theorem src4_off (i : grid0.Coords) (w : BitVec 32) : k0_off15 i w = ![(i 0).val, w.toNat, 0, 0] := by
  show ![(BitVec.ofNat 32 (i 0).val).toNat, w.toNat, 0, 0] = ![(i 0).val, w.toNat, 0, 0]
  rw [batch_toNat]

/-- The source tile of slot 5 named by the word w sits at (n, w, 0, 0). -/
theorem src5_off (i : grid0.Coords) (w : BitVec 32) : k0_off18 i w = ![(i 0).val, w.toNat, 0, 0] := by
  show ![(BitVec.ofNat 32 (i 0).val).toNat, w.toNat, 0, 0] = ![(i 0).val, w.toNat, 0, 0]
  rw [batch_toNat]

/-- The source tile of slot 6 named by the word w sits at (n, w, 0, 0). -/
theorem src6_off (i : grid0.Coords) (w : BitVec 32) : k0_off21 i w = ![(i 0).val, w.toNat, 0, 0] := by
  show ![(BitVec.ofNat 32 (i 0).val).toNat, w.toNat, 0, 0] = ![(i 0).val, w.toNat, 0, 0]
  rw [batch_toNat]

/-- The source tile of slot 7 named by the word w sits at (n, w, 0, 0). -/
theorem src7_off (i : grid0.Coords) (w : BitVec 32) : k0_off24 i w = ![(i 0).val, w.toNat, 0, 0] := by
  show ![(BitVec.ofNat 32 (i 0).val).toNat, w.toNat, 0, 0] = ![(i 0).val, w.toNat, 0, 0]
  rw [batch_toNat]

/-- ONE SLOT'S TILE. The tile delivered for a slot is read from the source through the window at (n, w), w the word the
    table holds at the slot's position; when every word of the table is below 128, w names row w of the 128, so the tile
    holds, at (a, b), the source at (n, row of the table's word at that position, a, b). -/
theorem slot_tile (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128)
    (r : Fin 32) (j : Fin 8)
    (offA : Fin 1 → Nat) (hA : offA 0 = (wordPos i r j).val) (inbA : ∀ a, offA a + S1.size a ≤ S16384.size a)
    (h1 : 0 < (Rect.unit (s := S16384) offA S1.size inbA).shape.numel)
    (offB : BitVec 32 → Fin 4 → Nat) (hB : ∀ w, offB w = ![(i 0).val, w.toNat, 0, 0])
    (inbB : ∀ a, offB (View.readAt (Elt F) arg2.view (Rect.unit (s := S16384) offA S1.size inbA).toLoadRect T (Shape.Idx.first h1)) a
      + S1x1x56x256.size a ≤ S32x128x56x256.size a)
    (hs : ∀ a, (Rect.unit (s := S32x128x56x256)
      (offB (View.readAt (Elt F) arg2.view (Rect.unit (s := S16384) offA S1.size inbA).toLoadRect T (Shape.Idx.first h1)))
      S1x1x56x256.size inbB).stride a = 1)
    (sq : S1x1x56x256.Squeezes S56x256) (t : S56x256.Idx) :
    ReadAs.same.apply (View.read (Elt F) ((arg3.slice (Rect.unit (s := S32x128x56x256)
        (offB (View.readAt (Elt F) arg2.view (Rect.unit (s := S16384) offA S1.size inbA).toLoadRect T (Shape.Idx.first h1)))
        S1x1x56x256.size inbB) hs).squeeze S56x256 sq).view X) t
      = arg3.view.read (Elt F) X (ix4 (⟨(i 0).val, (i 0).isLt⟩ : Fin 32)
          (Cert.Proof.Spec.rowOf (arg2.view.read (Elt F) T (ix1 (wordPos i r j)))) (t 0) (t 1)) := by
  rw [ReadAs.apply_same]
  have hw := read_word arg2 (wordPos i r j) offA hA inbA T h1
  rw [read_source_tile arg3 ⟨(i 0).val, (i 0).isLt⟩
    (Cert.Proof.Spec.rowOf (View.readAt (Elt F) arg2.view (Rect.unit (s := S16384) offA S1.size inbA).toLoadRect T (Shape.Idx.first h1)))
    _ (by rw [hB, Cert.Proof.Spec.rowOf_val _ (hT _ _)]) inbB hs sq X t, hw]
/-- The tile delivered to slot 0 at trip k holds, at (a, b), the source at (n, row of the table's word at the slot's position, a, b). -/
theorem tile0_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma1 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 0)))) (t 0) (t 1)) := by
  unfold tripRun.sl.dma1 tripRun.sl.r
  exact slot_tile i arg2 arg3 T X hT (rowOfTrip k) 0 (k0_off1 i k) (word0_off i k) _ _ (k0_off3 i) (src0_off i) _ _ _ t

/-- The tile delivered to slot 1 at trip k holds, at (a, b), the source at (n, row of the table's word at the slot's position, a, b). -/
theorem tile1_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma2 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 1)))) (t 0) (t 1)) := by
  unfold tripRun.sl.dma2 tripRun.sl.r_1
  exact slot_tile i arg2 arg3 T X hT (rowOfTrip k) 1 (k0_off4 i k) (word1_off i k) _ _ (k0_off6 i) (src1_off i) _ _ _ t

/-- The tile delivered to slot 2 at trip k holds, at (a, b), the source at (n, row of the table's word at the slot's position, a, b). -/
theorem tile2_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma3 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 2)))) (t 0) (t 1)) := by
  unfold tripRun.sl.dma3 tripRun.sl.r_2
  exact slot_tile i arg2 arg3 T X hT (rowOfTrip k) 2 (k0_off7 i k) (word2_off i k) _ _ (k0_off9 i) (src2_off i) _ _ _ t

/-- The tile delivered to slot 3 at trip k holds, at (a, b), the source at (n, row of the table's word at the slot's position, a, b). -/
theorem tile3_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma4 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 3)))) (t 0) (t 1)) := by
  unfold tripRun.sl.dma4 tripRun.sl.r_3
  exact slot_tile i arg2 arg3 T X hT (rowOfTrip k) 3 (k0_off10 i k) (word3_off i k) _ _ (k0_off12 i) (src3_off i) _ _ _ t

/-- The tile delivered to slot 4 at trip k holds, at (a, b), the source at (n, row of the table's word at the slot's position, a, b). -/
theorem tile4_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma5 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 4)))) (t 0) (t 1)) := by
  unfold tripRun.sl.dma5 tripRun.sl.r_4
  exact slot_tile i arg2 arg3 T X hT (rowOfTrip k) 4 (k0_off13 i k) (word4_off i k) _ _ (k0_off15 i) (src4_off i) _ _ _ t

/-- The tile delivered to slot 5 at trip k holds, at (a, b), the source at (n, row of the table's word at the slot's position, a, b). -/
theorem tile5_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma6 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 5)))) (t 0) (t 1)) := by
  unfold tripRun.sl.dma6 tripRun.sl.r_5
  exact slot_tile i arg2 arg3 T X hT (rowOfTrip k) 5 (k0_off16 i k) (word5_off i k) _ _ (k0_off18 i) (src5_off i) _ _ _ t

/-- The tile delivered to slot 6 at trip k holds, at (a, b), the source at (n, row of the table's word at the slot's position, a, b). -/
theorem tile6_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma7 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 6)))) (t 0) (t 1)) := by
  unfold tripRun.sl.dma7 tripRun.sl.r_6
  exact slot_tile i arg2 arg3 T X hT (rowOfTrip k) 6 (k0_off19 i k) (word6_off i k) _ _ (k0_off21 i) (src6_off i) _ _ _ t

/-- The tile delivered to slot 7 at trip k holds, at (a, b), the source at (n, row of the table's word at the slot's position, a, b). -/
theorem tile7_eq (i : grid0.Coords) (arg2 : Memref sig .tc .smem S16384 .i32) (arg3 : Memref sig .tc .hbm S32x128x56x256 .f32)
    (T : BufTy.Contents (Elt F) arg2.view.ty) (X : BufTy.Contents (Elt F) arg3.view.ty)
    (hT : ∀ r idx, (View.readAt (Elt F) arg2.view r T idx).toNat < 128) (k : Fin k0_t1_loop.trips) (t : S56x256.Idx) :
    tripRun.sl.dma8 (F := F) i arg2 arg3 T X hT k t
      = arg3.view.read (Elt F) X (ix4 (⟨(i 0).val, (i 0).isLt⟩ : Fin 32)
          (Cert.Proof.Spec.rowOf (arg2.view.read (Elt F) T (ix1 (wordPos i (rowOfTrip k) 7)))) (t 0) (t 1)) := by
  unfold tripRun.sl.dma8 tripRun.sl.r_7
  exact slot_tile i arg2 arg3 T X hT (rowOfTrip k) 7 (k0_off22 i k) (word7_off i k) _ _ (k0_off24 i) (src7_off i) _ _ _ t

/-- A trip writes row k and nothing else: after it the block reads `blockVal` in row k and what it held elsewhere. -/
theorem tripRun_read (𝒱 : Variants) (c : Dev nD) (bd : Option 𝒱.V) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (v2 : BitVec 32) (q : PosShare TreeShare)
    (T : BufTy.Contents (Elt F) arg2.view.ty) (X : BufTy.Contents (Elt F) arg3.view.ty)
    (hT : ∀ r idx, (View.readAt (Elt F) arg2.view r T idx).toNat < 128)
    (k : Fin k0_t1_loop.trips) (f : Buf (Elt F) (arg4.view.loc (c : Thread nD τ))) (y : S1x32x8x56x256.Idx) :
    arg4.view.read (Elt F) ((tripRun (F := F) 𝒱 c bd i arg2 harg2 arg3 harg3 arg4 harg4 arg5 v2 q T X hT k).1 f) y
      = if (y 1).val = k.val then blockVal (F := F) i (arg2.view.read (Elt F) T) (arg3.view.read (Elt F) X) y
        else arg4.view.read (Elt F) f y := by
  unfold tripRun
  dsimp only
  unfold tripRun.sl.HO4_w7 tripRun.sl.HO4_w6 tripRun.sl.HO4_w5 tripRun.sl.HO4_w4 tripRun.sl.HO4_w3 tripRun.sl.HO4_w2 tripRun.sl.HO4_w1 tripRun.sl.HO4_w0
  -- the eight writes read past, by the row lemma at row k
  refine (read_write_row arg4 (rowOfTrip k)
    (k0_off2 k) (win0_off k) (k0_off2_inb k) (fun _ => rfl) squeezes_S1x1x1x56x256_S56x256
    (k0_off5 k) (win1_off k) (k0_off5_inb k) (fun _ => rfl) squeezes_S1x1x1x56x256_S56x256
    (k0_off8 k) (win2_off k) (k0_off8_inb k) (fun _ => rfl) squeezes_S1x1x1x56x256_S56x256
    (k0_off11 k) (win3_off k) (k0_off11_inb k) (fun _ => rfl) squeezes_S1x1x1x56x256_S56x256
    (k0_off14 k) (win4_off k) (k0_off14_inb k) (fun _ => rfl) squeezes_S1x1x1x56x256_S56x256
    (k0_off17 k) (win5_off k) (k0_off17_inb k) (fun _ => rfl) squeezes_S1x1x1x56x256_S56x256
    (k0_off20 k) (win6_off k) (k0_off20_inb k) (fun _ => rfl) squeezes_S1x1x1x56x256_S56x256
    (k0_off23 k) (win7_off k) (k0_off23_inb k) (fun _ => rfl) squeezes_S1x1x1x56x256_S56x256
    f
    ![tripRun.sl.dma1 (F := F) i arg2 arg3 T X hT k,
      tripRun.sl.dma2 (F := F) i arg2 arg3 T X hT k,
      tripRun.sl.dma3 (F := F) i arg2 arg3 T X hT k,
      tripRun.sl.dma4 (F := F) i arg2 arg3 T X hT k,
      tripRun.sl.dma5 (F := F) i arg2 arg3 T X hT k,
      tripRun.sl.dma6 (F := F) i arg2 arg3 T X hT k,
      tripRun.sl.dma7 (F := F) i arg2 arg3 T X hT k,
      tripRun.sl.dma8 (F := F) i arg2 arg3 T X hT k]
    y).trans ?_
  show (if (y 1).val = k.val then _ else _) = _
  split
  · next hrow =>
    -- in row k: the tile of y's own slot, read at (y 3, y 4)
    have hy1 : (y 1 : Fin 32) = rowOfTrip k := Fin.ext hrow
    have key : ∀ (j : Fin 8) (t : S56x256.Idx),
        (![tripRun.sl.dma1 (F := F) i arg2 arg3 T X hT k,
          tripRun.sl.dma2 (F := F) i arg2 arg3 T X hT k,
          tripRun.sl.dma3 (F := F) i arg2 arg3 T X hT k,
          tripRun.sl.dma4 (F := F) i arg2 arg3 T X hT k,
          tripRun.sl.dma5 (F := F) i arg2 arg3 T X hT k,
          tripRun.sl.dma6 (F := F) i arg2 arg3 T X hT k,
          tripRun.sl.dma7 (F := F) i arg2 arg3 T X hT k,
          tripRun.sl.dma8 (F := F) i arg2 arg3 T X hT k] : Fin 8 → S56x256.Idx → Elt F .f32) j t
        = arg3.view.read (Elt F) X (ix4 (⟨(i 0).val, (i 0).isLt⟩ : Fin 32)
            (Cert.Proof.Spec.rowOf (arg2.view.read (Elt F) T (ix1 (wordPos i (rowOfTrip k) j)))) (t 0) (t 1)) := by
      intro j t
      match j with
      | ⟨0, _⟩ => exact tile0_eq i arg2 arg3 T X hT k t
      | ⟨1, _⟩ => exact tile1_eq i arg2 arg3 T X hT k t
      | ⟨2, _⟩ => exact tile2_eq i arg2 arg3 T X hT k t
      | ⟨3, _⟩ => exact tile3_eq i arg2 arg3 T X hT k t
      | ⟨4, _⟩ => exact tile4_eq i arg2 arg3 T X hT k t
      | ⟨5, _⟩ => exact tile5_eq i arg2 arg3 T X hT k t
      | ⟨6, _⟩ => exact tile6_eq i arg2 arg3 T X hT k t
      | ⟨7, _⟩ => exact tile7_eq i arg2 arg3 T X hT k t
    refine (key (y 2) (ix2 (y 3) (y 4))).trans ?_
    show _ = arg3.view.read (Elt F) X (ix4 (⟨(i 0).val, (i 0).isLt⟩ : Fin 32)
      (Cert.Proof.Spec.rowOf (arg2.view.read (Elt F) T (ix1 (wordPos i (y 1 : Fin 32) (y 2 : Fin 8))))) (y 3 : Fin 56) (y 4 : Fin 256))
    rw [hy1]
  · rfl

end Cert.Proof.KernelIdealTripRead

end
-- ==== Proof.KernelIdealBody.lean ====
/-
  The gather's body at one grid point.

  At point (n, p) the body's loop runs 32 trips; trip k fills row k of the output block [1, 32, 8, 56, 256]: slot j of
  the row receives the tile of the padded source at (n, word), the word being the table's entry at position
  512 n + 256 p + 8 k + j. So when the loop ends the block holds, at (0, k, j, w, c), the source at
  (n, row of that word, w, c): `blockVal`.

  The loop's invariant before trip k: the table, the source, the cells and the waits as they were, and the block at
  SOME contents whose rows below k are already `blockVal`'s (`RowsDone`). A trip writes row k only (`tripRun_read`),
  so it keeps the rows below k and finishes row k.
-/
import proofs.«407486_j41695542510269_2_alg».proof.Proof.KernelIdealTripRead
import proofs.«407486_j41695542510269_2_alg».proof.Proof.Spec
import Idealize.ShloMosaic.Lib.ValueIdx

set_option maxRecDepth 16384

noncomputable section

namespace Cert.Proof.KernelIdealBody

open Cert.KernelIdeal Cert.KernelIdeal.Gen Cert.Proof.KernelIdealTrip Cert.Proof.KernelIdealTripRead
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows below `k` of the block's contents `g` are final. -/
def RowsDone (i : grid0.Coords)
    (arg2 : Memref sig .tc .smem S16384 .i32) (arg3 : Memref sig .tc .hbm S32x128x56x256 .f32)
    (arg4 : Memref sig .tc .vmem S1x32x8x56x256 .f32)
    (T : BufTy.Contents (Elt F) arg2.view.ty) (X : BufTy.Contents (Elt F) arg3.view.ty)
    (k : ℕ) (g : BufTy.Contents (Elt F) arg4.view.ty) : Prop :=
  ∀ y : S1x32x8x56x256.Idx, (y 1).val < k →
    arg4.view.read (Elt F) g y = blockVal (F := F) i (arg2.view.read (Elt F) T) (arg3.view.read (Elt F) X) y

/-- The source whole is its remainder and eight read shares, and back. -/
theorem srcShares_iff (c : Dev nD) (arg3 : Memref sig .tc .hbm S32x128x56x256 .f32) (X : BufTy.Contents (Elt F) arg3.view.ty) :
    (arg3.view.loc (c : Thread nD τ) ↦{fullShare} X : sProp 𝕄) ⊣⊢ srcShares (F := F) c arg3 X := by
  refine (Transfers.pointsTo_toks (Ix := Unit) (Name := ℕ) (U := Pipeline.UD sig nD τ) (Lvl := ℕ) fullShare 8).trans ?_
  exact BiEntails.of_eq (by
    rw [bigSep_univ_eq_bigSepL [(0 : Fin 8), 1, 2, 3, 4, 5, 6, 7] (by decide) (by decide)]; rfl)

/-- The loop's invariant before trip `k`. -/
def inv (c : Dev nD) (i : grid0.Coords)
    (arg2 : Memref sig .tc .smem S16384 .i32) (arg3 : Memref sig .tc .hbm S32x128x56x256 .f32)
    (arg4 : Memref sig .tc .vmem S1x32x8x56x256 .f32) (arg5 : DmaSems sig S8) (q : PosShare TreeShare)
    (T : BufTy.Contents (Elt F) arg2.view.ty) (X : BufTy.Contents (Elt F) arg3.view.ty) (k : ℕ) (_ : Unit) : sProp 𝕄 :=
  iprop((arg2.view.loc (c : Thread nD τ) ↦{q} T) ∗ (arg3.view.loc (c : Thread nD τ) ↦{fullShare} X)
    ∗ (∃ g, (arg4.view.loc (c : Thread nD τ) ↦[arg4.view.set]{fullShare} g) ∗ ⌜RowsDone (F := F) i arg2 arg3 arg4 T X k g⌝)
    ∗ cells (F := F) c arg5 ∗ ∃ W', owes (c : Thread nD τ) 0 W')

set_option maxHeartbeats 2000000 in
/-- THE BODY at point `i`: from the table at `T` (any share) with every word below 128, the source whole at `X`, the
    block at any contents, the eight cells at zero and the core's waits, the kernel function runs to the same resources
    with the block owned at `blockVal`. -/
theorem kernel_run (c : Dev nD) (i : grid0.Coords)
    (arg2 : Memref sig .tc .smem S16384 .i32) (harg2 : arg2.IsWhole)
    (arg3 : Memref sig .tc .hbm S32x128x56x256 .f32) (harg3 : arg3.IsWhole)
    (arg4 : Memref sig .tc .vmem S1x32x8x56x256 .f32) (harg4 : arg4.IsWhole)
    (arg5 : DmaSems sig S8) (q : PosShare TreeShare)
    (T : BufTy.Contents (Elt F) arg2.view.ty) (X : BufTy.Contents (Elt F) arg3.view.ty)
    (hT : ∀ r idx, (View.readAt (Elt F) arg2.view r T idx).toNat < 128) (W : Waits sig Unit) :
    iprop((arg2.view.loc (c : Thread nD τ) ↦{q} T) ∗ (arg3.view.loc (c : Thread nD τ) ↦{fullShare} X)
        ∗ (∃ f, arg4.view.loc (c : Thread nD τ) ↦[arg4.view.set]{fullShare} f) ∗ cells (F := F) c arg5 ∗ owes (c : Thread nD τ) 0 W)
      ⊢ (wp frame (wpE (defs₀ (F := F)) Variants.none (c : Thread nD τ) none) Set.univ
          (cc0_kernel (F := F) i arg2 harg2 arg3 harg3 arg4 harg4 arg5)
          (fun _ => iprop((arg2.view.loc (c : Thread nD τ) ↦{q} T) ∗ (arg3.view.loc (c : Thread nD τ) ↦{fullShare} X)
            ∗ owns (c : Thread nD τ) arg4 fullShare (blockVal (F := F) i (arg2.view.read (Elt F) T) (arg3.view.read (Elt F) X))
            ∗ cells (F := F) c arg5 ∗ ∃ W', owes (c : Thread nD τ) 0 W')) : sProp 𝕄) := by
  simp only [cc0_kernel_eq_skeleton]; unfold cc0_kernel_skel
  iintro ⟨HT, HX, ⟨%f0, HO4⟩, HC, HW⟩
  sl_exec
  sl_for (inv (F := F) c i arg2 arg3 arg4 arg5 q T X) $$ [HT HX HO4 HC HW]
  · -- one trip keeps the invariant
    intro k acc
    unfold inv
    iintro ⟨HT, HX, ⟨%g, HO4, %hg⟩, HC, ⟨%W', HW⟩⟩
    ihave HXs := (srcShares_iff (F := F) c arg3 X).1 $$ HX
    iapply (wp_wand_r Idealize.ShloMosaic.frame (wpE (defs₀ (F := F)) Variants.none (c : Thread nD τ) none) Set.univ)
    isplitl [HT HXs HO4 HC HW]
    · iapply ((tripRun (F := F) Variants.none c none i arg2 harg2 arg3 harg3 arg4 harg4 arg5 _ q T X hT k).2 g W')
      isplitl [HT]; · iexact HT
      isplitl [HXs]; · iexact HXs
      isplitl [HO4]; · iexact HO4
      isplitl [HC]; · iexact HC
      iexact HW
    · iintro %u ⟨HT, HXs, HO4, HC, HW⟩
      ihave HX := (srcShares_iff (F := F) c arg3 X).2 $$ HXs
      isplitl [HT]; · iexact HT
      isplitl [HX]; · iexact HX
      isplitl [HO4]
      · iexists _
        isplitl [HO4]; · iexact HO4
        ipureintro
        intro y hy
        rw [tripRun_read]
        by_cases hk : (y 1).val = k.val
        · rw [if_pos hk]
        · rw [if_neg hk]; exact hg y (by omega)
      isplitl [HC]; · iexact HC
      iexact HW
  · -- before the first trip no row is asked for
    unfold inv
    isplitl [HT]; · iexact HT
    isplitl [HX]; · iexact HX
    isplitl [HO4]
    · iexists f0
      isplitl [HO4]; · iexact HO4
      ipureintro; intro y hy; exact absurd hy (Nat.not_lt_zero _)
    isplitl [HC]; · iexact HC
    iexists W; iexact HW
  · -- after the last trip every row is final
    unfold inv
    iintro %acc ⟨HT, HX, ⟨%g, HO4, %hg⟩, HC, HW⟩
    sl_exec
    sl_step
    isplitl [HT]; · iexact HT
    isplitl [HX]; · iexact HX
    isplitl [HO4]
    · unfold owns
      iexists g
      isplitr
      · ipureintro; funext y; exact hg y (y 1).isLt
      · iexact HO4
    isplitl [HC]; · iexact HC
    iexact HW

end Cert.Proof.KernelIdealBody

end
-- ==== Proof.KernelIdealData.lean ====
/-
  The gather as a launch: the contents the region is entered at, the table, and the proof data of its one pipeline.

  @main is three stretches of host operations (kv reshaped to [32, 128, 49, 256] and padded with seven zero rows to
  [32, 128, 56, 256]; idx flattened to the table of 16384 words, kept in scalar memory), the region, and one host
  operation after it (the result [32, 64, 8, 56, 256] cut back to 49 rows). The region's grid is 32 × 2; its one window is
  the result, in blocks [1, 32, 8, 56, 256] at (n, p, 0, 0, 0). The padded source stays in main memory and the body
  copies tiles out of it itself, on eight semaphores of its own.

  After the body at point t the window's buffer holds `blockVal` of the point (Proof/KernelIdealBody.lean): that is the
  proof data's `after`. The region's invariant is the library's for a body with copies of its own (the scoped rest, the
  generator register, the eight cells at zero, the padded source whole at its entry contents) beside the table's half.
-/
import proofs.«407486_j41695542510269_2_alg».proof.Proof.KernelIdealBody
import proofs.«407486_j41695542510269_2_alg».proof.Proof.Gen.KernelIdeal.Launch
import Idealize.ShloMosaic.Lib.Pipeline.FrameSuffix
import Idealize.ShloMosaic.Lib.Pipeline.FrameBody

set_option maxRecDepth 16384

noncomputable section

namespace Cert.Proof.KernelIdealData

open Cert.KernelIdeal Cert.KernelIdeal.Gen Cert.Proof.KernelIdealTrip Cert.Proof.KernelIdealTripRead Cert.Proof.KernelIdealBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the launch memory after the three stretches of host
    operations before the call. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the one line after it, at the contents after the lines before it. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The table's contents as admissible contents (the window's index map reads no table: nothing is asked of them). -/
abbrev adm : (pcfg0 (F := F)).Adm := ⟨tbl m, trivial⟩
/-- The pipeline at them. -/
abbrev cfgM : Pipeline.Cfg sig Λ₀ := cfg0 (adm m)

/-- The table and the padded source as the body is handed them. -/
abbrev tbM : Memref sig .tc .smem S16384 .i32 := Memref.whole main_v2
abbrev srcM : Memref sig .tc .hbm S32x128x56x256 .f32 := Memref.whole main_v1

/-- The table's half the region hands the body. -/
theorem PhiT_eq (c : Dev nD) :
    (Pipeline.ΦT pre0 (tbl m) c : sProp 𝕄) = iprop(tbM.view.loc (c : Thread nD τ) ↦{fullShare.right} (tbl m 0)) := by
  unfold Pipeline.ΦT Pipeline.prefHeld
  rw [show (Finset.univ : Finset (Fin 1)) = {(0 : Fin 1)} from by decide, bigSep_singleton]
  rfl

/-! ## The body's own semaphores and the operand it copies from -/

/-- The eight cells of the kernel's semaphore array (numbers 2 to 9 of the pool; 0 and 1 are the window's). -/
abbrev osem : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
/-- The padded source: unscoped, no window's array, no table. -/
def H0 : Finset (Ref sig .tc) := {main_v1}
theorem H0_sub : H0 ⊆ Pipeline.restRefsP sig pre0 spec0 := by decide

theorem ownSems_eq (c : Dev nD) :
    (Pipeline.ownSems0 (Ix := Unit) (Name := ℕ) (U := Pipeline.UD sig nD τ) (Lvl := ℕ) (Val := Elt F) (τ := τ) osem c : sProp 𝕄)
      = cells (F := F) c cc0_scratch0 := by
  rw [Pipeline.ownSems0_eq_of_list c osem [0, 1, 2, 3, 4, 5, 6, 7] (by decide) (by decide)]; rfl

theorem hbmPts_eq (c : Dev nD) :
    (bigSep H0 (fun b => ((c : Thread nD τ).loc b) ↦{fullShare} V m c b) : sProp 𝕄)
      = iprop(srcM.view.loc (c : Thread nD τ) ↦{fullShare} V m c main_v1) := by
  rw [BI.bigSep_eq_bigSepL_of_eq [main_v1] (by decide) (by decide)]; rfl

/-- The region's invariant, conjunct by conjunct. -/
theorem PhiD_eq (c : Dev nD) :
    (Pipeline.ΦD osem spec0 H0 (V m) c : sProp 𝕄)
      = iprop((BI.emp : sProp 𝕄) ∗ (∃ r, prngReg c r) ∗ cells (F := F) c cc0_scratch0
          ∗ (srcM.view.loc (c : Thread nD τ) ↦{fullShare} V m c main_v1)) := by
  rw [Pipeline.ΦD_eq, scopedRest0_eq, ownSems_eq, hbmPts_eq]

/-! ## The proof data -/

/-- What the window's buffer holds after the body at point `t`. -/
def outBlock (c : Dev nD) (t : Fin (cfgM m).N) : S1x32x8x56x256.Idx → Elt F .f32 :=
  blockVal (F := F) (grid0.coords t) (tbM.view.read (Elt F) (tbl m 0)) (srcM.view.read (Elt F) (V m c main_v1))

/-- The proof data of the one pipeline on core `c`. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlock m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_eq (c : Dev nD) (t : Fin (cfgM m).N) : (dats m 0 c).after 0 t = outBlock m c t := by dsimp only [dats]; rfl

end Cert.Proof.KernelIdealData

end
-- ==== Proof.KernelIdealLaunch.lean ====
/-
  The gather's launch: the body obligation at every grid point, what the one host line after the region may touch, and
  the run of @main.

  At each point the region hands the body its invariant — the eight cells at zero, the padded source whole, the table's
  half — and the window's current buffer at any contents; the body (Proof/KernelIdealBody.lean) returns them with the
  buffer at `outBlock`. The line after the region (the cut back to 49 rows) reads the result and writes a buffer of its
  own: it touches neither the table nor the padded source, which the region's invariant holds. The run then ends with
  the result array at what the library assembles from the blocks, and every other buffer at the line's result over the
  region-entry contents.
-/
import proofs.«407486_j41695542510269_2_alg».proof.Proof.KernelIdealData

set_option maxRecDepth 16384

noncomputable section

namespace Cert.Proof.KernelIdealLaunch

open Cert.KernelIdeal Cert.KernelIdeal.Gen Cert.Proof.KernelIdealTrip Cert.Proof.KernelIdealTripRead Cert.Proof.KernelIdealBody Cert.Proof.KernelIdealData
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of the table names a row of the padded source. -/
abbrev WordsInRange : Prop := ∀ r idx, (View.readAt (Elt F) (tbM).view r (tbl m 0) idx).toNat < 128

/-! ## The body obligation -/

/-- The window's current buffer at point `t`, as the pipeline passes it to the body. -/
abbrev stageAt (t : Fin (cfgM m).N) : Memref sig .tc .vmem S1x32x8x56x256 .f32 := spec0_0.stage ((cfgM m).slots t 0)
abbrev stageAt_whole (t : Fin (cfgM m).N) : (stageAt m t).IsWhole := hstage0_0 (((cfgM m).slots t 0).cast nbuf0_0)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (stageAt m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (stageAt m t) fullShare ((dats m 0 c).after 0 t))

set_option maxHeartbeats 1000000 in
/-- The body at any point, from the region's invariant. -/
theorem sound_body (hW : WordsInRange (F := F) m) (c : Dev nD) (t : Fin (cfgM m).N) :
    bodyPre m c t ⊢ wp frame (wpE (defs₀ (F := F)) Variants.none c none) Set.univ
      (cc0_kernel (F := F) (grid0.coords t) tbM (Memref.isWhole_whole _) srcM (Memref.isWhole_whole _) (stageAt m t) (stageAt_whole m t) cc0_scratch0)
      (fun _ => bodyPost m c t) := by
  unfold bodyPre bodyPost
  rw [show (dats m 0 c).Φ t.succ = (dats m 0 c).Φ t.castSucc from rfl, after_eq]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold owns
  iintro ⟨⟨⟨Hemp, Hg, HC, HX⟩, HT⟩, ⟨%W, -, HW⟩, ⟨%d0, %f0, -, H0⟩⟩
  iapply (wp_wand_r Idealize.ShloMosaic.frame (wpE (defs₀ (F := F)) Variants.none (c : Thread nD τ) none) Set.univ)
  isplitl [HT HX H0 HC HW]
  · iapply (kernel_run (F := F) c (grid0.coords t) tbM (Memref.isWhole_whole _) srcM (Memref.isWhole_whole _) (stageAt m t) (stageAt_whole m t)
      cc0_scratch0 fullShare.right (tbl m 0) (V m c main_v1) hW W)
    isplitl [HT]; · iexact HT
    isplitl [HX]; · iexact HX
    isplitl [H0]; · iexists f0; iexact H0
    isplitl [HC]; · iexact HC
    iexact HW
  · iintro %u ⟨HT, HX, HO, HC, ⟨%W', HW'⟩⟩
    isplitl [Hemp Hg HC HX HT]
    · isplitl [Hemp Hg HC HX]
      · isplitl [Hemp]; · iexact Hemp
        isplitl [Hg]; · iexact Hg
        isplitl [HC]; · iexact HC
        iexact HX
      iexact HT
    isplitl [HW']
    · iexists W'; isplitr; · ipureintro; exact fun _ _ => Or.inl trivial
      iexact HW'
    unfold outBlock owns
    iexact HO

/-- The library's body obligation, at every point. -/
theorem body_obligation (hW : WordsInRange (F := F) m) (c : Dev nD) :
    BodyObligation (dats (F := F) m 0 c) (defs₀ (F := F)) Variants.none () Set.univ := fun t => by
  rw [bigSep_W0, bigSep_W0]
  exact sound_body m hW c t

/-! ## The line after the region -/

/-- It touches the result and a buffer of its own only: neither the table nor the padded source. -/
theorem tail_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  · simp only [hostOps1, List.mem_cons, List.mem_nil_iff, or_false] at hop
    subst hop
    intro j; fin_cases j
    simp only [StableHlo.unary_bufs, Finset.mem_insert, Finset.mem_singleton, not_or]
    and_intros <;> exact StableHlo.devRef_ne_of_ne (by decide)
  · simp only [hostOps1, List.mem_cons, List.mem_nil_iff, or_false] at hop
    subst hop
    intro b hb
    simp only [H0, Finset.mem_singleton] at hb
    subst hb
    simp only [StableHlo.unary_bufs, Finset.mem_insert, Finset.mem_singleton, not_or]
    and_intros <;> exact StableHlo.devRef_ne_of_ne (by decide)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- And it writes no array of the pipeline (it writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w
  simp only [StableHlo.unary_writes, Finset.mem_singleton]
  exact StableHlo.devRef_ne_of_ne (by decide)

/-! ## The run -/

/-- What every buffer holds when @main ends: the arrays at what the library assembles from the blocks, the others at the
    last line's result over the region-entry contents. -/
abbrev finalVal (c : Dev nD) (b : Ref sig .tc) : Buf (Elt F) ((c : Thread nD τ).loc b) :=
  Pipeline.afterTail pcfgs (fun _ => adm m) (dats m) 0 (V0 m) [hostOps1] c b

set_option backward.isDefEq.respectTransparency.types false in
/-- From any memory with zero counters whose table words are in range: every weakly fair execution of @main terminates,
    and every final state has the result array at the blocks' assembly and every other unscoped buffer at `finalVal`. -/
theorem run_main (hW : WordsInRange (F := F) m) :
    θ_run defs (onTc (τ := τ) (main (F := F))) (s₀ m ρ)
      (Pipeline.FramePost (Pipeline.pin pcfgs fun _ => adm m) (dats m) 0 (finalVal m)) :=
  Pipeline.θ_run_frameP_dma_around pcfgs (fun _ => adm m) (dats m) (0 : Fin 1) launch0 osem defs₀ Variants.none ownSemFacts H0 H0_sub m ρ main
    (hbody := fun c => (body_obligation m hW c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m)
    (hin := fun _ => .rfl)
    (hout := fun c => by
      show iprop(Pipeline.ΦD osem spec0 H0 (V m) c ∗ Pipeline.ΦT pre0 (tbl m) c) ⊢ Pipeline.ΦD osem spec0 H0 (V m) c
      iintro ⟨HD, -⟩; iexact HD)

end Cert.Proof.KernelIdealLaunch

end
-- ==== Proof.KernelIdealHost.lean ====
/-
  The host side of the kernel's @main, read as functions of the launch memory.

  Before the region @main runs five host operations: kv reshaped to [32, 128, 49, 256]; the integer constant 0; its
  conversion to f32 (the fill value); the pad of the reshaped kv by seven rows at the high end of axis 2, to
  [32, 128, 56, 256]; idx reshaped to the table of 16384 words. The contents a buffer holds when the region is entered
  are the fold of these operations over the launch memory: each operation rewrites its own result buffer and leaves
  every other buffer as it was. So the padded source is the pad of the reshape of kv, the table is the reshape of idx,
  and the three arguments are untouched.

  Read at an index: the padded source below row 49 is the reshaped kv there (the pad only appends rows); the table at
  position 512·b + 8·q + j is idx at (b, q, j) (a reshape keeps row-major positions), so every word of the table is a
  word of idx, and a bound on all of idx's words is a bound on every word any load of the table reads.
-/
import proofs.«407486_j41695542510269_2_alg».proof.Proof.KernelIdealData
import proofs.«407486_j41695542510269_2_alg».proof.Proof.LibHostReads
import proofs.«407486_j41695542510269_2_alg».proof.Proof.Spec
import Idealize.ShloMosaic.Lib.StableHlo.Run
import Idealize.ShloMosaic.Lib.ValueIdx

set_option maxRecDepth 16384

noncomputable section

namespace Cert.Proof.KernelIdealHost

open Cert.KernelIdeal Cert.KernelIdeal.Facts₀ Cert.Proof.KernelIdealData
open Idealize.ShloMosaic Idealize.ShloMosaic.TcCoe

variable {F : FTy → Type} [FloatOps F]
variable (m : (ℓ : Loc nD τ sig) → Buf (Elt F) ℓ)

/-! ## What the buffers hold when the region is entered -/

/-- The padded source is the pad of kv reshaped to [32, 128, 49, 256], by seven rows at the high end of axis 2, filled
    with the f32 conversion of the integer 0: the composition of the first four host operations, of which the last
    writes this buffer. -/
theorem V_src (c : Dev nD) :
    V m c main_v1 = pad S32x128x56x256 ![0, 0, 0, 0] ![0, 0, 7, 0] ![0, 0, 0, 0]
      (shapeCast S32x128x49x256 (m ((c : Thread nD τ).loc main_arg2)) shapeCasts_S32x2x64x49x256_S32x128x49x256)
      (sitofp (F := F) .f32 (constantI S_ 32 0#32)) pads_S32x128x49x256_S32x128x56x256_000_000_070_000 h_S_ := by
  dsimp only [V, V0]
  simp only [Gen.hostOps0, Gen.hostOps0_1, Gen.hostOps0_2, List.flatten_cons, List.flatten_nil, List.append_nil, List.cons_append,
    List.nil_append]
  after_results
  rfl

/-- The table is idx reshaped to [16384]: the fifth host operation writes it and reads only idx, which none of the
    first four writes. -/
theorem tbl_eq :
    tbl m 0 = shapeCast S16384 (m (((0 : Dev nD) : Thread nD τ).loc main_arg0)) shapeCasts_S32x64x8_S16384 := by
  dsimp only [tbl, V, V0]
  simp only [Gen.hostOps0, Gen.hostOps0_1, Gen.hostOps0_2, List.flatten_cons, List.flatten_nil, List.append_nil, List.cons_append,
    List.nil_append]
  after_results
  rfl

/-- No host operation writes idx: it is as launched. -/
theorem V_arg0 (c : Dev nD) : V m c main_arg0 = m ((c : Thread nD τ).loc main_arg0) := by
  dsimp only [V, V0]
  simp only [Gen.hostOps0, Gen.hostOps0_1, Gen.hostOps0_2, List.flatten_cons, List.flatten_nil, List.append_nil, List.cons_append,
    List.nil_append]
  after_results

/-- No host operation writes the weights: they are as launched. -/
theorem V_arg1 (c : Dev nD) : V m c main_arg1 = m ((c : Thread nD τ).loc main_arg1) := by
  dsimp only [V, V0]
  simp only [Gen.hostOps0, Gen.hostOps0_1, Gen.hostOps0_2, List.flatten_cons, List.flatten_nil, List.append_nil, List.cons_append,
    List.nil_append]
  after_results

/-- No host operation writes kv: it is as launched. -/
theorem V_arg2 (c : Dev nD) : V m c main_arg2 = m ((c : Thread nD τ).loc main_arg2) := by
  dsimp only [V, V0]
  simp only [Gen.hostOps0, Gen.hostOps0_1, Gen.hostOps0_2, List.flatten_cons, List.flatten_nil, List.append_nil, List.cons_append,
    List.nil_append]
  after_results

/-! ## Read at an index -/

/-- The padded source, through the whole-buffer view (which reads the contents as they are), at `(b, r, w, cc)` with
    `w < 49`, is the reshaped kv at `(b, r, w, cc)`: the pad leaves the first 49 rows of axis 2 where they were. -/
theorem src_read (c : Dev nD) (b : Fin 32) (r : Fin 128) (w : Fin 56) (hw : w.val < 49) (cc : Fin 256) :
    srcM.view.read (Elt F) (V m c main_v1) (ValueIdx.ix4 b r w cc)
      = shapeCast S32x128x49x256 (m ((c : Thread nD τ).loc main_arg2)) shapeCasts_S32x2x64x49x256_S32x128x49x256
          (ValueIdx.ix4 b r ⟨w.val, hw⟩ cc) := by
  show V m c main_v1 (ValueIdx.ix4 b r w cc) = _
  rw [V_src]
  exact Cert.Proof.LibHostReads.pad_apply_of_lt _ _ _ _ b r w cc hw

/-- The table, through the whole-buffer view, at the position `p = 512·b + 8·q + j`, is idx at `(b, q, j)`: that is
    `(b, q, j)`'s row-major position in [32, 64, 8]. -/
theorem tbl_read (b : Fin 32) (q : Fin 64) (j : Fin 8) (p : Fin 16384) (hp : p.val = 512 * b.val + 8 * q.val + j.val) :
    tbM.view.read (Elt F) (tbl m 0) (ValueIdx.ix1 p)
      = m (((0 : Dev nD) : Thread nD τ).loc main_arg0) (ValueIdx.ix3 b q j) := by
  show tbl m 0 (ValueIdx.ix1 p) = _
  rw [tbl_eq]
  exact Cert.Proof.LibHostReads.flatten_apply_of_pos _ _ p b q j hp

/-- If every word of idx is below 128, so is every word any load of the table reads. A load reads the table at some
    position `p < 16384`; with `b = p / 512`, `q = p % 512 / 8`, `j = p % 8` (so `b < 32`, `q < 64`, `j < 8` and
    `p = 512·b + 8·q + j`) that word is idx at `(b, q, j)`. -/
theorem words_in_range (h : ∀ j : S32x64x8.Idx, (m (((0 : Dev nD) : Thread nD τ).loc main_arg0) j).toNat < 128)
    (r : LoadRect S16384) (x : r.shape.Idx) : (tbM.view.readAt (Elt F) r (tbl m 0) x).toNat < 128 := by
  obtain ⟨p, hp⟩ : ∃ p : Fin 16384, r.idx x = ValueIdx.ix1 p := ⟨r.idx x 0, ValueIdx.eq_ix1 _⟩
  have hlt := p.isLt
  have e : tbM.view.readAt (Elt F) r (tbl m 0) x
      = m (((0 : Dev nD) : Thread nD τ).loc main_arg0)
          (ValueIdx.ix3 (⟨p.val / 512, by omega⟩ : Fin 32) (⟨p.val % 512 / 8, by omega⟩ : Fin 64) (⟨p.val % 8, by omega⟩ : Fin 8)) :=
    (congrArg (tbM.view.read (Elt F) (tbl m 0)) hp).trans
      (tbl_read m ⟨p.val / 512, by omega⟩ ⟨p.val % 512 / 8, by omega⟩ ⟨p.val % 8, by omega⟩ p
        (by show p.val = 512 * (p.val / 512) + 8 * (p.val % 512 / 8) + p.val % 8; omega))
  exact lt_of_eq_of_lt (congrArg BitVec.toNat e) (h _)

end Cert.Proof.KernelIdealHost

end
-- ==== Proof.KernelIdealFrame.lean ====
/-
  The frame claim, read off the gather's run.

  The run ends with every unscoped buffer that is no window's array at the last line's result over the region-entry
  contents. The three arguments are written by no host operation, before the region or after it, and staged by no
  window: they end as launched. The precondition's bound on the index words is the bound on the table's words the body
  needs (the table is idx flattened).
-/
import proofs.«407486_j41695542510269_2_alg».proof.Proof.KernelIdealLaunch
import proofs.«407486_j41695542510269_2_alg».proof.Proof.KernelIdealHost

set_option maxRecDepth 16384

noncomputable section

namespace Cert.Proof.KernelIdealFrame

open Cert.KernelIdeal Cert.KernelIdeal.Gen Cert.Proof.KernelIdealData Cert.Proof.KernelIdealLaunch Cert.Proof.KernelIdealHost
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- No line after the region writes argument 0, and no window stages it: it ends as launched. -/
theorem final_arg0 (c : Dev nD) : finalVal m c main_arg0 = m ((c : Thread nD τ).loc main_arg0) := by
  unfold finalVal Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No line after the region writes argument 1, and no window stages it: it ends as launched. -/
theorem final_arg1 (c : Dev nD) : finalVal m c main_arg1 = m ((c : Thread nD τ).loc main_arg1) := by
  unfold finalVal Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line after the region writes argument 2, and no window stages it: it ends as launched. -/
theorem final_arg2 (c : Dev nD) : finalVal m c main_arg2 = m ((c : Thread nD τ).loc main_arg2) := by
  unfold finalVal Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- The three arguments are unscoped and no window's array. -/
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)
theorem arg2_rest : main_arg2 ∈ Pipeline.restRefs sig spec0 := Pipeline.mem_restRefs_of main_arg2 (by decide) (by decide)

/-- THE FRAME: when every index word is below 128, every weakly fair execution of @main terminates, nothing faults, and
    the three arguments end as launched. -/
theorem frame (hidx : ∀ j : S32x64x8.Idx, (m (((0 : Dev nD) : Thread nD τ).loc main_arg0) j).toNat < 128) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 arg0_rest).trans (final_arg0 m c),
      ((h c).2 main_arg1 arg1_rest).trans (final_arg1 m c),
      ((h c).2 main_arg2 arg2_rest).trans (final_arg2 m c)⟩)
    (run_main m ρ (words_in_range m hidx))

end Cert.Proof.KernelIdealFrame

end
-- ==== Proof.KernelIdealArray.lean ====
/-
  The result array after the region, assembled from the blocks the body leaves.

  The region's grid is 32 × 2; its one window is the result [32, 64, 8, 56, 256] in blocks [1, 32, 8, 56, 256], the point of
  coordinates (n, p) — point number 2 n + p — at block index (n, p, 0, 0, 0). After the body the point's block holds, at
  (0, k, j, w, c), the padded source at (n, row of the table's word at 512 n + 256 p + 8 k + j, w, c). That element is the
  array's element (n, 32 p + k, j, w, c), and 512 n + 256 p + 8 k + j = 512 n + 8 (32 p + k) + j: every block is the
  restriction of ONE function of the array's index,

      (n, q, j, w, c)  ↦  source[n, row of the word at 512 n + 8 q + j, w, c],

  the gather of the padded source at the table. Every point writes its block back (consecutive points have different
  block indices), and the blocks tile the array: row q of batch n lies in the block of the point (n, q / 32). So the array
  ends holding that function. The index map reads no table, so every fact about the window is stated at any contents of
  the table and used at the contents the region is entered with.
-/
import proofs.«407486_j41695542510269_2_alg».proof.Proof.KernelIdealData
import Idealize.ShloMosaic.Lib.Pipeline.Value
import Idealize.ShloMosaic.Lib.Pipeline.Kit
import Idealize.ShloMosaic.Lib.ValueIdx

set_option maxRecDepth 16384

noncomputable section

namespace Cert.Proof.KernelIdealArray

open Cert.KernelIdeal Cert.KernelIdeal.Gen Cert.Proof.KernelIdealTripRead Cert.Proof.KernelIdealData
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The gather of the padded source at the table -/

/-- The table position of word (n, q, j) of the flattened idx, inside its 32·64·8 words. -/
theorem flatPos_lt (y : S32x64x8x56x256.Idx) : 512 * (y 0).val + 8 * (y 1).val + (y 2).val < 16384 := by
  have h0 : (y 0).val < 32 := (y 0).isLt
  have h1 : (y 1).val < 64 := (y 1).isLt
  have h2 : (y 2).val < 8 := (y 2).isLt
  omega

/-- The gather of the padded source at the table, from the table's words `Tr` and the source `Xr`:
    at (n, q, j, w, c) the source at (n, row of the word at 512 n + 8 q + j, w, c). -/
def gatherOf (Tr : S16384.Idx → Elt F .i32) (Xr : S32x128x56x256.Idx → Elt F .f32) : S32x64x8x56x256.Idx → Elt F .f32 :=
  fun y => Xr (ix4 (y 0 : Fin 32) (Cert.Proof.Spec.rowOf (Tr (ix1 (⟨512 * (y 0).val + 8 * (y 1).val + (y 2).val, flatPos_lt y⟩ : Fin 16384))))
    (y 3 : Fin 56) (y 4 : Fin 256))

/-- The same at the contents the region is entered at. -/
def padGathered (c : Dev nD) : S32x64x8x56x256.Idx → Elt F .f32 := fun y =>
  srcM.view.read (Elt F) (V m c main_v1) (ix4 (y 0 : Fin 32)
    (Cert.Proof.Spec.rowOf (tbM.view.read (Elt F) (tbl m 0) (ix1 (⟨512 * (y 0).val + 8 * (y 1).val + (y 2).val, flatPos_lt y⟩ : Fin 16384))))
    (y 3 : Fin 56) (y 4 : Fin 256))

/-- It is the gather of the table's words and the source as the region finds them. -/
theorem padGathered_eq (c : Dev nD) :
    padGathered m c = gatherOf (F := F) (tbM.view.read (Elt F) (tbl m 0)) (srcM.view.read (Elt F) (V m c main_v1)) := rfl

/-! ## The window's index map, whatever the table holds -/

/-- The block index at point `t` is the printed index map at the point's coordinates, whatever the table holds. -/
theorem index_eq (a : (pcfg0 (F := F)).Adm) (t : Fin (cfg0 a).N) :
    ((cfg0 a).win 0).index t = cc0_transform_1 (grid0.coords t) := rfl

/-- Point number t has coordinates (t / 2, t % 2), and its block index is (t / 2, t % 2, 0, 0, 0). -/
theorem point_facts : ∀ t : Fin grid0.N, (grid0.coords t 0).val = t.val / 2 ∧ (grid0.coords t 1).val = t.val % 2
    ∧ cc0_transform_1 (grid0.coords t) 0 = t.val / 2 ∧ cc0_transform_1 (grid0.coords t) 1 = t.val % 2
    ∧ cc0_transform_1 (grid0.coords t) 2 = 0 ∧ cc0_transform_1 (grid0.coords t) 3 = 0 ∧ cc0_transform_1 (grid0.coords t) 4 = 0 :=
  (by decide +kernel : ∀ t : Fin grid0.N, _)

/-- The result's window is written back at every point (its index map reads no table). -/
theorem flush_all (a : (pcfg0 (F := F)).Adm) : ∀ t : Fin (cfg0 a).N, ((cfg0 a).win 0).flush t = true :=
  (by decide +kernel : ∀ t : Fin grid0.N, Pipeline.Window.flushOf grid0 true cc0_transform_1 t = true)

/-! ## A point's block inside the array -/

/-- An index of the array is in point `t`'s block iff each coordinate is in the block's range on its axis. -/
theorem mem_blk (a : (pcfg0 (F := F)).Adm) (t : Fin (cfg0 a).N) (i : S32x64x8x56x256.Idx) :
    i ∈ (((cfg0 a).win 0).blk t).view.set ↔ ∀ b : Fin 5,
      ((cfg0 a).win 0).index t b * S1x32x8x56x256.size b ≤ (i b).val
        ∧ (i b).val < ((cfg0 a).win 0).index t b * S1x32x8x56x256.size b + S1x32x8x56x256.size b := by
  exact (Iff.of_eq (congrArg (fun S => i ∈ S) (View.set_slice_whole main_v3 (((cfg0 a).win 0).rect t)))).trans
    Rect.mem_set_unit

/-- The blocks tile the array: row q of batch n lies in the block of the point (n, q / 32), the point number
    2 n + q / 32. -/
theorem cover (a : (pcfg0 (F := F)).Adm) (i : S32x64x8x56x256.Idx) :
    ∃ t : Fin (cfg0 a).N, ((cfg0 a).win 0).flush t = true ∧ i ∈ (((cfg0 a).win 0).blk t).view.set := by
  have h0 : (i 0).val < 32 := (i 0).isLt
  have h1 : (i 1).val < 64 := (i 1).isLt
  have h2 : (i 2).val < 8 := (i 2).isLt
  have h3 : (i 3).val < 56 := (i 3).isLt
  have h4 : (i 4).val < 256 := (i 4).isLt
  have hN : grid0.N = 64 := N_0
  obtain ⟨t, ht⟩ : ∃ t : Fin grid0.N, t.val = 2 * (i 0).val + (i 1).val / 32 := ⟨⟨2 * (i 0).val + (i 1).val / 32, by omega⟩, rfl⟩
  obtain ⟨-, -, e0, e1, e2, e3, e4⟩ := point_facts t
  refine ⟨t, flush_all a t, ?_⟩
  rw [mem_blk]
  intro b
  match b with
  | ⟨0, _⟩ =>
    show cc0_transform_1 (grid0.coords t) 0 * 1 ≤ (i 0).val ∧ (i 0).val < cc0_transform_1 (grid0.coords t) 0 * 1 + 1
    omega
  | ⟨1, _⟩ =>
    show cc0_transform_1 (grid0.coords t) 1 * 32 ≤ (i 1).val ∧ (i 1).val < cc0_transform_1 (grid0.coords t) 1 * 32 + 32
    omega
  | ⟨2, _⟩ =>
    show cc0_transform_1 (grid0.coords t) 2 * 8 ≤ (i 2).val ∧ (i 2).val < cc0_transform_1 (grid0.coords t) 2 * 8 + 8
    omega
  | ⟨3, _⟩ =>
    show cc0_transform_1 (grid0.coords t) 3 * 56 ≤ (i 3).val ∧ (i 3).val < cc0_transform_1 (grid0.coords t) 3 * 56 + 56
    omega
  | ⟨4, _⟩ =>
    show cc0_transform_1 (grid0.coords t) 4 * 256 ≤ (i 4).val ∧ (i 4).val < cc0_transform_1 (grid0.coords t) 4 * 256 + 256
    omega

/-! ## What a point writes back is its block of the gather -/

/-- Rank-4 indices with equal coordinates are equal. -/
theorem ix4_ext {n0 n1 n2 n3 : Nat} {a a' : Fin n0} {b b' : Fin n1} {c c' : Fin n2} {d d' : Fin n3}
    (ha : a = a') (hb : b = b') (hc : c = c') (hd : d = d') : ix4 a b c d = ix4 a' b' c' d' := by
  rw [ha, hb, hc, hd]

/-- At the point of coordinates (n, p) the block's element (0, k, j, w, c) is the gather's element (n, 32 p + k, j, w, c):
    the word the block reads for it, at 512 n + 256 p + 8 k + j, is the word the gather reads at 512 n + 8 (32 p + k) + j. -/
theorem blockVal_eq_gatherOf (i : grid0.Coords) (Tr : S16384.Idx → Elt F .i32) (Xr : S32x128x56x256.Idx → Elt F .f32)
    (j : S1x32x8x56x256.Idx) (e : S32x64x8x56x256.Idx)
    (h0 : (e 0).val = (i 0).val) (h1 : (e 1).val = 32 * (i 1).val + (j 1).val) (h2 : (e 2).val = (j 2).val)
    (h3 : (e 3).val = (j 3).val) (h4 : (e 4).val = (j 4).val) :
    blockVal (F := F) i Tr Xr j = gatherOf Tr Xr e := by
  unfold blockVal gatherOf
  refine congrArg Xr (ix4_ext (Fin.ext h0.symm) ?_ (Fin.ext h3.symm) (Fin.ext h4.symm))
  refine congrArg (fun p => Cert.Proof.Spec.rowOf (Tr (ix1 p))) (Fin.ext ?_)
  show 512 * (i 0).val + 256 * (i 1).val + 8 * (j 1).val + (j 2).val = 512 * (e 0).val + 8 * (e 1).val + (e 2).val
  omega

/-- What the body leaves at point `t`, as the write-back moves it, is the point's block of the gather. A block's
    coordinate in the array is its block index times the block's size plus the coordinate inside the block. -/
theorem block_read (a : (pcfg0 (F := F)).Adm) (t : Fin (cfg0 a).N)
    (Tr : S16384.Idx → Elt F .i32) (Xr : S32x128x56x256.Idx → Elt F .f32) :
    ((cfg0 a).win 0).cut (grid0.coords t) (blockVal (F := F) (grid0.coords t) Tr Xr)
      = (((cfg0 a).win 0).blk t).view.read (Elt F) (gatherOf Tr Xr) := by
  obtain ⟨c0, c1, e0, e1, e2, e3, e4⟩ := point_facts t
  refine funext fun (j : S1x32x8x56x256.Idx) => ?_
  have j0 : (j 0).val < 1 := (j 0).isLt
  have k0 : (grid0.coords t 0).val < 32 := (grid0.coords t 0).isLt
  have k1 : (grid0.coords t 1).val < 2 := (grid0.coords t 1).isLt
  refine blockVal_eq_gatherOf (grid0.coords t) Tr Xr (((cfg0 a).win 0).xinj (grid0.coords t) j)
    ((((cfg0 a).win 0).blk t).view.emb j) ?_ ?_ ?_ ?_ ?_
  · show cc0_transform_1 (grid0.coords t) 0 * 1 + 1 * (j 0).val = (grid0.coords t 0).val
    omega
  · show cc0_transform_1 (grid0.coords t) 1 * 32 + 1 * (j 1).val = 32 * (grid0.coords t 1).val + (j 1).val
    omega
  · show cc0_transform_1 (grid0.coords t) 2 * 8 + 1 * (j 2).val = (j 2).val
    omega
  · show cc0_transform_1 (grid0.coords t) 3 * 56 + 1 * (j 3).val = (j 3).val
    omega
  · show cc0_transform_1 (grid0.coords t) 4 * 256 + 1 * (j 4).val = (j 4).val
    omega

/-- WHAT POINT `t` WRITES BACK is block `t` of the gather at the contents the region is entered with. -/
theorem flushed_eq (c : Dev nD) (t : Fin (cfgM m).N) :
    (dats m 0 c).flushed 0 t
      = (((cfgM m).win 0).blk t).view.read (Elt F)
          (padGathered m c : Buf (Elt F) (((cfgM m).win 0).arr.view.loc (c.tc : Thread nD τ))) := by
  show ((cfgM m).win 0).cut (grid0.coords t) ((dats m 0 c).after 0 t) = _
  rw [after_eq]
  exact block_read (adm m) t _ _

/-- THE RESULT ARRAY after the region: the gather of the padded source at the table. -/
theorem arr_final (c : Dev nD) :
    (dats m 0 c).arrAt 0 (cfgM m).N
      = (padGathered m c : Buf (Elt F) (((cfgM m).win 0).arr.view.loc (c.tc : Thread nD τ))) :=
  (dats m 0 c).arrAt_eq_of_cover 0 (padGathered m c) (fun t _ => flushed_eq m c t) (cover (adm m))

end Cert.Proof.KernelIdealArray

end
-- ==== Proof.KernelIdealValue.lean ====
/-
  The gather's result, as a value.

  When @main ends the result buffer holds the last line's cut (rows 0 … 48 of 56) of the array the blocks assemble to.
  That array holds, at (b, q, j, w, c), the padded source at (b, row of the table's word 512 b + 8 q + j, w, c); for
  w < 49 the padded source is kv with its two middle axes merged, and the table's word at that position is idx[b, q, j].
  So the result is the specification's gather of idx and the merged kv.
-/
import proofs.«407486_j41695542510269_2_alg».proof.Proof.KernelIdealFrame
import proofs.«407486_j41695542510269_2_alg».proof.Proof.KernelIdealArray
import proofs.«407486_j41695542510269_2_alg».proof.Proof.LibHostReads
import proofs.«407486_j41695542510269_2_alg».proof.Proof.Spec

set_option maxRecDepth 16384

noncomputable section

namespace Cert.Proof.KernelIdealValue

open Cert.KernelIdeal Cert.KernelIdeal.Gen
open Cert.Proof.KernelIdealData Cert.Proof.KernelIdealLaunch Cert.Proof.KernelIdealHost Cert.Proof.KernelIdealFrame Cert.Proof.KernelIdealArray
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The specification's gather of the launch memory's idx and kv (kv with its two middle axes merged). -/
abbrev spec (c : Dev nD) : S32x64x8x49x256.Idx → Elt F .f32 :=
  Cert.Proof.Spec.gathered (m ((c : Thread nD τ).loc main_arg0))
    (shapeCast S32x128x49x256 (m ((c : Thread nD τ).loc main_arg2)) shapeCasts_S32x2x64x49x256_S32x128x49x256)

/-- The result buffer when @main ends is the specification's gather. -/
theorem final_result (hidx : ∀ j : S32x64x8.Idx, (m (((0 : Dev nD) : Thread nD τ).loc main_arg0) j).toNat < 128) (c : Dev nD) :
    finalVal m c main_v4 = spec m c := by
  obtain rfl : c = 0 := Subsingleton.elim _ _
  unfold finalVal Pipeline.afterTail
  show StableHlo.after hostOps1 _ (Proc.devRef .tc main_v4) = _
  after_results
  -- the cut of the array the blocks assemble to
  rw [Pipeline.withArrays_arr spec0 (launch0 (F := F)).win.arr_inj (0 : Dev nD) _ _ 0]
  show extractStridedSlice (s := S32x64x8x56x256) (α := Elt F .f32) S32x64x8x49x256 ![0, 0, 0, 0, 0]
    ((dats m 0 (0 : Dev nD)).arrAt 0 (cfgM m).N) slices_S32x64x8x56x256_S32x64x8x49x256_0_0_0_0_0 = _
  rw [arr_final]
  funext y
  have hw : (y 3).val < 49 := (y 3).isLt
  -- row w < 49 of the cut is row w of the array; there the padded source is kv merged, and the table's word is idx's
  rw [Cert.Proof.LibHostReads.slice_apply]
  show srcM.view.read (Elt F) (V m (0 : Dev nD) main_v1) (ValueIdx.ix4 (y 0 : Fin 32)
      (Cert.Proof.Spec.rowOf (tbM.view.read (Elt F) (tbl m 0) (ValueIdx.ix1 (⟨512 * (y 0).val + 8 * (y 1).val + (y 2).val, _⟩ : Fin 16384))))
      (⟨(y 3).val, _⟩ : Fin 56) (y 4 : Fin 256)) = _
  rw [src_read m (0 : Dev nD) (y 0) _ ⟨(y 3).val, _⟩ hw (y 4), tbl_read m (y 0) (y 1) (y 2) ⟨_, _⟩ rfl]
  rfl

/-- The result buffer is unscoped and no window's array. -/
theorem v4_rest : main_v4 ∈ Pipeline.restRefs sig spec0 := Pipeline.mem_restRefs_of main_v4 (by decide) (by decide)

/-- THE VALUE RUN: when every index word is below 128, every weakly fair execution of @main terminates with the result
    at the specification's gather and the three arguments as launched. -/
theorem run_value (hidx : ∀ j : S32x64x8.Idx, (m (((0 : Dev nD) : Thread nD τ).loc main_arg0) j).toNat < 128) :
    θ_run defs (onTc (τ := τ) (main (F := F))) ⟨m, fun _ => 0, ρ⟩ (fun r => ∀ c : Dev nD,
      r.2.mem ((c.tc : Thread nD τ).loc main_v4) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v4 v4_rest).trans (final_result m hidx c),
      ((h c).2 main_arg0 arg0_rest).trans (final_arg0 m c),
      ((h c).2 main_arg1 arg1_rest).trans (final_arg1 m c),
      ((h c).2 main_arg2 arg2_rest).trans (final_arg2 m c)⟩)
    (run_main m ρ (words_in_range m hidx))

end Cert.Proof.KernelIdealValue

end
-- ==== Proof.lean ====
/-
  A gather of KV tiles by index, against its reference: out[b, q, k] = kvflat[b, idx[b, q, k]].

  The kernel pads kvflat's 49 rows to 56, flattens idx into a table it keeps in scalar memory, and at each of its 32 × 2
  grid points copies, for 32 query positions and 8 slots each, the tile of the padded source that the table's word
  names into the output block, eight copies in flight at a time; the result is cut back to 49 rows. The reference
  indexes kvflat by idx directly. Both index an axis of extent 128, so both are defined for index words in [0, 128):
  that range is the precondition's added conjunct. Under it the kernel's copies stay inside the source (its frame), and
  both programs compute the specification's `gathered` (Proof/Spec.lean): pure data movement, no arithmetic, so nothing
  is asked of the floats.

  frame_Kernel / frame_KernelIdeal: the launch run (Proof/KernelFrame.lean, Proof/KernelIdealFrame.lean — one text at the
  two programs). frame_ReferenceIdeal and the reference's value: Proof/RefGather.lean. preserves: the ideal pass rewrote
  nothing. algebraic: Proof/KernelIdealValue.lean against Proof/RefGather.lean.
-/
import proofs.«407486_j41695542510269_2_alg».proof.Defs
import proofs.«407486_j41695542510269_2_alg».proof.Proof.Gen.Kernel
import proofs.«407486_j41695542510269_2_alg».proof.Proof.Gen.KernelIdeal
import proofs.«407486_j41695542510269_2_alg».proof.Proof.Gen.ReferenceIdeal
import proofs.«407486_j41695542510269_2_alg».proof.Proof.Gen.Pre_finite_inputs
import proofs.«407486_j41695542510269_2_alg».proof.Proof.IdxRange
import proofs.«407486_j41695542510269_2_alg».proof.Proof.RefGather
import proofs.«407486_j41695542510269_2_alg».proof.Proof.KernelFrame
import proofs.«407486_j41695542510269_2_alg».proof.Proof.KernelIdealFrame
import proofs.«407486_j41695542510269_2_alg».proof.Proof.KernelIdealValue

noncomputable section

namespace Cert.Proof

open Idealize.ShloMosaic Idealize.ShloMosaic.TcCoe Idealize.SL.Sem

/-- The kernel as printed runs, faults nowhere, and leaves its arguments unchanged. -/
theorem frame_k : Cert.frame_Kernel := fun m ρ hpre =>
  Cert.Proof.KernelFrame.frame (F := Bits) m ρ (fun j => Cert.Proof.IdxRange.word_lt _ _ _ (hpre 0) j)

/-- The same of its idealization. -/
theorem frame_ki : Cert.frame_KernelIdeal := fun m ρ hpre =>
  Cert.Proof.KernelIdealFrame.frame (F := Ideal) m ρ (fun j => Cert.Proof.IdxRange.word_lt _ _ _ (hpre 0) j)

/-- From memories agreeing on the arguments both idealized programs end with the specification's gather. -/
theorem algebraic : Cert.algebraic_KernelIdeal_ReferenceIdeal := by
  intro m ρ m' ρ' hpre hagree
  have hidx : ∀ (c : Dev Cert.KernelIdeal.nD) (j : Cert.KernelIdeal.S32x64x8.Idx),
      (m ((c.tc : Thread Cert.KernelIdeal.nD Cert.KernelIdeal.τ).loc Cert.KernelIdeal.main_arg0) j).toNat < 128 :=
    fun c j => Cert.Proof.IdxRange.word_lt _ _ _ (hpre c) j
  refine ⟨fun c => Cert.Proof.KernelIdealValue.spec (F := Ideal) m c,
    Cert.Proof.KernelIdealValue.run_value (F := Ideal) m ρ (hidx 0), ?_⟩
  refine (θ_run Cert.ReferenceIdeal.defs _ _).mono (fun _ h c => ⟨(h c).1.trans ?_, (h c).2⟩)
    (Cert.Proof.RefGather.run_gathered m' ρ' (fun c j => by rw [(hagree c).1]; exact hidx c j))
  rw [(hagree c).1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefGather.frame_ri, trivial, algebraic⟩

end Cert.Proof

end
